-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x768 : Shape := ⟨3, ![64, 128, 768]⟩
abbrev S768x768 : Shape := ⟨2, ![768, 768]⟩
abbrev S768 : Shape := ⟨1, ![768]⟩
abbrev S_ : Shape := ⟨0, ![]⟩

class Facts : Prop where
  bcast_S_S64x128x768 : S_.BroadcastsInDim S64x128x768 (![] : Fin 0 → Fin S64x128x768.rank)
  reducesTo_S64x128x768_S_d0_1_2 : S64x128x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg7 : FVec F S768 .f32) (main_arg8 : FVec F S768 .f32) (main_arg9 : FVec F S768 .f32) (main_arg10 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg4 : FVec F S768x768 .f32) (main_arg5 : FVec F S768 .f32) (main_arg6 : FVec F S768 .f32) (main_arg7 : FVec F S768 .f32) (main_arg8 : FVec F S768 .f32) (main_arg9 : FVec F S768 .f32) (main_arg10 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x128x768 .f32) (main_arg1 : FVec F S768x768 .f32) (main_arg2 : FVec F S768x768 .f32) (main_arg3 : FVec F S768x768 .f32) (main_arg4 : FVec F S768x768 .f32) (main_arg5 : FVec F S768 .f32) (main_arg6 : FVec F S768 .f32) (main_arg7 : FVec F S768 .f32) (main_arg8 : FVec F S768 .f32) (main_arg9 : FVec F S768 .f32) (main_arg10 : FVec F S768 .f32) : IVec S_ 1 :=
  let main_v0 : FVec F S64x128x768 .f32 := Host.absf main_arg0
  let main_cst : FVec F S_ .f32 := constant S_ .f32 0x7F800000#32
  let main_v1 : FVec F S64x128x768 .f32 := broadcastInDim S64x128x768 ![] bcast_S_S64x128x768 main_cst
  let main_v2 : IVec S64x128x768 1 := cmpf .olt main_v0 main_v1
  let main_c : IVec S_ 1 := constantI S_ 1 1#1
  let main_v3 : IVec S_ 1 := (fun x v => Host.reduce IntOp.andi x v reducesTo_S64x128x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_arg9 main_arg10 main_v13 main_v16
-- ==== Kernel.lean ====
abbrev S64x128x768 : Shape := ⟨3, ![64, 128, 768]⟩
abbrev S768x768 : Shape := ⟨2, ![768, 768]⟩
abbrev S768 : Shape := ⟨1, ![768]⟩
abbrev S8192x768 : Shape := ⟨2, ![8192, 768]⟩
abbrev S1x768 : Shape := ⟨2, ![1, 768]⟩
abbrev S1024x768 : Shape := ⟨2, ![1024, 768]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x768 : Shape := ⟨2, ![128, 768]⟩

abbrev nBuf : Space → Nat
  | .hbm => 24
  | .vmem => 14
  | .smem => 0
  | _ => 0

abbrev bufTy : (tb : Table) → Fin (tcTables nBuf tb) → BufTy
  | .hbm, ⟨0, _⟩ => ⟨S64x128x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S8192x768, .f32⟩
  | .hbm, ⟨12, _⟩ => ⟨S768x768, .bf16⟩
  | .hbm, ⟨13, _⟩ => ⟨S768x768, .bf16⟩
  | .hbm, ⟨14, _⟩ => ⟨S768x768, .bf16⟩
  | .hbm, ⟨15, _⟩ => ⟨S768x768, .bf16⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S8192x768, .f32⟩
  | .hbm, ⟨23, _⟩ => ⟨S64x128x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S768x768, .bf16⟩
  | .local _ .vmem, ⟨4, _⟩ => ⟨S768x768, .bf16⟩
  | .local _ .vmem, ⟨5, _⟩ => ⟨S768x768, .bf16⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S1024x768, .f32⟩
  | .local _ .vmem, ⟨13, _⟩ => ⟨S1024x768, .f32⟩
  | _, _ => ⟨S64x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S64x128x768_S8192x768 : S64x128x768.ShapeCasts S8192x768
  bitsLt_bf16_f32 : FTy.bits .bf16 < FTy.bits .f32
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S128x64 : S1024x768.Slices ![0, 0] S128x64
  reduces_S128x128_S128 : S128x128.Reduces [1] S128
  shapeCasts_S128_S128x1 : S128.ShapeCasts S128x1
  broadcasts_S128x1_S128x128 : S128x1.Broadcasts S128x128
  slices_S1024x768_o0_64_S128x64 : S1024x768.Slices ![0, 64] S128x64
  slices_S1024x768_o0_128_S128x64 : S1024x768.Slices ![0, 128] S128x64
  slices_S1024x768_o0_192_S128x64 : S1024x768.Slices ![0, 192] S128x64
  slices_S1024x768_o0_256_S128x64 : S1024x768.Slices ![0, 256] S128x64
  slices_S1024x768_o0_320_S128x64 : S1024x768.Slices ![0, 320] S128x64
  slices_S1024x768_o0_384_S128x64 : S1024x768.Slices ![0, 384] S128x64
  slices_S1024x768_o0_448_S128x64 : S1024x768.Slices ![0, 448] S128x64
  slices_S1024x768_o0_512_S128x64 : S1024x768.Slices ![0, 512] S128x64
  slices_S1024x768_o0_576_S128x64 : S1024x768.Slices ![0, 576] S128x64
  slices_S1024x768_o0_640_S128x64 : S1024x768.Slices ![0, 640] S128x64
  slices_S1024x768_o0_704_S128x64 : S1024x768.Slices ![0, 704] S128x64
  concatenates_S128x64_S128x64_S128x64_S128x64_S128x64_S128x64_S128x64_S128x64_S128x64_S128x64_S128x64_S128x64_S128x768_d1 : Shape.Concatenates [S128x64, S128x64, S128x64, S128x64, S128x64, S128x64, S128x64, S128x64, S128x64, S128x64, S128x64, S128x64] S128x768 1
  broadcasts_S1x768_S128x768 : S1x768.Broadcasts S128x768
  slices_S1024x768_o0_0_S128x768 : S1024x768.Slices ![0, 0] S128x768
  reduces_S128x768_S128 : S128x768.Reduces [1] S128
  broadcasts_S128x1_S128x768 : S128x1.Broadcasts S128x768
  inb_S1024x768_S128x768_0_0 : ∀ a, (![0, 0] : Fin 2 → Nat) a + S128x768.size a ≤ S1024x768.size a
  h_S128x768 : 0 < S128x768.numel
  slices_S1024x768_o128_0_S128x64 : S1024x768.Slices ![128, 0] S128x64
  slices_S1024x768_o128_64_S128x64 : S1024x768.Slices ![128, 64] S128x64
  slices_S1024x768_o128_128_S128x64 : S1024x768.Slices ![128, 128] S128x64
  slices_S1024x768_o128_192_S128x64 : S1024x768.Slices ![128, 192] S128x64
  slices_S1024x768_o128_256_S128x64 : S1024x768.Slices ![128, 256] S128x64
  slices_S1024x768_o128_320_S128x64 : S1024x768.Slices ![128, 320] S128x64
  slices_S1024x768_o128_384_S128x64 : S1024x768.Slices ![128, 384] S128x64
  slices_S1024x768_o128_448_S128x64 : S1024x768.Slices ![128, 448] S128x64
  slices_S1024x768_o128_512_S128x64 : S1024x768.Slices ![128, 512] S128x64
  slices_S1024x768_o128_576_S128x64 : S1024x768.Slices ![128, 576] S128x64
  slices_S1024x768_o128_640_S128x64 : S1024x768.Slices ![128, 640] S128x64
  slices_S1024x768_o128_704_S128x64 : S1024x768.Slices ![128, 704] S128x64
  slices_S1024x768_o128_0_S128x768 : S1024x768.Slices ![128, 0] S128x768
  inb_S1024x768_S128x768_128_0 : ∀ a, (![128, 0] : Fin 2 → Nat) a + S128x768.size a ≤ S1024x768.size a
  slices_S1024x768_o256_0_S128x64 : S1024x768.Slices ![256, 0] S128x64
  slices_S1024x768_o256_64_S128x64 : S1024x768.Slices ![256, 64] S128x64
  slices_S1024x768_o256_128_S128x64 : S1024x768.Slices ![256, 128] S128x64
  slices_S1024x768_o256_192_S128x64 : S1024x768.Slices ![256, 192] S128x64
  slices_S1024x768_o256_256_S128x64 : S1024x768.Slices ![256, 256] S128x64
  slices_S1024x768_o256_320_S128x64 : S1024x768.Slices ![256, 320] S128x64
  slices_S1024x768_o256_384_S128x64 : S1024x768.Slices ![256, 384] S128x64
  slices_S1024x768_o256_448_S128x64 : S1024x768.Slices ![256, 448] S128x64
  slices_S1024x768_o256_512_S128x64 : S1024x768.Slices ![256, 512] S128x64
  slices_S1024x768_o256_576_S128x64 : S1024x768.Slices ![256, 576] S128x64
  slices_S1024x768_o256_640_S128x64 : S1024x768.Slices ![256, 640] S128x64
  slices_S1024x768_o256_704_S128x64 : S1024x768.Slices ![256, 704] S128x64
  slices_S1024x768_o256_0_S128x768 : S1024x768.Slices ![256, 0] S128x768
  inb_S1024x768_S128x768_256_0 : ∀ a, (![256, 0] : Fin 2 → Nat) a + S128x768.size a ≤ S1024x768.size a
  slices_S1024x768_o384_0_S128x64 : S1024x768.Slices ![384, 0] S128x64
  slices_S1024x768_o384_64_S128x64 : S1024x768.Slices ![384, 64] S128x64
  slices_S1024x768_o384_128_S128x64 : S1024x768.Slices ![384, 128] S128x64
  slices_S1024x768_o384_192_S128x64 : S1024x768.Slices ![384, 192] S128x64
  slices_S1024x768_o384_256_S128x64 : S1024x768.Slices ![384, 256] S128x64
  slices_S1024x768_o384_320_S128x64 : S1024x768.Slices ![384, 320] S128x64
  slices_S1024x768_o384_384_S128x64 : S1024x768.Slices ![384, 384] S128x64
  slices_S1024x768_o384_448_S128x64 : S1024x768.Slices ![384, 448] S128x64
  slices_S1024x768_o384_512_S128x64 : S1024x768.Slices ![384, 512] S128x64
  slices_S1024x768_o384_576_S128x64 : S1024x768.Slices ![384, 576] S128x64
  slices_S1024x768_o384_640_S128x64 : S1024x768.Slices ![384, 640] S128x64
  slices_S1024x768_o384_704_S128x64 : S1024x768.Slices ![384, 704] S128x64
  slices_S1024x768_o384_0_S128x768 : S1024x768.Slices ![384, 0] S128x768
  inb_S1024x768_S128x768_384_0 : ∀ a, (![384, 0] : Fin 2 → Nat) a + S128x768.size a ≤ S1024x768.size a
  slices_S1024x768_o512_0_S128x64 : S1024x768.Slices ![512, 0] S128x64
  slices_S1024x768_o512_64_S128x64 : S1024x768.Slices ![512, 64] S128x64
  slices_S1024x768_o512_128_S128x64 : S1024x768.Slices ![512, 128] S128x64
  slices_S1024x768_o512_192_S128x64 : S1024x768.Slices ![512, 192] S128x64
  slices_S1024x768_o512_256_S128x64 : S1024x768.Slices ![512, 256] S128x64
  slices_S1024x768_o512_320_S128x64 : S1024x768.Slices ![512, 320] S128x64
  slices_S1024x768_o512_384_S128x64 : S1024x768.Slices ![512, 384] S128x64
  slices_S1024x768_o512_448_S128x64 : S1024x768.Slices ![512, 448] S128x64
  slices_S1024x768_o512_512_S128x64 : S1024x768.Slices ![512, 512] S128x64
  slices_S1024x768_o512_576_S128x64 : S1024x768.Slices ![512, 576] S128x64
  slices_S1024x768_o512_640_S128x64 : S1024x768.Slices ![512, 640] S128x64
  slices_S1024x768_o512_704_S128x64 : S1024x768.Slices ![512, 704] S128x64
  slices_S1024x768_o512_0_S128x768 : S1024x768.Slices ![512, 0] S128x768
  inb_S1024x768_S128x768_512_0 : ∀ a, (![512, 0] : Fin 2 → Nat) a + S128x768.size a ≤ S1024x768.size a
  slices_S1024x768_o640_0_S128x64 : S1024x768.Slices ![640, 0] S128x64
  slices_S1024x768_o640_64_S128x64 : S1024x768.Slices ![640, 64] S128x64
  slices_S1024x768_o640_128_S128x64 : S1024x768.Slices ![640, 128] S128x64
  slices_S1024x768_o640_192_S128x64 : S1024x768.Slices ![640, 192] S128x64
  slices_S1024x768_o640_256_S128x64 : S1024x768.Slices ![640, 256] S128x64
  slices_S1024x768_o640_320_S128x64 : S1024x768.Slices ![640, 320] S128x64
  slices_S1024x768_o640_384_S128x64 : S1024x768.Slices ![640, 384] S128x64
  slices_S1024x768_o640_448_S128x64 : S1024x768.Slices ![640, 448] S128x64
  slices_S1024x768_o640_512_S128x64 : S1024x768.Slices ![640, 512] S128x64
  slices_S1024x768_o640_576_S128x64 : S1024x768.Slices ![640, 576] S128x64
  slices_S1024x768_o640_640_S128x64 : S1024x768.Slices ![640, 640] S128x64
  slices_S1024x768_o640_704_S128x64 : S1024x768.Slices ![640, 704] S128x64
  slices_S1024x768_o640_0_S128x768 : S1024x768.Slices ![640, 0] S128x768
  inb_S1024x768_S128x768_640_0 : ∀ a, (![640, 0] : Fin 2 → Nat) a + S128x768.size a ≤ S1024x768.size a
  slices_S1024x768_o768_0_S128x64 : S1024x768.Slices ![768, 0] S128x64
  slices_S1024x768_o768_64_S128x64 : S1024x768.Slices ![768, 64] S128x64
  slices_S1024x768_o768_128_S128x64 : S1024x768.Slices ![768, 128] S128x64
  slices_S1024x768_o768_192_S128x64 : S1024x768.Slices ![768, 192] S128x64
  slices_S1024x768_o768_256_S128x64 : S1024x768.Slices ![768, 256] S128x64
  slices_S1024x768_o768_320_S128x64 : S1024x768.Slices ![768, 320] S128x64
  slices_S1024x768_o768_384_S128x64 : S1024x768.Slices ![768, 384] S128x64
  slices_S1024x768_o768_448_S128x64 : S1024x768.Slices ![768, 448] S128x64
  slices_S1024x768_o768_512_S128x64 : S1024x768.Slices ![768, 512] S128x64
  slices_S1024x768_o768_576_S128x64 : S1024x768.Slices ![768, 576] S128x64
  slices_S1024x768_o768_640_S128x64 : S1024x768.Slices ![768, 640] S128x64
  slices_S1024x768_o768_704_S128x64 : S1024x768.Slices ![768, 704] S128x64
  slices_S1024x768_o768_0_S128x768 : S1024x768.Slices ![768, 0] S128x768
  inb_S1024x768_S128x768_768_0 : ∀ a, (![768, 0] : Fin 2 → Nat) a + S128x768.size a ≤ S1024x768.size a
  slices_S1024x768_o896_0_S128x64 : S1024x768.Slices ![896, 0] S128x64
  slices_S1024x768_o896_64_S128x64 : S1024x768.Slices ![896, 64] S128x64
  slices_S1024x768_o896_128_S128x64 : S1024x768.Slices ![896, 128] S128x64
  slices_S1024x768_o896_192_S128x64 : S1024x768.Slices ![896, 192] S128x64
  slices_S1024x768_o896_256_S128x64 : S1024x768.Slices ![896, 256] S128x64
  slices_S1024x768_o896_320_S128x64 : S1024x768.Slices ![896, 320] S128x64
  slices_S1024x768_o896_384_S128x64 : S1024x768.Slices ![896, 384] S128x64
  slices_S1024x768_o896_448_S128x64 : S1024x768.Slices ![896, 448] S128x64
  slices_S1024x768_o896_512_S128x64 : S1024x768.Slices ![896, 512] S128x64
  slices_S1024x768_o896_576_S128x64 : S1024x768.Slices ![896, 576] S128x64
  slices_S1024x768_o896_640_S128x64 : S1024x768.Slices ![896, 640] S128x64
  slices_S1024x768_o896_704_S128x64 : S1024x768.Slices ![896, 704] S128x64
  slices_S1024x768_o896_0_S128x768 : S1024x768.Slices ![896, 0] S128x768
  inb_S1024x768_S128x768_896_0 : ∀ a, (![896, 0] : Fin 2 → Nat) a + S128x768.size a ≤ S1024x768.size a
  shapeCasts_S8192x768_S64x128x768 : S8192x768.ShapeCasts S64x128x768
  dot_S1024x768_S768x768_S1024x768_1_1_0_0_n_n_wf : DotDims.WF S1024x768 S768x768 S1024x768 [1] [1] [0] [0] [] []
  dot_S128x64_S128x64_S128x128_1_1_0_0_n_n_wf : DotDims.WF S128x64 S128x64 S128x128 [1] [1] [0] [0] [] []
  dot_S128x128_S128x64_S128x64_1_0_0_1_n_n_wf : DotDims.WF S128x128 S128x64 S128x64 [1] [0] [0] [1] [] []
  dot_S128x768_S768x768_S128x768_1_1_0_0_n_n_wf : DotDims.WF S128x768 S768x768 S128x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x768.size a ≤ S8192x768.size a
  hwx0_11 : ∀ i : grid0.Coords, EltTy.bits .f32 = 32 ∨ (Rect.block (s := S8192x768) S1024x768.size (cc0_transform_11 i) (hinb0_11 i)).WholeWords (EltTy.packing .f32)

variable [Facts₀]

def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf
def dot_S128x64_S128x64_S128x128_1_1_0_0_n_n : DotDims S128x64 S128x64 S128x128 where
  lhsContracting := [1]
  rhsContracting := [1]
  lhsNonContracting := [0]
  rhsNonContracting := [0]
  lhsBatch := []
  rhsBatch := []
  wf := dot_S128x64_S128x64_S128x128_1_1_0_0_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x768_S768x768_S128x768_1_1_0_0_n_n : DotDims S128x768 S768x768 S128x768 where
  lhsContracting := [1]
  rhsContracting := [1]
  lhsNonContracting := [0]
  rhsNonContracting := [0]
  lhsBatch := []
  rhsBatch := []
  wf := dot_S128x768_S768x768_S128x768_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1024x768.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S64x128x768 : Shape := ⟨3, ![64, 128, 768]⟩
abbrev S768x768 : Shape := ⟨2, ![768, 768]⟩
abbrev S768 : Shape := ⟨1, ![768]⟩
abbrev S8192x768 : Shape := ⟨2, ![8192, 768]⟩
abbrev S1x768 : Shape := ⟨2, ![1, 768]⟩
abbrev S512x768 : Shape := ⟨2, ![512, 768]⟩
abbrev S64x128x12x64 : Shape := ⟨4, ![64, 128, 12, 64]⟩
abbrev S64x12x128x64 : Shape := ⟨4, ![64, 12, 128, 64]⟩
abbrev S768x128x64 : Shape := ⟨3, ![768, 128, 64]⟩
abbrev S1x128x64 : Shape := ⟨3, ![1, 128, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S512 : Shape := ⟨1, ![512]⟩
abbrev S512x1 : Shape := ⟨2, ![512, 1]⟩

abbrev nBuf : Space → Nat
  | .hbm => 40
  | .vmem => 32
  | .smem => 0
  | _ => 0

abbrev bufTy : (tb : Table) → Fin (tcTables nBuf tb) → BufTy
  | .hbm, ⟨0, _⟩ => ⟨S64x128x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S8192x768, .f32⟩
  | .hbm, ⟨12, _⟩ => ⟨S768x768, .f32⟩
  | .hbm, ⟨13, _⟩ => ⟨S768x768, .f32⟩
  | .hbm, ⟨14, _⟩ => ⟨S768x768, .f32⟩
  | .hbm, ⟨15, _⟩ => ⟨S768x768, .f32⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S8192x768, .f32⟩
  | .hbm, ⟨23, _⟩ => ⟨S8192x768, .f32⟩
  | .hbm, ⟨24, _⟩ => ⟨S8192x768, .f32⟩
  | .hbm, ⟨25, _⟩ => ⟨S64x128x12x64, .f32⟩
  | .hbm, ⟨26, _⟩ => ⟨S64x12x128x64, .f32⟩
  | .hbm, ⟨27, _⟩ => ⟨S768x128x64, .f32⟩
  | .hbm, ⟨28, _⟩ => ⟨S64x128x12x64, .f32⟩
  | .hbm, ⟨29, _⟩ => ⟨S64x12x128x64, .f32⟩
  | .hbm, ⟨30, _⟩ => ⟨S768x128x64, .f32⟩
  | .hbm, ⟨31, _⟩ => ⟨S64x128x12x64, .f32⟩
  | .hbm, ⟨32, _⟩ => ⟨S64x12x128x64, .f32⟩
  | .hbm, ⟨33, _⟩ => ⟨S768x128x64, .f32⟩
  | .hbm, ⟨34, _⟩ => ⟨S768x128x64, .f32⟩
  | .hbm, ⟨35, _⟩ => ⟨S64x12x128x64, .f32⟩
  | .hbm, ⟨36, _⟩ => ⟨S64x128x12x64, .f32⟩
  | .hbm, ⟨37, _⟩ => ⟨S8192x768, .f32⟩
  | .hbm, ⟨38, _⟩ => ⟨S8192x768, .f32⟩
  | .hbm, ⟨39, _⟩ => ⟨S64x128x768, .f32⟩
  | .local _ .vmem, ⟨0, _⟩ => ⟨S512x768, .f32⟩
  | .local _ .vmem, ⟨1, _⟩ => ⟨S512x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S1x128x64, .f32⟩
  | .local _ .vmem, ⟨15, _⟩ => ⟨S1x128x64, .f32⟩
  | .local _ .vmem, ⟨16, _⟩ => ⟨S1x128x64, .f32⟩
  | .local _ .vmem, ⟨17, _⟩ => ⟨S1x128x64, .f32⟩
  | .local _ .vmem, ⟨18, _⟩ => ⟨S1x128x64, .f32⟩
  | .local _ .vmem, ⟨19, _⟩ => ⟨S1x128x64, .f32⟩
  | .local _ .vmem, ⟨20, _⟩ => ⟨S1x128x64, .f32⟩
  | .local _ .vmem, ⟨21, _⟩ => ⟨S1x128x64, .f32⟩
  | .local _ .vmem, ⟨22, _⟩ => ⟨S512x768, .f32⟩
  | .local _ .vmem, ⟨23, _⟩ => ⟨S512x768, .f32⟩
  | .local _ .vmem, ⟨24, _⟩ => ⟨S512x768, .f32⟩
  | .local _ .vmem, ⟨25, _⟩ => ⟨S512x768, .f32⟩
  | .local _ .vmem, ⟨26, _⟩ => ⟨S768x768, .f32⟩
  | .local _ .vmem, ⟨27, _⟩ => ⟨S1x768, .f32⟩
  | .local _ .vmem, ⟨28, _⟩ => ⟨S1x768, .f32⟩
  | .local _ .vmem, ⟨29, _⟩ => ⟨S1x768, .f32⟩
  | .local _ .vmem, ⟨30, _⟩ => ⟨S512x768, .f32⟩
  | .local _ .vmem, ⟨31, _⟩ => ⟨S512x768, .f32⟩
  | _, _ => ⟨S64x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![768], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S64x128x768_S8192x768 : S64x128x768.ShapeCasts S8192x768
  transposes_S768x768_S768x768_1_0 : S768x768.Transposes [1, 0] S768x768
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S8192x768_S64x128x12x64 : S8192x768.ShapeCasts S64x128x12x64
  transposes_S64x128x12x64_S64x12x128x64_0_2_1_3 : S64x128x12x64.Transposes [0, 2, 1, 3] S64x12x128x64
  shapeCasts_S64x12x128x64_S768x128x64 : S64x12x128x64.ShapeCasts S768x128x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  reduces_S128x128_S128 : S128x128.Reduces [1] S128
  shapeCasts_S128_S128x1 : S128.ShapeCasts S128x1
  broadcasts_S128x1_S128x128 : S128x1.Broadcasts S128x128
  shapeCasts_S128x64_S1x128x64 : S128x64.ShapeCasts S1x128x64
  shapeCasts_S768x128x64_S64x12x128x64 : S768x128x64.ShapeCasts S64x12x128x64
  transposes_S64x12x128x64_S64x128x12x64_0_2_1_3 : S64x12x128x64.Transposes [0, 2, 1, 3] S64x128x12x64
  shapeCasts_S64x128x12x64_S8192x768 : S64x128x12x64.ShapeCasts S8192x768
  reduces_S512x768_S512 : S512x768.Reduces [1] S512
  shapeCasts_S512_S512x1 : S512.ShapeCasts S512x1
  broadcasts_S512x1_S512x768 : S512x1.Broadcasts S512x768
  shapeCasts_S8192x768_S64x128x768 : S8192x768.ShapeCasts S64x128x768
  dot_S512x768_S768x768_S512x768_1_0_0_1_n_n_wf : DotDims.WF S512x768 S768x768 S512x768 [1] [0] [0] [1] [] []
  dot_S128x64_S128x64_S128x128_1_1_0_0_n_n_wf : DotDims.WF S128x64 S128x64 S128x128 [1] [1] [0] [0] [] []
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x768.size a ≤ S8192x768.size a
  hwx0_7 : ∀ i : grid0.Coords, EltTy.bits .f32 = 32 ∨ (Rect.block (s := S8192x768) S512x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x768.size a ≤ S8192x768.size a
  hwx0_8 : ∀ i : grid0.Coords, EltTy.bits .f32 = 32 ∨ (Rect.block (s := S8192x768) S512x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x768.size a ≤ S8192x768.size a
  hwx0_9 : ∀ i : grid0.Coords, EltTy.bits .f32 = 32 ∨ (Rect.block (s := S8192x768) S512x768.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S768x128x64.size a
  hwx1_0 : ∀ i : grid1.Coords, EltTy.bits .f32 = 32 ∨ (Rect.block (s := S768x128x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S768x128x64.size a
  hwx1_1 : ∀ i : grid1.Coords, EltTy.bits .f32 = 32 ∨ (Rect.block (s := S768x128x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x64.size a ≤ S768x128x64.size a
  hwx1_2 : ∀ i : grid1.Coords, EltTy.bits .f32 = 32 ∨ (Rect.block (s := S768x128x64) S1x128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x64.size a ≤ S768x128x64.size a
  hwx1_3 : ∀ i : grid1.Coords, EltTy.bits .f32 = 32 ∨ (Rect.block (s := S768x128x64) S1x128x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .f32 = 32 ∨ (Rect.block (s := S8192x768) S512x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x768.size a ≤ S8192x768.size a
  hwx2_1 : ∀ i : grid2.Coords, EltTy.bits .f32 = 32 ∨ (Rect.block (s := S8192x768) S512x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x768.size a ≤ S768x768.size a
  hwx2_2 : ∀ i : grid2.Coords, EltTy.bits .f32 = 32 ∨ (Rect.block (s := S768x768) S768x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x768.size a ≤ S1x768.size a
  hwx2_3 : ∀ i : grid2.Coords, EltTy.bits .f32 = 32 ∨ (Rect.block (s := S1x768) S1x768.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x768.size a ≤ S1x768.size a
  hwx2_4 : ∀ i : grid2.Coords, EltTy.bits .f32 = 32 ∨ (Rect.block (s := S1x768) S1x768.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x768.size a ≤ S1x768.size a
  hwx2_5 : ∀ i : grid2.Coords, EltTy.bits .f32 = 32 ∨ (Rect.block (s := S1x768) S1x768.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x768.size a ≤ S8192x768.size a
  hwx2_6 : ∀ i : grid2.Coords, EltTy.bits .f32 = 32 ∨ (Rect.block (s := S8192x768) S512x768.size (cc2_transform_6 i) (hinb2_6 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S128x64_S128x64_S128x128_1_1_0_0_n_n : DotDims S128x64 S128x64 S128x128 where
  lhsContracting := [1]
  rhsContracting := [1]
  lhsNonContracting := [0]
  rhsNonContracting := [0]
  lhsBatch := []
  rhsBatch := []
  wf := dot_S128x64_S128x64_S128x128_1_1_0_0_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S512x768.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S512x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S512x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S512x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S768x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S512x768.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== Proof.KVec.lean ====
/-
  One batch element of the fused program, as vector operations with the slice offsets as parameters.

  The program's body is unrolled over 8 batch elements and 12 heads; every head is the same expression of three
  128 × 64 slices of the projected slabs at a row offset `ro` (the batch element's first row in the 1024-row block) and a
  column offset `co` (the head's first column), and every batch element's tail is the same expression of the twelve
  heads' contexts side by side. The definitions below are those expressions once, over `ro` and `co`.
-/
import proofs.«136720_g2000702396236789_pallasbulk_1056_14_alg».proof.KernelIdeal

noncomputable section

namespace Cert.KernelIdeal.KVec

open Idealize.ShloMosaic Cert.KernelIdeal

variable {F : FTy → Type} [FloatOps F] [Facts]
open Facts₀ Facts

/-- A 128 × 64 block at (`ro`, `co`) is inside the 1024 × 768 slab when it fits on both axes. -/
theorem slices64 (ro co : Nat) (hro : ro + 128 ≤ 1024) (hco : co + 64 ≤ 768) : S1024x768.Slices ![ro, co] S128x64 :=
  ⟨rfl, fun a => by
    match a with
    | ⟨0, _⟩ => exact hro
    | ⟨1, _⟩ => exact hco⟩

/-- A 128 × 768 block at row `ro` is inside the 1024 × 768 slab when it fits. -/
theorem slices768 (ro : Nat) (hro : ro + 128 ≤ 1024) : S1024x768.Slices ![ro, 0] S128x768 :=
  ⟨rfl, fun a => by
    match a with
    | ⟨0, _⟩ => exact hro
    | ⟨1, _⟩ => exact Nat.le_refl _⟩

/-! ## The three projections of the whole 1024-row block -/

/-- `x · Wᵀ + b` on the block: the loaded rows, the loaded (out, in) weight, the loaded bias row. -/
def projVec (x0 : Vec F S1024x768 .f32) (w : Vec F S768x768 .bf16) (b : Vec F S1x768 .f32) : FVec F S1024x768 .f32 :=
  addf (matmul dot_S1024x768_S768x768_S1024x768_1_1_0_0_n_n none
      (truncf .bf16 (shapeCast S1024x768 x0 shapeCasts_S1024x768_S1024x768) bitsLt_bf16_f32)
      (shapeCast S768x768 w shapeCasts_S768x768_S768x768) (constant S1024x768 .f32 0x00000000#32))
    (broadcastTo S1024x768 (shapeCast S1x768 b shapeCasts_S1x768_S1x768) broadcasts_S1x768_S1024x768)

/-- The query projection, scaled by `1/8`. -/
def qVec (x0 : Vec F S1024x768 .f32) (w : Vec F S768x768 .bf16) (b : Vec F S1x768 .f32) : FVec F S1024x768 .bf16 :=
  truncf .bf16 (mulf (projVec x0 w b) (broadcast S1024x768 (Scalar.ofBits .f32 0x3E000000#32))) bitsLt_bf16_f32

/-- The key (or value) projection. -/
def kVec (x0 : Vec F S1024x768 .f32) (w : Vec F S768x768 .bf16) (b : Vec F S1x768 .f32) : FVec F S1024x768 .bf16 :=
  truncf .bf16 (projVec x0 w b) bitsLt_bf16_f32

/-- The all-ones 128 × 64 matrix. -/
def onesVec : FVec F S128x64 .bf16 := broadcast S128x64 (Scalar.ofBits .bf16 0x3F80#16)

/-! ## One head -/

/-- The scores of the head at (`ro`, `co`): the query slice against the key slice, contracted over the 64 coordinates. -/
def scoreVec (ro co : Nat) (hs : S1024x768.Slices ![ro, co] S128x64) (q k : FVec F S1024x768 .bf16) : FVec F S128x128 .f32 :=
  matmul dot_S128x64_S128x64_S128x128_1_1_0_0_n_n none (extractStridedSlice S128x64 ![ro, co] q hs)
    (extractStridedSlice S128x64 ![ro, co] k hs) (constant S128x128 .f32 0x00000000#32)

/-- The exponentials of a score matrix centred at each row's maximum. -/
def expVec (s : FVec F S128x128 .f32) : FVec F S128x128 .f32 :=
  exp (subf s (broadcastTo S128x128
    (shapeCast S128x1 (multiReduction .maximumf [1] S128 s 0xFF800000#32 reduces_S128x128_S128 (.inl rfl) rfl) shapeCasts_S128_S128x1)
    broadcasts_S128x1_S128x128))

/-- The context of the head from its exponentials: their product with the value slice over their product with ones. -/
def ctxVec (ro co : Nat) (hs : S1024x768.Slices ![ro, co] S128x64) (e : FVec F S128x128 .f32) (v : FVec F S1024x768 .bf16)
    (ones : FVec F S128x64 .bf16) : FVec F S128x64 .bf16 :=
  truncf .bf16 (divf
    (matmul dot_S128x128_S128x64_S128x64_1_0_0_1_n_n none (truncf .bf16 e bitsLt_bf16_f32)
      (extractStridedSlice S128x64 ![ro, co] v hs) (constant S128x64 .f32 0x00000000#32))
    (matmul dot_S128x128_S128x64_S128x64_1_0_0_1_n_n none (truncf .bf16 e bitsLt_bf16_f32) ones (constant S128x64 .f32 0x00000000#32)))
    bitsLt_bf16_f32

/-- One head's context. -/
def headVec (ro co : Nat) (hs : S1024x768.Slices ![ro, co] S128x64) (q k v : FVec F S1024x768 .bf16) (ones : FVec F S128x64 .bf16) :
    FVec F S128x64 .bf16 :=
  ctxVec ro co hs (expVec (scoreVec ro co hs q k)) v ones

/-! ## One batch element's tail -/

/-- The output dense layer on the 128 × 768 context, plus the bias row, plus the residual rows at `ro`. -/
def denseVec (ro : Nat) (hx : S1024x768.Slices ![ro, 0] S128x768) (ctx : FVec F S128x768 .bf16) (x1 : FVec F S1024x768 .f32)
    (wo : Vec F S768x768 .bf16) (bo : Vec F S1x768 .f32) : FVec F S128x768 .f32 :=
  addf (addf
      (matmul dot_S128x768_S768x768_S128x768_1_1_0_0_n_n none ctx (shapeCast S768x768 wo shapeCasts_S768x768_S768x768)
        (constant S128x768 .f32 0x00000000#32))
      (broadcastTo S128x768 (shapeCast S1x768 bo shapeCasts_S1x768_S1x768) broadcasts_S1x768_S128x768))
    (extractStridedSlice S128x768 ![ro, 0] x1 hx)

/-- Rows centred at their means. -/
def cenVec (h : FVec F S128x768 .f32) : FVec F S128x768 .f32 :=
  subf h (broadcastTo S128x768
    (divf (shapeCast S128x1 (multiReduction .add [1] S128 h 0x00000000#32 reduces_S128x768_S128 (.inl rfl) rfl) shapeCasts_S128_S128x1)
      (broadcast S128x1 (Scalar.ofBits .f32 0x44400000#32)))
    broadcasts_S128x1_S128x768)

/-- `1/√(var + ε)` of centred rows. -/
def rstdVec (c : FVec F S128x768 .f32) : FVec F S128x1 .f32 :=
  rsqrt (addf
    (divf (shapeCast S128x1 (multiReduction .add [1] S128 (mulf c c) 0x00000000#32 reduces_S128x768_S128 (.inl rfl) rfl) shapeCasts_S128_S128x1)
      (broadcast S128x1 (Scalar.ofBits .f32 0x44400000#32)))
    (broadcast S128x1 (Scalar.ofBits .f32 0x2B8CBCCC#32)))

/-- The normalised rows through the affine map. -/
def affVec (c : FVec F S128x768 .f32) (r : FVec F S128x1 .f32) (g be : Vec F S1x768 .f32) : FVec F S128x768 .f32 :=
  addf (mulf (mulf c (broadcastTo S128x768 r broadcasts_S128x1_S128x768))
      (broadcastTo S128x768 (shapeCast S1x768 g shapeCasts_S1x768_S1x768) broadcasts_S1x768_S128x768))
    (broadcastTo S128x768 (shapeCast S1x768 be shapeCasts_S1x768_S1x768) broadcasts_S1x768_S128x768)

/-- The tail of one batch element. -/
def tailVec (ro : Nat) (hx : S1024x768.Slices ![ro, 0] S128x768) (ctx : FVec F S128x768 .bf16) (x1 : FVec F S1024x768 .f32)
    (wo : Vec F S768x768 .bf16) (bo g be : Vec F S1x768 .f32) : FVec F S128x768 .f32 :=
  affVec (cenVec (denseVec ro hx ctx x1 wo bo)) (rstdVec (cenVec (denseVec ro hx ctx x1 wo bo))) g be

/-! ## One batch element -/

/-- The twelve heads' contexts side by side. -/
def ctxAll (ro : Nat) (hro : ro + 128 ≤ 1024) (q k v : FVec F S1024x768 .bf16) (ones : FVec F S128x64 .bf16) : FVec F S128x768 .bf16 :=
  concatenate S128x768 1
    [⟨S128x64, headVec ro 0 (slices64 ro 0 hro (by decide)) q k v ones⟩, ⟨S128x64, headVec ro 64 (slices64 ro 64 hro (by decide)) q k v ones⟩,
     ⟨S128x64, headVec ro 128 (slices64 ro 128 hro (by decide)) q k v ones⟩, ⟨S128x64, headVec ro 192 (slices64 ro 192 hro (by decide)) q k v ones⟩,
     ⟨S128x64, headVec ro 256 (slices64 ro 256 hro (by decide)) q k v ones⟩, ⟨S128x64, headVec ro 320 (slices64 ro 320 hro (by decide)) q k v ones⟩,
     ⟨S128x64, headVec ro 384 (slices64 ro 384 hro (by decide)) q k v ones⟩, ⟨S128x64, headVec ro 448 (slices64 ro 448 hro (by decide)) q k v ones⟩,
     ⟨S128x64, headVec ro 512 (slices64 ro 512 hro (by decide)) q k v ones⟩, ⟨S128x64, headVec ro 576 (slices64 ro 576 hro (by decide)) q k v ones⟩,
     ⟨S128x64, headVec ro 640 (slices64 ro 640 hro (by decide)) q k v ones⟩, ⟨S128x64, headVec ro 704 (slices64 ro 704 hro (by decide)) q k v ones⟩]
    concatenates_S128x64_S128x64_S128x64_S128x64_S128x64_S128x64_S128x64_S128x64_S128x64_S128x64_S128x64_S128x64_S128x768_d1

/-- What the body stores for the batch element whose rows start at `ro`, from the eleven loaded blocks. -/
def pieceVec (ro : Nat) (hro : ro + 128 ≤ 1024) (x0 : Vec F S1024x768 .f32) (x1 x2 x3 x4 : Vec F S768x768 .bf16)
    (x5 x6 x7 x8 x9 x10 : Vec F S1x768 .f32) : FVec F S128x768 .f32 :=
  tailVec ro (slices768 ro hro) (ctxAll ro hro (qVec x0 x1 x5) (kVec x0 x2 x6) (kVec x0 x3 x7) onesVec)
    (shapeCast S1024x768 x0 shapeCasts_S1024x768_S1024x768) x4 x8 x9 x10

end Cert.KernelIdeal.KVec

end
-- ==== Proof.KPieces.lean ====
/-
  The body's eight stores are the eight batch elements of the block: each stored value, as the body computes it
  statement by statement, is the one per-batch vector expression at its row offset.
-/
import proofs.«136720_g2000702396236789_pallasbulk_1056_14_alg».proof.Proof.Gen.KernelIdeal.Frame
import proofs.«136720_g2000702396236789_pallasbulk_1056_14_alg».proof.Proof.KVec

set_option maxRecDepth 16384

noncomputable section

namespace Cert.KernelIdeal.KPieces

open Idealize.ShloMosaic Cert.KernelIdeal Cert.KernelIdeal.Gen Cert.KernelIdeal.KVec

variable {F : FTy → Type} [FloatOps F] [Facts]
open Facts₀ Facts

/-! ## The shared values

  The three projected slabs, the all-ones block and the residual rows are computed once and read by every batch
  element; each is the corresponding expression by its definition. -/

private theorem resid_eq (l0 : Vec F S1024x768 .f32) :
    k0_pay2 l0 = shapeCast S1024x768 l0 Facts₀.shapeCasts_S1024x768_S1024x768 := rfl

private theorem q_eq (l0 : Vec F S1024x768 .f32) (l1 : Vec F S768x768 .bf16) (l5 : Vec F S1x768 .f32) :
    k0_pay4 l0 l1 l5 = qVec l0 l1 l5 := rfl

private theorem k_eq (l0 : Vec F S1024x768 .f32) (l2 : Vec F S768x768 .bf16) (l6 : Vec F S1x768 .f32) :
    k0_pay5 l0 l2 l6 = kVec l0 l2 l6 := rfl

private theorem v_eq (l0 : Vec F S1024x768 .f32) (l3 : Vec F S768x768 .bf16) (l7 : Vec F S1x768 .f32) :
    k0_pay6 l0 l3 l7 = kVec l0 l3 l7 := rfl

private theorem ones_eq : (k0_pay7 : FVec F S128x64 .bf16) = onesVec := rfl

/-! ## One batch element at a time

  For each row offset the stored value is a tree of the body's named intermediate values. The names cut the
  straight-line text at arbitrary statements (a head may be split over two or three of them, and the last name
  of a batch element holds the end of the eleventh head, the twelfth head and the dense layer), but the text
  under the names is, statement for statement, the twelve heads at the column offsets 0, 64, …, 704 followed by the
  tail. So over ANY residual rows `X`, projected slabs `Q`, `K`, `V` and ones block `O` the tree and the
  per-batch expression open to the same term; the slice side conditions are propositions, so which proof of
  them each side carries does not matter. -/

private theorem piece896 (X : FVec F S1024x768 .f32) (Q K V : FVec F S1024x768 .bf16) (O : FVec F S128x64 .bf16)
    (l4 : Vec F S768x768 .bf16) (l8 l9 l10 : Vec F S1x768 .f32) :
    k0_pay1 (k0_pay149
        (k0_pay147 X Q K V O (k0_pay134 Q K V O) (k0_pay135 Q K V O) (k0_pay136 Q K V O) (k0_pay137 Q K V O)
          (k0_pay138 Q K V O) (k0_pay139 Q K V O) (k0_pay142 V O (k0_pay140 Q K) (k0_pay141 Q K)) (k0_pay143 Q K V O)
          (k0_pay144 Q K V O) (k0_pay145 Q K) (k0_pay146 V) l4 l8)
        (k0_pay148 X Q K V O (k0_pay134 Q K V O) (k0_pay135 Q K V O) (k0_pay136 Q K V O) (k0_pay137 Q K V O)
          (k0_pay138 Q K V O) (k0_pay139 Q K V O) (k0_pay142 V O (k0_pay140 Q K) (k0_pay141 Q K)) (k0_pay143 Q K V O)
          (k0_pay144 Q K V O) (k0_pay145 Q K) (k0_pay146 V) l4 l8)
        l9) l10
      = tailVec 896 (slices768 896 (by decide)) (ctxAll 896 (by decide) Q K V O) X l4 l8 l9 l10 := rfl

private theorem piece768 (X : FVec F S1024x768 .f32) (Q K V : FVec F S1024x768 .bf16) (O : FVec F S128x64 .bf16)
    (l4 : Vec F S768x768 .bf16) (l8 l9 l10 : Vec F S1x768 .f32) :
    k0_pay133
        (k0_pay131 X V O (k0_pay114 Q K V O) (k0_pay116 V O (k0_pay115 Q K)) (k0_pay117 Q K V O) (k0_pay118 Q K V O)
          (k0_pay120 V O (k0_pay119 Q K)) (k0_pay121 Q K V O) (k0_pay122 Q K V O)
          (k0_pay126 (k0_pay124 Q K V) (k0_pay125 Q K O)) (k0_pay127 Q K V O) (k0_pay128 Q K V O) (k0_pay129 Q K V O)
          (k0_pay130 Q K) l4 l8 l9)
        (k0_pay132 l10)
      = tailVec 768 (slices768 768 (by decide)) (ctxAll 768 (by decide) Q K V O) X l4 l8 l9 l10 := rfl

private theorem piece640 (X : FVec F S1024x768 .f32) (Q K V : FVec F S1024x768 .bf16) (O : FVec F S128x64 .bf16)
    (l4 : Vec F S768x768 .bf16) (l8 l9 l10 : Vec F S1x768 .f32) :
    k0_pay113
        (k0_pay111 Q K V O (k0_pay96 Q K V O) (k0_pay97 Q K V O) (k0_pay100 O (k0_pay98 Q K) (k0_pay99 Q K V))
          (k0_pay101 Q K V O) (k0_pay102 Q K V O) (k0_pay103 Q K V O) (k0_pay106 V O (k0_pay104 Q) (k0_pay105 K))
          (k0_pay107 Q K V O) (k0_pay108 Q K V O) (k0_pay109 Q K) (k0_pay110 Q K) l4 l8)
        (k0_pay112 X) l9 l10
      = tailVec 640 (slices768 640 (by decide)) (ctxAll 640 (by decide) Q K V O) X l4 l8 l9 l10 := rfl

private theorem piece512 (X : FVec F S1024x768 .f32) (Q K V : FVec F S1024x768 .bf16) (O : FVec F S128x64 .bf16)
    (l4 : Vec F S768x768 .bf16) (l8 l9 l10 : Vec F S1x768 .f32) :
    k0_pay95
        (k0_pay94 X Q K V O (k0_pay79 Q K V O) (k0_pay80 Q K V O) (k0_pay81 Q K V O) (k0_pay82 Q K V O)
          (k0_pay85 V O (k0_pay83 Q K) (k0_pay84 Q K)) (k0_pay86 Q K V O) (k0_pay87 Q K V O)
          (k0_pay90 O (k0_pay88 Q K) (k0_pay89 V)) (k0_pay91 Q K V O) (k0_pay92 Q K V O) (k0_pay93 Q K V O) l4 l8 l9)
        l10
      = tailVec 512 (slices768 512 (by decide)) (ctxAll 512 (by decide) Q K V O) X l4 l8 l9 l10 := rfl

private theorem piece384 (X : FVec F S1024x768 .f32) (Q K V : FVec F S1024x768 .bf16) (O : FVec F S128x64 .bf16)
    (l4 : Vec F S768x768 .bf16) (l8 l9 l10 : Vec F S1x768 .f32) :
    k0_pay78 X
        (k0_pay77 Q K V O (k0_pay63 Q K V O) (k0_pay64 Q K V O) (k0_pay66 V O (k0_pay65 Q K)) (k0_pay67 Q K V O)
          (k0_pay68 Q K V O) (k0_pay72 (k0_pay70 Q K V) (k0_pay71 Q K O)) (k0_pay73 Q K V O) (k0_pay74 Q K V O)
          (k0_pay75 Q K V O) (k0_pay76 Q K) l4)
        l8 l9 l10
      = tailVec 384 (slices768 384 (by decide)) (ctxAll 384 (by decide) Q K V O) X l4 l8 l9 l10 := rfl

private theorem piece256 (X : FVec F S1024x768 .f32) (Q K V : FVec F S1024x768 .bf16) (O : FVec F S128x64 .bf16)
    (l4 : Vec F S768x768 .bf16) (l8 l9 l10 : Vec F S1x768 .f32) :
    k0_pay62
        (k0_pay61 X Q K V O (k0_pay45 O (k0_pay43 Q K) (k0_pay44 Q K V)) (k0_pay46 Q K V O) (k0_pay47 Q K V O)
          (k0_pay48 Q K V O) (k0_pay51 V O (k0_pay49 Q) (k0_pay50 K)) (k0_pay52 Q K V O) (k0_pay53 Q K V O)
          (k0_pay56 V O (k0_pay54 Q K) (k0_pay55 Q K)) (k0_pay57 Q K V O) (k0_pay58 Q K V O) (k0_pay59 Q K)
          (k0_pay60 Q K V) l4 l8)
        l9 l10
      = tailVec 256 (slices768 256 (by decide)) (ctxAll 256 (by decide) Q K V O) X l4 l8 l9 l10 := rfl

/-- Here the dense layer's zero accumulator is handed in as a value; it is the constant the expression names. -/
private theorem piece128 (X : FVec F S1024x768 .f32) (Q K V : FVec F S1024x768 .bf16) (O : FVec F S128x64 .bf16)
    (l4 : Vec F S768x768 .bf16) (l8 l9 l10 : Vec F S1x768 .f32) :
    k0_pay42 X
        (k0_pay40 Q K V O (k0_pay27 Q K V O) (k0_pay28 Q K V O) (k0_pay31 V O (k0_pay29 Q K) (k0_pay30 Q K))
          (k0_pay32 Q K V O) (k0_pay33 Q K V O) (k0_pay36 O (k0_pay34 Q K) (k0_pay35 V)) (k0_pay37 Q K V O)
          (k0_pay38 Q K V O) (k0_pay39 Q K V O))
        (k0_pay41 l4) (constant S128x768 .f32 0x00000000#32) l8 l9 l10
      = tailVec 128 (slices768 128 (by decide)) (ctxAll 128 (by decide) Q K V O) X l4 l8 l9 l10 := rfl

/-- The first batch element's first head reads the query and key slabs through their own text (its first name
    starts from the loaded blocks), so here the two slabs are the projections themselves. -/
private theorem piece0 (X : FVec F S1024x768 .f32) (l0 : Vec F S1024x768 .f32) (l1 l2 : Vec F S768x768 .bf16)
    (l5 l6 : Vec F S1x768 .f32) (V : FVec F S1024x768 .bf16) (O : FVec F S128x64 .bf16)
    (l4 : Vec F S768x768 .bf16) (l8 l9 l10 : Vec F S1x768 .f32) :
    k0_pay26
        (k0_pay24 X (k0_pay4 l0 l1 l5) (k0_pay5 l0 l2 l6) V O (k0_pay9 V O (k0_pay8 l0 l1 l5 l2 l6))
          (k0_pay10 (k0_pay4 l0 l1 l5) (k0_pay5 l0 l2 l6) V O) (k0_pay11 (k0_pay4 l0 l1 l5) (k0_pay5 l0 l2 l6) V O)
          (k0_pay15 (k0_pay13 (k0_pay4 l0 l1 l5) (k0_pay5 l0 l2 l6) V) (k0_pay14 (k0_pay4 l0 l1 l5) (k0_pay5 l0 l2 l6) O))
          (k0_pay16 (k0_pay4 l0 l1 l5) (k0_pay5 l0 l2 l6) V O) (k0_pay17 (k0_pay4 l0 l1 l5) (k0_pay5 l0 l2 l6) V O)
          (k0_pay18 (k0_pay4 l0 l1 l5) (k0_pay5 l0 l2 l6) V O)
          (k0_pay20 V O (k0_pay19 (k0_pay4 l0 l1 l5) (k0_pay5 l0 l2 l6)))
          (k0_pay21 (k0_pay4 l0 l1 l5) (k0_pay5 l0 l2 l6) V O) (k0_pay22 (k0_pay4 l0 l1 l5) (k0_pay5 l0 l2 l6) V O)
          (k0_pay23 (k0_pay4 l0 l1 l5) (k0_pay5 l0 l2 l6)) l4 l8)
        (k0_pay25 X (k0_pay4 l0 l1 l5) (k0_pay5 l0 l2 l6) V O (k0_pay9 V O (k0_pay8 l0 l1 l5 l2 l6))
          (k0_pay10 (k0_pay4 l0 l1 l5) (k0_pay5 l0 l2 l6) V O) (k0_pay11 (k0_pay4 l0 l1 l5) (k0_pay5 l0 l2 l6) V O)
          (k0_pay15 (k0_pay13 (k0_pay4 l0 l1 l5) (k0_pay5 l0 l2 l6) V) (k0_pay14 (k0_pay4 l0 l1 l5) (k0_pay5 l0 l2 l6) O))
          (k0_pay16 (k0_pay4 l0 l1 l5) (k0_pay5 l0 l2 l6) V O) (k0_pay17 (k0_pay4 l0 l1 l5) (k0_pay5 l0 l2 l6) V O)
          (k0_pay18 (k0_pay4 l0 l1 l5) (k0_pay5 l0 l2 l6) V O)
          (k0_pay20 V O (k0_pay19 (k0_pay4 l0 l1 l5) (k0_pay5 l0 l2 l6)))
          (k0_pay21 (k0_pay4 l0 l1 l5) (k0_pay5 l0 l2 l6) V O) (k0_pay22 (k0_pay4 l0 l1 l5) (k0_pay5 l0 l2 l6) V O)
          (k0_pay23 (k0_pay4 l0 l1 l5) (k0_pay5 l0 l2 l6)) l4 l8)
        l9 l10
      = tailVec 0 (slices768 0 (by decide)) (ctxAll 0 (by decide) (k0_pay4 l0 l1 l5) (k0_pay5 l0 l2 l6) V O) X l4 l8 l9 l10 := rfl

/-! ## The eight stores -/

/-- The output block after the body: the eight pieces, last first, each the per-batch expression of the loaded blocks. -/
theorem out0_11_eq (x0 : Vec F S1024x768 .f32) (x1 x2 x3 x4 : Vec F S768x768 .bf16) (x5 x6 x7 x8 x9 x10 : Vec F S1x768 .f32) :
    out0_11 x0 x1 x2 x3 x4 x5 x6 x7 x8 x9 x10
      = View.canon [⟨r0_10, pieceVec 896 (by decide) (View.ld x0 r0_0) (View.ld x1 r0_1) (View.ld x2 r0_1) (View.ld x3 r0_1) (View.ld x4 r0_1) (View.ld x5 r0_2) (View.ld x6 r0_2) (View.ld x7 r0_2) (View.ld x8 r0_2) (View.ld x9 r0_2) (View.ld x10 r0_2)⟩,
          ⟨r0_9, pieceVec 768 (by decide) (View.ld x0 r0_0) (View.ld x1 r0_1) (View.ld x2 r0_1) (View.ld x3 r0_1) (View.ld x4 r0_1) (View.ld x5 r0_2) (View.ld x6 r0_2) (View.ld x7 r0_2) (View.ld x8 r0_2) (View.ld x9 r0_2) (View.ld x10 r0_2)⟩,
          ⟨r0_8, pieceVec 640 (by decide) (View.ld x0 r0_0) (View.ld x1 r0_1) (View.ld x2 r0_1) (View.ld x3 r0_1) (View.ld x4 r0_1) (View.ld x5 r0_2) (View.ld x6 r0_2) (View.ld x7 r0_2) (View.ld x8 r0_2) (View.ld x9 r0_2) (View.ld x10 r0_2)⟩,
          ⟨r0_7, pieceVec 512 (by decide) (View.ld x0 r0_0) (View.ld x1 r0_1) (View.ld x2 r0_1) (View.ld x3 r0_1) (View.ld x4 r0_1) (View.ld x5 r0_2) (View.ld x6 r0_2) (View.ld x7 r0_2) (View.ld x8 r0_2) (View.ld x9 r0_2) (View.ld x10 r0_2)⟩,
          ⟨r0_6, pieceVec 384 (by decide) (View.ld x0 r0_0) (View.ld x1 r0_1) (View.ld x2 r0_1) (View.ld x3 r0_1) (View.ld x4 r0_1) (View.ld x5 r0_2) (View.ld x6 r0_2) (View.ld x7 r0_2) (View.ld x8 r0_2) (View.ld x9 r0_2) (View.ld x10 r0_2)⟩,
          ⟨r0_5, pieceVec 256 (by decide) (View.ld x0 r0_0) (View.ld x1 r0_1) (View.ld x2 r0_1) (View.ld x3 r0_1) (View.ld x4 r0_1) (View.ld x5 r0_2) (View.ld x6 r0_2) (View.ld x7 r0_2) (View.ld x8 r0_2) (View.ld x9 r0_2) (View.ld x10 r0_2)⟩,
          ⟨r0_4, pieceVec 128 (by decide) (View.ld x0 r0_0) (View.ld x1 r0_1) (View.ld x2 r0_1) (View.ld x3 r0_1) (View.ld x4 r0_1) (View.ld x5 r0_2) (View.ld x6 r0_2) (View.ld x7 r0_2) (View.ld x8 r0_2) (View.ld x9 r0_2) (View.ld x10 r0_2)⟩,
          ⟨r0_3, pieceVec 0 (by decide) (View.ld x0 r0_0) (View.ld x1 r0_1) (View.ld x2 r0_1) (View.ld x3 r0_1) (View.ld x4 r0_1) (View.ld x5 r0_2) (View.ld x6 r0_2) (View.ld x7 r0_2) (View.ld x8 r0_2) (View.ld x9 r0_2) (View.ld x10 r0_2)⟩] := by
  unfold out0_11
  -- each stored tree is its batch element's expression over the shared values …
  rw [piece896, piece768, piece640, piece512, piece384, piece256, piece128, piece0]
  -- … and the shared values are the projections, the ones block and the residual rows of the loaded blocks
  rw [q_eq, k_eq, v_eq, ones_eq, resid_eq]
  rfl

end Cert.KernelIdeal.KPieces

end
-- ==== Proof.Spec.lean ====
/-
  The mathematics of one BERT self-attention block on the extended reals, stated once for both programs.

  Everything is per batch element: from a slab `xb : 128 × 768` (the 128 positions of one batch element) the three
  projections `Q, K, V = xb · Wᵀ + b`; per head `h` (64 columns) the scores of position `i` against position `j`, their
  row maximum, the exponentials of the centred scores, and the context row; then per position the output dense layer
  with bias and residual, and the layer normalisation of that row.

  Two spellings of the head differ, and only there:
  * `headK`: the scale `1/8` multiplies `Q` BEFORE the score sum (`headKs` is the head of an already scaled `Q`), and the context is the quotient of two sums
    `(Σ_j e_ij · v_jd) / (Σ_j e_ij · 1)`;
  * `headR`: the scale multiplies the score sum, and each weight is normalised first, `Σ_j (e_ij / Σ_j' e_ij') · v_jd`.
  On real (finite) `Q, K, V` they are the same function: distributivity of a real factor over a finite sum of reals,
  and a real positive denominator moved across a finite sum.
-/
import Idealize.ShloMosaic.PureOps.Ideal
import Idealize.ShloMosaic.Lib.ValueIdx

noncomputable section

namespace Cert.Spec

open Idealize.ShloMosaic Idealize.ShloMosaic.ValueIdx

/-! ## The literals both programs carry (the same words on both sides) -/

/-- `1/8 = 1/√64`, the score scale. -/
abbrev c8 : EReal := Ideal.ofBits .f32 0x3E000000#32
/-- `-∞`, where a row maximum starts. -/
abbrev ninf : EReal := Ideal.ofBits .f32 0xFF800000#32
/-- `768`, the row length a mean divides by. -/
abbrev n768 : EReal := Ideal.ofBits .f32 0x44400000#32
/-- The variance's epsilon. -/
abbrev eps : EReal := Ideal.ofBits .f32 0x2B8CBCCC#32
/-- The bf16 `1` of the all-ones matrix whose product gives the row sum of the weights. -/
abbrev oneB : EReal := Ideal.ofBits .bf16 0x3F80#16

/-! ## Indices -/

/-- Column `h·64 + d` of the 768: coordinate `d` of head `h`. -/
def col (h : Fin 12) (d : Fin 64) : Fin 768 := ⟨h.val * 64 + d.val, by have := h.isLt; have := d.isLt; omega⟩
/-- The head a column belongs to. -/
def hd (c : Fin 768) : Fin 12 := ⟨c.val / 64, by have := c.isLt; omega⟩
/-- A column's coordinate inside its head. -/
def dd (c : Fin 768) : Fin 64 := ⟨c.val % 64, Nat.mod_lt _ (by decide)⟩
/-- Row `b·128 + s` of the 8192: position `s` of batch element `b`. -/
def row (b : Fin 64) (s : Fin 128) : Fin 8192 := ⟨b.val * 128 + s.val, by have := b.isLt; have := s.isLt; omega⟩

theorem col_hd_dd (c : Fin 768) : col (hd c) (dd c) = c :=
  Fin.ext (by show c.val / 64 * 64 + c.val % 64 = c.val; exact Nat.div_add_mod' _ _)

/-! ## One row through a dense layer -/

/-- `xr · Wᵀ + b` for a weight stored (out, in): entry `o` is `Σ_i xr_i · W_{o i} + b_o`. -/
def projRow (xr : Fin 768 → EReal) (w : Fin 768 → Fin 768 → EReal) (b : Fin 768 → EReal) : Fin 768 → EReal :=
  fun o => (∑ i : Fin 768, xr i * w o i) + b o

/-! ## One head: 128 positions, 64 coordinates -/

/-- The maximum of a row of scores, from `-∞`. -/
def rowMax (s : Fin 128 → EReal) : EReal := (Finset.univ : Finset (Fin 128)).fold max ninf s

/-- Scores of an already scaled `q`: the plain sum of products. -/
def scoreS (qs k : Fin 128 → Fin 64 → EReal) : Fin 128 → Fin 128 → EReal :=
  fun i j => ∑ d : Fin 64, qs i d * k j d
/-- Scores with the scale on the sum. -/
def scoreR (q k : Fin 128 → Fin 64 → EReal) : Fin 128 → Fin 128 → EReal :=
  fun i j => (∑ d : Fin 64, q i d * k j d) * c8

/-- The exponentials of a score matrix centred at each row's maximum. -/
def expo (s : Fin 128 → Fin 128 → EReal) : Fin 128 → Fin 128 → EReal :=
  fun i j => Ideal.exp (s i j - rowMax (s i))

/-- The context as a quotient of two sums (the weights' row sum taken as a product with ones), from an already
    scaled `q`. -/
def headKs (qs k v : Fin 128 → Fin 64 → EReal) : Fin 128 → Fin 64 → EReal :=
  fun i d => Ideal.div (∑ j : Fin 128, expo (scoreS qs k) i j * v j d) (∑ j : Fin 128, expo (scoreS qs k) i j * oneB)
/-- The same with the scale `1/8` put on `q` first. -/
def headK (q k v : Fin 128 → Fin 64 → EReal) : Fin 128 → Fin 64 → EReal :=
  headKs (fun i d => q i d * c8) k v
/-- The context with each weight normalised by its row sum first. -/
def headR (q k v : Fin 128 → Fin 64 → EReal) : Fin 128 → Fin 64 → EReal :=
  fun i d => ∑ j : Fin 128, Ideal.div (expo (scoreR q k) i j) (∑ j' : Fin 128, expo (scoreR q k) i j') * v j d

/-! ## One row through the output layer and the normalisation -/

/-- Layer normalisation of one row: centre at the mean, scale by `1/√(var + ε)`, then the affine map. -/
def lnRow (hr : Fin 768 → EReal) (g be : Fin 768 → EReal) : Fin 768 → EReal :=
  fun o =>
    (hr o - Ideal.div (∑ o' : Fin 768, hr o') n768)
      * Ideal.rsqrt (Ideal.div (∑ o' : Fin 768, (hr o' - Ideal.div (∑ o'' : Fin 768, hr o'') n768) * (hr o' - Ideal.div (∑ o'' : Fin 768, hr o'') n768)) n768 + eps)
      * g o + be o

/-- The output dense layer on a context row, plus bias, plus the residual row, normalised. -/
def outRow (cr xr : Fin 768 → EReal) (wo : Fin 768 → Fin 768 → EReal) (bo g be : Fin 768 → EReal) : Fin 768 → EReal :=
  lnRow (fun o => ((∑ c : Fin 768, cr c * wo o c) + bo o) + xr o) g be

/-! ## One batch element -/

/-- Head `h`'s 64 columns of a 128 × 768 slab. -/
def headOf (a : Fin 128 → Fin 768 → EReal) (h : Fin 12) : Fin 128 → Fin 64 → EReal := fun i d => a i (col h d)

/-- The context slab from the three projected slabs, by a head function. -/
def ctxOf (head : (Fin 128 → Fin 64 → EReal) → (Fin 128 → Fin 64 → EReal) → (Fin 128 → Fin 64 → EReal) → Fin 128 → Fin 64 → EReal)
    (q k v : Fin 128 → Fin 768 → EReal) : Fin 128 → Fin 768 → EReal :=
  fun i c => head (headOf q (hd c)) (headOf k (hd c)) (headOf v (hd c)) i (dd c)

/-- The whole block on one batch element's slab, by a head function. -/
def batchOf (head : (Fin 128 → Fin 64 → EReal) → (Fin 128 → Fin 64 → EReal) → (Fin 128 → Fin 64 → EReal) → Fin 128 → Fin 64 → EReal)
    (xb : Fin 128 → Fin 768 → EReal) (wq wk wv wo : Fin 768 → Fin 768 → EReal) (bq bk bv bo g be : Fin 768 → EReal) :
    Fin 128 → Fin 768 → EReal :=
  fun s => outRow
    (ctxOf head (fun s' => projRow (xb s') wq bq) (fun s' => projRow (xb s') wk bk) (fun s' => projRow (xb s') wv bv) s)
    (xb s) wo bo g be

/-! ## The whole arrays -/

abbrev SX : Shape := ⟨3, ![64, 128, 768]⟩
abbrev SW : Shape := ⟨2, ![768, 768]⟩
abbrev SV : Shape := ⟨1, ![768]⟩

/-- A (768, 768) array as a curried function. -/
def w2 (w : SW.Idx → EReal) : Fin 768 → Fin 768 → EReal := fun o i => w (ix2 o i)
/-- A (768) array as a function. -/
def v1 (b : SV.Idx → EReal) : Fin 768 → EReal := fun o => b (ix1 o)
/-- Batch element `b`'s slab of the (64, 128, 768) input. -/
def slab (x : SX.Idx → EReal) (b : Fin 64) : Fin 128 → Fin 768 → EReal := fun s c => x (ix3 b s c)

/-- The block on the whole input, by a head function. -/
def G (head : (Fin 128 → Fin 64 → EReal) → (Fin 128 → Fin 64 → EReal) → (Fin 128 → Fin 64 → EReal) → Fin 128 → Fin 64 → EReal)
    (x : SX.Idx → EReal) (wq wk wv wo : SW.Idx → EReal) (bq bk bv bo g be : SV.Idx → EReal) : SX.Idx → EReal :=
  fun i => batchOf head (slab x (i 0)) (w2 wq) (w2 wk) (w2 wv) (w2 wo) (v1 bq) (v1 bk) (v1 bv) (v1 bo) (v1 g) (v1 be) (i 1) (i 2)

/-- The fused program's function. -/
abbrev GK := G headK
/-- The three-stage program's function. -/
abbrev GR := G headR

end Cert.Spec

end
-- ==== Proof.KHead.lean ====
/-
  One head of the fused program read at an index: the vector expression `KVec.headVec` at row `i`, coordinate `d` is the
  head function of the three slices as functions of (row, coordinate).
-/
import proofs.«136720_g2000702396236789_pallasbulk_1056_14_alg».proof.Proof.KVec
import proofs.«136720_g2000702396236789_pallasbulk_1056_14_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KHead

open Idealize.ShloMosaic Idealize.ShloMosaic.ValueIdx Cert.KernelIdeal Cert.KernelIdeal.KVec

variable [Facts]
open Facts₀ Facts

/-! ## Layout operations at coordinates: a column of row values and its spread over the columns -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 128 × 64 block of the 1024 × 768 slab at (`ro`, `co`) reads, at `(i, d)`, the slab at `(ro + i, co + d)`. -/
theorem slice_apply (ro co : Nat) (hro : ro + 128 ≤ 1024) (hco : co + 64 ≤ 768) (hs : S1024x768.Slices ![ro, co] S128x64)
    (x : S1024x768.Idx → α) (i : Fin 128) (d : Fin 64) :
    extractStridedSlice S128x64 ![ro, co] x hs (ix2 i d)
      = x (ix2 ⟨ro + i.val, by have := i.isLt; omega⟩ ⟨co + d.val, by have := d.isLt; omega⟩) :=
  extractStridedSlice_apply _ _ _ _ _ (fun ax => by
    match ax with
    | ⟨0, _⟩ => rfl
    | ⟨1, _⟩ => rfl)

end Layout

/-! ## The two products' operand indices, axis by axis -/

theorem lhs_s_0 (i : S128x128.Idx) (q : dot_S128x64_S128x64_S128x128_1_1_0_0_n_n.contr.Idx) :
    (dot_S128x64_S128x64_S128x128_1_1_0_0_n_n.lhsIdx i q 0).val = (i 0).val := by
  unfold DotDims.lhsIdx
  rw [dif_neg (show ¬(0 : Fin S128x64.rank) ∈ dot_S128x64_S128x64_S128x128_1_1_0_0_n_n.lhsBatch from List.not_mem_nil),
    dif_pos (show (0 : Fin S128x64.rank) ∈ dot_S128x64_S128x64_S128x128_1_1_0_0_n_n.lhsNonContracting from List.mem_singleton.mpr rfl)]
  rfl
theorem lhs_s_1 (i : S128x128.Idx) (q : dot_S128x64_S128x64_S128x128_1_1_0_0_n_n.contr.Idx) :
    (dot_S128x64_S128x64_S128x128_1_1_0_0_n_n.lhsIdx i q 1).val = (q ⟨0, Nat.one_pos⟩).val :=
  dot_S128x64_S128x64_S128x128_1_1_0_0_n_n.lhsIdx_val_of_single rfl i q
theorem rhs_s_0 (i : S128x128.Idx) (q : dot_S128x64_S128x64_S128x128_1_1_0_0_n_n.contr.Idx) :
    (dot_S128x64_S128x64_S128x128_1_1_0_0_n_n.rhsIdx i q 0).val = (i 1).val := by
  unfold DotDims.rhsIdx
  rw [dif_neg (show ¬(0 : Fin S128x64.rank) ∈ dot_S128x64_S128x64_S128x128_1_1_0_0_n_n.rhsBatch from List.not_mem_nil),
    dif_pos (show (0 : Fin S128x64.rank) ∈ dot_S128x64_S128x64_S128x128_1_1_0_0_n_n.rhsNonContracting from List.mem_singleton.mpr rfl)]
  rfl
theorem rhs_s_1 (i : S128x128.Idx) (q : dot_S128x64_S128x64_S128x128_1_1_0_0_n_n.contr.Idx) :
    (dot_S128x64_S128x64_S128x128_1_1_0_0_n_n.rhsIdx i q 1).val = (q ⟨0, Nat.one_pos⟩).val :=
  dot_S128x64_S128x64_S128x128_1_1_0_0_n_n.rhsIdx_val_of_single rfl i q

theorem lhs_c_0 (i : S128x64.Idx) (q : dot_S128x128_S128x64_S128x64_1_0_0_1_n_n.contr.Idx) :
    (dot_S128x128_S128x64_S128x64_1_0_0_1_n_n.lhsIdx i q 0).val = (i 0).val := by
  unfold DotDims.lhsIdx
  rw [dif_neg (show ¬(0 : Fin S128x128.rank) ∈ dot_S128x128_S128x64_S128x64_1_0_0_1_n_n.lhsBatch from List.not_mem_nil),
    dif_pos (show (0 : Fin S128x128.rank) ∈ dot_S128x128_S128x64_S128x64_1_0_0_1_n_n.lhsNonContracting from List.mem_singleton.mpr rfl)]
  rfl
theorem lhs_c_1 (i : S128x64.Idx) (q : dot_S128x128_S128x64_S128x64_1_0_0_1_n_n.contr.Idx) :
    (dot_S128x128_S128x64_S128x64_1_0_0_1_n_n.lhsIdx i q 1).val = (q ⟨0, Nat.one_pos⟩).val :=
  dot_S128x128_S128x64_S128x64_1_0_0_1_n_n.lhsIdx_val_of_single rfl i q
theorem rhs_c_0 (i : S128x64.Idx) (q : dot_S128x128_S128x64_S128x64_1_0_0_1_n_n.contr.Idx) :
    (dot_S128x128_S128x64_S128x64_1_0_0_1_n_n.rhsIdx i q 0).val = (q ⟨0, Nat.one_pos⟩).val :=
  dot_S128x128_S128x64_S128x64_1_0_0_1_n_n.rhsIdx_val_of_single rfl i q
theorem rhs_c_1 (i : S128x64.Idx) (q : dot_S128x128_S128x64_S128x64_1_0_0_1_n_n.contr.Idx) :
    (dot_S128x128_S128x64_S128x64_1_0_0_1_n_n.rhsIdx i q 1).val = (i 1).val := by
  unfold DotDims.rhsIdx
  rw [dif_neg (show ¬(1 : Fin S128x64.rank) ∈ dot_S128x128_S128x64_S128x64_1_0_0_1_n_n.rhsBatch from List.not_mem_nil),
    dif_pos (show (1 : Fin S128x64.rank) ∈ dot_S128x128_S128x64_S128x64_1_0_0_1_n_n.rhsNonContracting from List.mem_singleton.mpr rfl)]
  rfl

/-! ## The two products at an index -/

/-- Rows against rows: entry (`i`, `j`) of the product contracted over both operands' 64 columns. -/
theorem matS_apply (a b : FVec Ideal S128x64 .bf16) (i j : Fin 128) :
    matmul dot_S128x64_S128x64_S128x128_1_1_0_0_n_n none a b (constant S128x128 .f32 0x00000000#32) (ix2 i j)
      = ∑ d : Fin 64, a (ix2 i d) * b (ix2 j d) := by
  simp only [matmul]
  rw [Ideal.matmul_constant_zero_apply,
    ← Equiv.sum_comp (contrEquiv1 dot_S128x64_S128x64_S128x128_1_1_0_0_n_n 64 rfl rfl).symm]
  refine Finset.sum_congr rfl fun k _ => ?_
  have hk := contrEquiv1_symm_val dot_S128x64_S128x64_S128x128_1_1_0_0_n_n 64 rfl rfl k
  have el : dot_S128x64_S128x64_S128x128_1_1_0_0_n_n.lhsIdx (ix2 i j)
      ((contrEquiv1 dot_S128x64_S128x64_S128x128_1_1_0_0_n_n 64 rfl rfl).symm k) = ix2 i k := funext fun ax => Fin.ext (by
    match ax with
    | ⟨0, _⟩ => exact lhs_s_0 _ _
    | ⟨1, _⟩ => exact (lhs_s_1 _ _).trans hk)
  have er : dot_S128x64_S128x64_S128x128_1_1_0_0_n_n.rhsIdx (ix2 i j)
      ((contrEquiv1 dot_S128x64_S128x64_S128x128_1_1_0_0_n_n 64 rfl rfl).symm k) = ix2 j k := funext fun ax => Fin.ext (by
    match ax with
    | ⟨0, _⟩ => exact rhs_s_0 _ _
    | ⟨1, _⟩ => exact (rhs_s_1 _ _).trans hk)
  rw [el, er]

/-- Rows against columns: entry (`i`, `d`) of the product contracted over the left operand's 128 columns and the right
    operand's 128 rows. -/
theorem matC_apply (e : FVec Ideal S128x128 .bf16) (w : FVec Ideal S128x64 .bf16) (i : Fin 128) (d : Fin 64) :
    matmul dot_S128x128_S128x64_S128x64_1_0_0_1_n_n none e w (constant S128x64 .f32 0x00000000#32) (ix2 i d)
      = ∑ j : Fin 128, e (ix2 i j) * w (ix2 j d) := by
  simp only [matmul]
  rw [Ideal.matmul_constant_zero_apply,
    ← Equiv.sum_comp (contrEquiv1 dot_S128x128_S128x64_S128x64_1_0_0_1_n_n 128 rfl rfl).symm]
  refine Finset.sum_congr rfl fun k _ => ?_
  have hk := contrEquiv1_symm_val dot_S128x128_S128x64_S128x64_1_0_0_1_n_n 128 rfl rfl k
  have el : dot_S128x128_S128x64_S128x64_1_0_0_1_n_n.lhsIdx (ix2 i d)
      ((contrEquiv1 dot_S128x128_S128x64_S128x64_1_0_0_1_n_n 128 rfl rfl).symm k) = ix2 i k := funext fun ax => Fin.ext (by
    match ax with
    | ⟨0, _⟩ => exact lhs_c_0 _ _
    | ⟨1, _⟩ => exact (lhs_c_1 _ _).trans hk)
  have er : dot_S128x128_S128x64_S128x64_1_0_0_1_n_n.rhsIdx (ix2 i d)
      ((contrEquiv1 dot_S128x128_S128x64_S128x64_1_0_0_1_n_n 128 rfl rfl).symm k) = ix2 k d := funext fun ax => Fin.ext (by
    match ax with
    | ⟨0, _⟩ => exact (rhs_c_0 _ _).trans hk
    | ⟨1, _⟩ => exact rhs_c_1 _ _)
  rw [el, er]

/-! ## The head, piece by piece -/

/-- The scores at (`i`, `j`): the sum over the 64 coordinates of the query slice's row `i` against the key slice's row `j`. -/
theorem scoreVec_apply (ro co : Nat) (hro : ro + 128 ≤ 1024) (hco : co + 64 ≤ 768) (hs : S1024x768.Slices ![ro, co] S128x64)
    (q k : FVec Ideal S1024x768 .bf16) (i j : Fin 128) :
    scoreVec ro co hs q k (ix2 i j)
      = Cert.Spec.scoreS
          (fun i' d' => q (ix2 ⟨ro + i'.val, by have := i'.isLt; omega⟩ ⟨co + d'.val, by have := d'.isLt; omega⟩))
          (fun i' d' => k (ix2 ⟨ro + i'.val, by have := i'.isLt; omega⟩ ⟨co + d'.val, by have := d'.isLt; omega⟩)) i j := by
  unfold scoreVec Cert.Spec.scoreS
  rw [matS_apply]
  refine Finset.sum_congr rfl fun d _ => ?_
  rw [slice_apply ro co hro hco hs q i d, slice_apply ro co hro hco hs k j d]

/-- The row maximum of a 128 × 128 matrix at row `i`: the fold of `max` from `-∞` over that row's entries. -/
theorem rowMaxVec_apply (s : FVec Ideal S128x128 .f32) (i : Fin 128) :
    multiReduction .maximumf [1] S128 s 0xFF800000#32 reduces_S128x128_S128 (.inl rfl) rfl (ix1 i)
      = Cert.Spec.rowMax (fun j => s (ix2 i j)) := by
  refine (Ideal.multiReduction_maximumf_single s 0xFF800000#32 reduces_S128x128_S128 (.inl rfl) rfl (ix1 i)).trans ?_
  unfold Cert.Spec.rowMax
  have hl : (s ∘ reduces_S128x128_S128.lift (ix1 i)) = fun j : Fin 128 => s (ix2 i j) := funext fun j =>
    congrArg s (funext fun ax => Fin.ext (by
      match ax with
      | ⟨0, _⟩ => rfl
      | ⟨1, _⟩ => rfl))
  rw [hl]
  rfl

/-- The centred exponentials at (`i`, `j`). -/
theorem expVec_apply (s : FVec Ideal S128x128 .f32) (i j : Fin 128) :
    expVec s (ix2 i j) = Cert.Spec.expo (fun i' j' => s (ix2 i' j')) i j := by
  unfold expVec Cert.Spec.expo
  show Ideal.exp (s (ix2 i j) - broadcastTo S128x128
      (shapeCast S128x1 (multiReduction .maximumf [1] S128 s 0xFF800000#32 reduces_S128x128_S128 (.inl rfl) rfl) shapeCasts_S128_S128x1)
      broadcasts_S128x1_S128x128 (ix2 i j)) = _
  rw [broadcastTo_a1_ab_apply, shapeCast_a_a1_apply, rowMaxVec_apply]

/-- The context at (`i`, `d`) from the exponentials: the quotient of the two sums over the 128 positions. -/
theorem ctxVec_apply (ro co : Nat) (hro : ro + 128 ≤ 1024) (hco : co + 64 ≤ 768) (hs : S1024x768.Slices ![ro, co] S128x64)
    (e : FVec Ideal S128x128 .f32) (v : FVec Ideal S1024x768 .bf16) (ones : FVec Ideal S128x64 .bf16)
    (i : Fin 128) (d : Fin 64) :
    ctxVec ro co hs e v ones (ix2 i d)
      = Ideal.div
          (∑ j : Fin 128, e (ix2 i j) * v (ix2 ⟨ro + j.val, by have := j.isLt; omega⟩ ⟨co + d.val, by have := d.isLt; omega⟩))
          (∑ j : Fin 128, e (ix2 i j) * ones (ix2 j d)) := by
  unfold ctxVec
  rw [truncf_apply, divf_apply, matC_apply, matC_apply]
  congr 1
  refine Finset.sum_congr rfl fun j _ => ?_
  rw [truncf_apply, slice_apply ro co hro hco hs v j d]

/-- The head at (`ro`, `co`), entry (`i`, `d`): the quotient-of-sums head of the three 128 × 64 slices. -/
theorem headVec_apply (ro co : Nat) (hro : ro + 128 ≤ 1024) (hco : co + 64 ≤ 768) (hs : S1024x768.Slices ![ro, co] S128x64)
    (q k v : FVec Ideal S1024x768 .bf16) (ones : FVec Ideal S128x64 .bf16) (hones : ∀ y, ones y = Cert.Spec.oneB)
    (i : Fin 128) (d : Fin 64) :
    headVec ro co hs q k v ones (ix2 i d)
      = Cert.Spec.headKs
          (fun i' d' => q (ix2 ⟨ro + i'.val, by have := i'.isLt; omega⟩ ⟨co + d'.val, by have := d'.isLt; omega⟩))
          (fun i' d' => k (ix2 ⟨ro + i'.val, by have := i'.isLt; omega⟩ ⟨co + d'.val, by have := d'.isLt; omega⟩))
          (fun i' d' => v (ix2 ⟨ro + i'.val, by have := i'.isLt; omega⟩ ⟨co + d'.val, by have := d'.isLt; omega⟩)) i d := by
  unfold headVec Cert.Spec.headKs
  rw [ctxVec_apply ro co hro hco hs]
  have hE : ∀ j : Fin 128, expVec (scoreVec ro co hs q k) (ix2 i j)
      = Cert.Spec.expo (Cert.Spec.scoreS
          (fun i' d' => q (ix2 ⟨ro + i'.val, by have := i'.isLt; omega⟩ ⟨co + d'.val, by have := d'.isLt; omega⟩))
          (fun i' d' => k (ix2 ⟨ro + i'.val, by have := i'.isLt; omega⟩ ⟨co + d'.val, by have := d'.isLt; omega⟩))) i j := fun j => by
    rw [expVec_apply]
    exact congrArg (fun S => Cert.Spec.expo S i j)
      (funext fun i' => funext fun j' => scoreVec_apply ro co hro hco hs q k i' j')
  congr 1
  · exact Finset.sum_congr rfl fun j _ => by rw [hE j]
  · exact Finset.sum_congr rfl fun j _ => by rw [hE j, hones]

end Cert.KernelIdeal.KHead

end
-- ==== Proof.KTail.lean ====
/-
  One batch element's tail of the fused program read at an index: dense layer, bias, residual, layer normalisation of row `i`.
-/
import proofs.«136720_g2000702396236789_pallasbulk_1056_14_alg».proof.Proof.KVec
import proofs.«136720_g2000702396236789_pallasbulk_1056_14_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KTail

open Idealize.ShloMosaic Idealize.ShloMosaic.ValueIdx Cert.KernelIdeal Cert.KernelIdeal.KVec

variable [Facts]
open Facts₀ Facts

/-! ## The keepdims column forms read at an index -/

/-- A vector `[a]` cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The dense layer's product read at an index -/

theorem lhs_dense_0 (i : S128x768.Idx) (q : dot_S128x768_S768x768_S128x768_1_1_0_0_n_n.contr.Idx) :
    (dot_S128x768_S768x768_S128x768_1_1_0_0_n_n.lhsIdx i q 0).val = (i 0).val := by
  unfold DotDims.lhsIdx
  rw [dif_neg (show ¬(0 : Fin S128x768.rank) ∈ dot_S128x768_S768x768_S128x768_1_1_0_0_n_n.lhsBatch from List.not_mem_nil),
    dif_pos (show (0 : Fin S128x768.rank) ∈ dot_S128x768_S768x768_S128x768_1_1_0_0_n_n.lhsNonContracting from List.mem_singleton.mpr rfl)]
  rfl

theorem lhs_dense_1 (i : S128x768.Idx) (q : dot_S128x768_S768x768_S128x768_1_1_0_0_n_n.contr.Idx) :
    (dot_S128x768_S768x768_S128x768_1_1_0_0_n_n.lhsIdx i q 1).val = (q ⟨0, (show (0 : ℕ) < 1 from Nat.one_pos)⟩).val :=
  dot_S128x768_S768x768_S128x768_1_1_0_0_n_n.lhsIdx_val_of_single rfl i q

theorem rhs_dense_0 (i : S128x768.Idx) (q : dot_S128x768_S768x768_S128x768_1_1_0_0_n_n.contr.Idx) :
    (dot_S128x768_S768x768_S128x768_1_1_0_0_n_n.rhsIdx i q 0).val = (i 1).val := by
  unfold DotDims.rhsIdx
  rw [dif_neg (show ¬(0 : Fin S768x768.rank) ∈ dot_S128x768_S768x768_S128x768_1_1_0_0_n_n.rhsBatch from List.not_mem_nil),
    dif_pos (show (0 : Fin S768x768.rank) ∈ dot_S128x768_S768x768_S128x768_1_1_0_0_n_n.rhsNonContracting from List.mem_singleton.mpr rfl)]
  rfl

theorem rhs_dense_1 (i : S128x768.Idx) (q : dot_S128x768_S768x768_S128x768_1_1_0_0_n_n.contr.Idx) :
    (dot_S128x768_S768x768_S128x768_1_1_0_0_n_n.rhsIdx i q 1).val = (q ⟨0, (show (0 : ℕ) < 1 from Nat.one_pos)⟩).val :=
  dot_S128x768_S768x768_S128x768_1_1_0_0_n_n.rhsIdx_val_of_single rfl i q

/-- The product of the context rows with the (out, in) weight, into zero: entry (`i`, `o`) is `Σ_c ctx[i, c] · w[o, c]`. -/
theorem dense_matmul_apply (ctx : FVec Ideal S128x768 .bf16) (w : FVec Ideal S768x768 .bf16) (i : Fin 128) (o : Fin 768) :
    matmul dot_S128x768_S768x768_S128x768_1_1_0_0_n_n none ctx w (constant S128x768 .f32 0x00000000#32) (ix2 i o)
      = ∑ c : Fin 768, ctx (ix2 i c) * w (ix2 o c) := by
  simp only [matmul]
  rw [Ideal.matmul_constant_zero_apply, ← Equiv.sum_comp (contrEquiv1 dot_S128x768_S768x768_S128x768_1_1_0_0_n_n 768 rfl rfl).symm]
  refine Finset.sum_congr rfl fun k _ => ?_
  have hk := contrEquiv1_symm_val dot_S128x768_S768x768_S128x768_1_1_0_0_n_n 768 rfl rfl k
  have el : dot_S128x768_S768x768_S128x768_1_1_0_0_n_n.lhsIdx (ix2 i o)
      ((contrEquiv1 dot_S128x768_S768x768_S128x768_1_1_0_0_n_n 768 rfl rfl).symm k) = ix2 i k := funext fun a => Fin.ext (by
    match a with
    | ⟨0, _⟩ => exact lhs_dense_0 _ _
    | ⟨1, _⟩ => exact (lhs_dense_1 _ _).trans hk)
  have er : dot_S128x768_S768x768_S128x768_1_1_0_0_n_n.rhsIdx (ix2 i o)
      ((contrEquiv1 dot_S128x768_S768x768_S128x768_1_1_0_0_n_n 768 rfl rfl).symm k) = ix2 o k := funext fun a => Fin.ext (by
    match a with
    | ⟨0, _⟩ => exact rhs_dense_0 _ _
    | ⟨1, _⟩ => exact (rhs_dense_1 _ _).trans hk)
  rw [el, er]

/-! ## A row sum read at an index -/

/-- The sum over the 768 lanes, kept as a column: entry (`i`, `u`) is `Σ_o h[i, o]`. -/
theorem rowSum_apply (h : FVec Ideal S128x768 .f32) (i : Fin 128) (u : Fin 1) :
    shapeCast S128x1 (multiReduction .add [1] S128 h 0x00000000#32 reduces_S128x768_S128 (.inl rfl) rfl) shapeCasts_S128_S128x1 (ix2 i u)
      = ∑ o : Fin 768, h (ix2 i o) := by
  rw [shapeCast_a_a1_apply]
  refine (Ideal.multiReduction_add_single h _ reduces_S128x768_S128 (.inl rfl) rfl (ix1 i)).trans ?_
  refine Finset.sum_congr rfl fun k _ => congrArg h (funext fun a => Fin.ext ?_)
  match a with
  | ⟨0, _⟩ => rfl
  | ⟨1, _⟩ => rfl

/-! ## The four stages of the tail read at an index -/

/-- The dense layer at (`i`, `o`): the product sum, plus the bias, plus the residual row `ro + i`. -/
theorem denseVec_apply (ro : Nat) (hro : ro + 128 ≤ 1024) (hx : S1024x768.Slices ![ro, 0] S128x768)
    (ctx : FVec Ideal S128x768 .bf16) (x1 : FVec Ideal S1024x768 .f32) (wo : Vec Ideal S768x768 .bf16) (bo : Vec Ideal S1x768 .f32)
    (i : Fin 128) (o : Fin 768) :
    denseVec ro hx ctx x1 wo bo (ix2 i o)
      = ((∑ c : Fin 768, ctx (ix2 i c) * wo (ix2 o c)) + bo (ix2 0 o)) + x1 (ix2 ⟨ro + i.val, by have := i.isLt; omega⟩ o) := by
  unfold denseVec
  rw [addf_apply, addf_apply, shapeCast_self, shapeCast_self, dense_matmul_apply, broadcastTo_1b_ab_apply, slice2_axis0_eq]

/-- Centred rows at (`i`, `o`): the entry less the row's mean. -/
theorem cenVec_apply (h : FVec Ideal S128x768 .f32) (i : Fin 128) (o : Fin 768) :
    cenVec h (ix2 i o) = h (ix2 i o) - Ideal.div (∑ o' : Fin 768, h (ix2 i o')) Cert.Spec.n768 := by
  unfold cenVec
  rw [subf_apply, broadcastTo_a1_ab_apply, divf_apply, rowSum_apply, broadcast_apply]
  rfl

/-- The reciprocal standard deviation of centred row `i`. -/
theorem rstdVec_apply (c : FVec Ideal S128x768 .f32) (i : Fin 128) (u : Fin 1) :
    rstdVec c (ix2 i u)
      = Ideal.rsqrt (Ideal.div (∑ o' : Fin 768, c (ix2 i o') * c (ix2 i o')) Cert.Spec.n768 + Cert.Spec.eps) := by
  unfold rstdVec
  show Ideal.rsqrt _ = _
  rw [addf_apply, divf_apply, rowSum_apply, broadcast_apply, broadcast_apply]
  rfl

/-- The affine map at (`i`, `o`). -/
theorem affVec_apply (c : FVec Ideal S128x768 .f32) (r : FVec Ideal S128x1 .f32) (g be : Vec Ideal S1x768 .f32) (i : Fin 128) (o : Fin 768) :
    affVec c r g be (ix2 i o) = c (ix2 i o) * r (ix2 i (0 : Fin 1)) * g (ix2 0 o) + be (ix2 0 o) := by
  unfold affVec
  rw [addf_apply, mulf_apply, mulf_apply, shapeCast_self, shapeCast_self, broadcastTo_a1_ab_apply, broadcastTo_1b_ab_apply,
    broadcastTo_1b_ab_apply]

/-- The tail at row offset `ro`, entry (`i`, `o`): the output row of context row `i` and residual row `ro + i`. -/
theorem tailVec_apply (ro : Nat) (hro : ro + 128 ≤ 1024) (hx : S1024x768.Slices ![ro, 0] S128x768)
    (ctx : FVec Ideal S128x768 .bf16) (x1 : FVec Ideal S1024x768 .f32) (wo : Vec Ideal S768x768 .bf16) (bo g be : Vec Ideal S1x768 .f32)
    (i : Fin 128) (o : Fin 768) :
    tailVec ro hx ctx x1 wo bo g be (ix2 i o)
      = Cert.Spec.outRow (fun c' => ctx (ix2 i c')) (fun c' => x1 (ix2 ⟨ro + i.val, by have := i.isLt; omega⟩ c'))
          (fun o' c' => wo (ix2 o' c')) (fun o' => bo (ix2 0 o')) (fun o' => g (ix2 0 o')) (fun o' => be (ix2 0 o')) o := by
  unfold tailVec
  rw [affVec_apply, rstdVec_apply]
  simp only [cenVec_apply, denseVec_apply ro hro hx]
  rfl

end Cert.KernelIdeal.KTail

end
-- ==== Proof.KBatch.lean ====
/-
  One batch element of the fused program read at an index: what the body stores for the rows at `ro` is the per-batch
  function of the block's rows `ro … ro + 127` and the weights.
-/
import proofs.«136720_g2000702396236789_pallasbulk_1056_14_alg».proof.Proof.KHead
import proofs.«136720_g2000702396236789_pallasbulk_1056_14_alg».proof.Proof.KTail

noncomputable section

namespace Cert.KernelIdeal.KBatch

open Idealize.ShloMosaic Idealize.ShloMosaic.ValueIdx Cert.KernelIdeal Cert.KernelIdeal.KVec

variable [Facts]
open Facts₀ Facts

/-! ## A projection read at an index

The projection's product contracts axis 1 of the rows with axis 1 of the (out, in) weight. At output entry (r, o) and
contraction position k the left operand is read at (r, k) and the right one at (o, k): one lemma per operand axis. -/

theorem lhs_proj_0 (i : S1024x768.Idx) (q : dot_S1024x768_S768x768_S1024x768_1_1_0_0_n_n.contr.Idx) :
    (dot_S1024x768_S768x768_S1024x768_1_1_0_0_n_n.lhsIdx i q 0).val = (i 0).val := by
  unfold DotDims.lhsIdx
  rw [dif_neg (show ¬(0 : Fin S1024x768.rank) ∈ dot_S1024x768_S768x768_S1024x768_1_1_0_0_n_n.lhsBatch from List.not_mem_nil),
    dif_pos (show (0 : Fin S1024x768.rank) ∈ dot_S1024x768_S768x768_S1024x768_1_1_0_0_n_n.lhsNonContracting from List.mem_singleton.mpr rfl)]
  rfl

theorem lhs_proj_1 (i : S1024x768.Idx) (q : dot_S1024x768_S768x768_S1024x768_1_1_0_0_n_n.contr.Idx) :
    (dot_S1024x768_S768x768_S1024x768_1_1_0_0_n_n.lhsIdx i q 1).val = (q ⟨0, by have h : dot_S1024x768_S768x768_S1024x768_1_1_0_0_n_n.contr.rank = 1 := rfl; omega⟩).val :=
  dot_S1024x768_S768x768_S1024x768_1_1_0_0_n_n.lhsIdx_val_of_single rfl i q

theorem rhs_proj_0 (i : S1024x768.Idx) (q : dot_S1024x768_S768x768_S1024x768_1_1_0_0_n_n.contr.Idx) :
    (dot_S1024x768_S768x768_S1024x768_1_1_0_0_n_n.rhsIdx i q 0).val = (i 1).val := by
  unfold DotDims.rhsIdx
  rw [dif_neg (show ¬(0 : Fin S768x768.rank) ∈ dot_S1024x768_S768x768_S1024x768_1_1_0_0_n_n.rhsBatch from List.not_mem_nil),
    dif_pos (show (0 : Fin S768x768.rank) ∈ dot_S1024x768_S768x768_S1024x768_1_1_0_0_n_n.rhsNonContracting from List.mem_singleton.mpr rfl)]
  rfl

theorem rhs_proj_1 (i : S1024x768.Idx) (q : dot_S1024x768_S768x768_S1024x768_1_1_0_0_n_n.contr.Idx) :
    (dot_S1024x768_S768x768_S1024x768_1_1_0_0_n_n.rhsIdx i q 1).val = (q ⟨0, by have h : dot_S1024x768_S768x768_S1024x768_1_1_0_0_n_n.contr.rank = 1 := rfl; omega⟩).val :=
  dot_S1024x768_S768x768_S1024x768_1_1_0_0_n_n.rhsIdx_val_of_single rfl i q

/-- Entry (r, o) of a projection is the row r against row o of the weight, plus the bias at o. The format changes and
    the casts of a shape to itself are identities on extended reals. -/
theorem projVec_apply (x0 : Vec Ideal S1024x768 .f32) (w : Vec Ideal S768x768 .bf16) (b : Vec Ideal S1x768 .f32)
    (r : Fin 1024) (o : Fin 768) :
    projVec x0 w b (ix2 r o)
      = Cert.Spec.projRow (fun i => x0 (ix2 r i)) (fun o' i => w (ix2 o' i)) (fun o' => b (ix2 0 o')) o := by
  unfold projVec Cert.Spec.projRow
  rw [addf_apply, shapeCast_self, shapeCast_self, shapeCast_self, broadcastTo_1b_ab_apply]
  refine congrArg (· + b (ix2 0 o)) ?_
  simp only [matmul]
  rw [Ideal.matmul_constant_zero_apply,
    ← Equiv.sum_comp (contrEquiv1 dot_S1024x768_S768x768_S1024x768_1_1_0_0_n_n 768 rfl rfl).symm]
  refine Finset.sum_congr rfl fun k _ => ?_
  have hk := contrEquiv1_symm_val dot_S1024x768_S768x768_S1024x768_1_1_0_0_n_n 768 rfl rfl k
  have el : dot_S1024x768_S768x768_S1024x768_1_1_0_0_n_n.lhsIdx (ix2 r o)
      ((contrEquiv1 dot_S1024x768_S768x768_S1024x768_1_1_0_0_n_n 768 rfl rfl).symm k) = ix2 r k :=
    funext fun a => Fin.ext (by
      match a with
      | ⟨0, _⟩ => exact lhs_proj_0 _ _
      | ⟨1, _⟩ => exact (lhs_proj_1 _ _).trans hk)
  have er : dot_S1024x768_S768x768_S1024x768_1_1_0_0_n_n.rhsIdx (ix2 r o)
      ((contrEquiv1 dot_S1024x768_S768x768_S1024x768_1_1_0_0_n_n 768 rfl rfl).symm k) = ix2 o k :=
    funext fun a => Fin.ext (by
      match a with
      | ⟨0, _⟩ => exact rhs_proj_0 _ _
      | ⟨1, _⟩ => exact (rhs_proj_1 _ _).trans hk)
  rw [el, er]
  rfl

/-- The scaled query projection at (r, c). -/
theorem qVec_apply (x0 : Vec Ideal S1024x768 .f32) (w : Vec Ideal S768x768 .bf16) (b : Vec Ideal S1x768 .f32)
    (r : Fin 1024) (c : Fin 768) :
    qVec x0 w b (ix2 r c)
      = Cert.Spec.projRow (fun i => x0 (ix2 r i)) (fun o' i => w (ix2 o' i)) (fun o' => b (ix2 0 o')) c * Cert.Spec.c8 := by
  unfold qVec
  rw [truncf_apply, mulf_apply, projVec_apply]
  rfl

/-- The key (or value) projection at (r, c). -/
theorem kVec_apply (x0 : Vec Ideal S1024x768 .f32) (w : Vec Ideal S768x768 .bf16) (b : Vec Ideal S1x768 .f32)
    (r : Fin 1024) (c : Fin 768) :
    kVec x0 w b (ix2 r c)
      = Cert.Spec.projRow (fun i => x0 (ix2 r i)) (fun o' i => w (ix2 o' i)) (fun o' => b (ix2 0 o')) c := by
  unfold kVec
  rw [truncf_apply, projVec_apply]

/-- Every entry of the all-ones matrix is the bf16 one. -/
theorem onesVec_apply (y : S128x64.Idx) : (onesVec (F := Ideal)) y = Cert.Spec.oneB := rfl

/-! ## The twelve heads side by side, read at an index

Column `c` of the 768 lies in piece `c / 64` of the concatenation along axis 1, at column `c % 64` of that piece, with
`64 · (c / 64)` columns before it. -/

/-- Entry (i, c) of the concatenation is entry (i, c % 64) of the head whose columns start at `64 · (c / 64)`. -/
theorem ctxAll_piece (ro : Nat) (hro : ro + 128 ≤ 1024) (q k v : FVec Ideal S1024x768 .bf16) (ones : FVec Ideal S128x64 .bf16)
    (i : Fin 128) (c : Fin 768) (n : Nat) (hn : n < 12) (hc : c.val / 64 = n) :
    ctxAll ro hro q k v ones (ix2 i c)
      = headVec ro (n * 64) (slices64 ro (n * 64) hro (by omega)) q k v ones (ix2 i (Cert.Spec.dd c)) := by
  have hcl := c.isLt
  have hi : ∀ b : Fin S128x64.rank, b.cast (rfl : S128x64.rank = S128x768.rank) ≠ (1 : Fin S128x768.rank) →
      ((ix2 i (Cert.Spec.dd c) : S128x64.Idx) b).val = ((ix2 i c : S128x768.Idx) (b.cast rfl)).val := by
    intro b hb
    match b with
    | ⟨0, _⟩ => rfl
    | ⟨1, _⟩ => exact absurd rfl hb
  unfold ctxAll
  interval_cases n
  · refine concatenate_apply_piece 1 _ _ (ix2 i c) 0 ?_ S128x64
      (headVec ro 0 (slices64 ro 0 hro (by decide)) q k v ones) ?_ rfl 0 ?_ (ix2 i (Cert.Spec.dd c)) hi ?_
    · exact (show (0 : Nat) < 12 by decide)
    · rfl
    · rfl
    · show 0 + c.val % 64 = c.val
      omega
  · refine concatenate_apply_piece 1 _ _ (ix2 i c) 1 ?_ S128x64
      (headVec ro 64 (slices64 ro 64 hro (by decide)) q k v ones) ?_ rfl 64 ?_ (ix2 i (Cert.Spec.dd c)) hi ?_
    · exact (show (1 : Nat) < 12 by decide)
    · rfl
    · rfl
    · show 64 + c.val % 64 = c.val
      omega
  · refine concatenate_apply_piece 1 _ _ (ix2 i c) 2 ?_ S128x64
      (headVec ro 128 (slices64 ro 128 hro (by decide)) q k v ones) ?_ rfl 128 ?_ (ix2 i (Cert.Spec.dd c)) hi ?_
    · exact (show (2 : Nat) < 12 by decide)
    · rfl
    · rfl
    · show 128 + c.val % 64 = c.val
      omega
  · refine concatenate_apply_piece 1 _ _ (ix2 i c) 3 ?_ S128x64
      (headVec ro 192 (slices64 ro 192 hro (by decide)) q k v ones) ?_ rfl 192 ?_ (ix2 i (Cert.Spec.dd c)) hi ?_
    · exact (show (3 : Nat) < 12 by decide)
    · rfl
    · rfl
    · show 192 + c.val % 64 = c.val
      omega
  · refine concatenate_apply_piece 1 _ _ (ix2 i c) 4 ?_ S128x64
      (headVec ro 256 (slices64 ro 256 hro (by decide)) q k v ones) ?_ rfl 256 ?_ (ix2 i (Cert.Spec.dd c)) hi ?_
    · exact (show (4 : Nat) < 12 by decide)
    · rfl
    · rfl
    · show 256 + c.val % 64 = c.val
      omega
  · refine concatenate_apply_piece 1 _ _ (ix2 i c) 5 ?_ S128x64
      (headVec ro 320 (slices64 ro 320 hro (by decide)) q k v ones) ?_ rfl 320 ?_ (ix2 i (Cert.Spec.dd c)) hi ?_
    · exact (show (5 : Nat) < 12 by decide)
    · rfl
    · rfl
    · show 320 + c.val % 64 = c.val
      omega
  · refine concatenate_apply_piece 1 _ _ (ix2 i c) 6 ?_ S128x64
      (headVec ro 384 (slices64 ro 384 hro (by decide)) q k v ones) ?_ rfl 384 ?_ (ix2 i (Cert.Spec.dd c)) hi ?_
    · exact (show (6 : Nat) < 12 by decide)
    · rfl
    · rfl
    · show 384 + c.val % 64 = c.val
      omega
  · refine concatenate_apply_piece 1 _ _ (ix2 i c) 7 ?_ S128x64
      (headVec ro 448 (slices64 ro 448 hro (by decide)) q k v ones) ?_ rfl 448 ?_ (ix2 i (Cert.Spec.dd c)) hi ?_
    · exact (show (7 : Nat) < 12 by decide)
    · rfl
    · rfl
    · show 448 + c.val % 64 = c.val
      omega
  · refine concatenate_apply_piece 1 _ _ (ix2 i c) 8 ?_ S128x64
      (headVec ro 512 (slices64 ro 512 hro (by decide)) q k v ones) ?_ rfl 512 ?_ (ix2 i (Cert.Spec.dd c)) hi ?_
    · exact (show (8 : Nat) < 12 by decide)
    · rfl
    · rfl
    · show 512 + c.val % 64 = c.val
      omega
  · refine concatenate_apply_piece 1 _ _ (ix2 i c) 9 ?_ S128x64
      (headVec ro 576 (slices64 ro 576 hro (by decide)) q k v ones) ?_ rfl 576 ?_ (ix2 i (Cert.Spec.dd c)) hi ?_
    · exact (show (9 : Nat) < 12 by decide)
    · rfl
    · rfl
    · show 576 + c.val % 64 = c.val
      omega
  · refine concatenate_apply_piece 1 _ _ (ix2 i c) 10 ?_ S128x64
      (headVec ro 640 (slices64 ro 640 hro (by decide)) q k v ones) ?_ rfl 640 ?_ (ix2 i (Cert.Spec.dd c)) hi ?_
    · exact (show (10 : Nat) < 12 by decide)
    · rfl
    · rfl
    · show 640 + c.val % 64 = c.val
      omega
  · refine concatenate_apply_piece 1 _ _ (ix2 i c) 11 ?_ S128x64
      (headVec ro 704 (slices64 ro 704 hro (by decide)) q k v ones) ?_ rfl 704 ?_ (ix2 i (Cert.Spec.dd c)) hi ?_
    · exact (show (11 : Nat) < 12 by decide)
    · rfl
    · rfl
    · show 704 + c.val % 64 = c.val
      omega

/-- Entry (i, c) of the context slab is the head function of the three 128 × 64 slices at rows `ro …` and head
    `c / 64`'s columns, at (i, c % 64). -/
theorem ctxAll_apply (ro : Nat) (hro : ro + 128 ≤ 1024) (q k v : FVec Ideal S1024x768 .bf16) (ones : FVec Ideal S128x64 .bf16)
    (hones : ∀ y, ones y = Cert.Spec.oneB) (i : Fin 128) (c : Fin 768) :
    ctxAll ro hro q k v ones (ix2 i c)
      = Cert.Spec.headKs
          (fun i' d' => q (ix2 ⟨ro + i'.val, by have := i'.isLt; omega⟩ (Cert.Spec.col (Cert.Spec.hd c) d')))
          (fun i' d' => k (ix2 ⟨ro + i'.val, by have := i'.isLt; omega⟩ (Cert.Spec.col (Cert.Spec.hd c) d')))
          (fun i' d' => v (ix2 ⟨ro + i'.val, by have := i'.isLt; omega⟩ (Cert.Spec.col (Cert.Spec.hd c) d')))
          i (Cert.Spec.dd c) := by
  have hcl := c.isLt
  have hn : c.val / 64 < 12 := by omega
  refine (ctxAll_piece ro hro q k v ones i c (c.val / 64) hn rfl).trans
    ((KHead.headVec_apply ro (c.val / 64 * 64) hro (by omega) _ q k v ones hones i (Cert.Spec.dd c)).trans ?_)
  rfl

/-- The context slab of the fused program's three projections is the specification's context slab of the three
    projected rows: column `(c / 64) · 64 + d` is coordinate `d` of head `c / 64`. -/
theorem ctx_spec (ro : Nat) (hro : ro + 128 ≤ 1024) (x0 : Vec Ideal S1024x768 .f32) (x1 x2 x3 : Vec Ideal S768x768 .bf16)
    (x5 x6 x7 : Vec Ideal S1x768 .f32) (i : Fin 128) (c : Fin 768) :
    ctxAll ro hro (qVec x0 x1 x5) (kVec x0 x2 x6) (kVec x0 x3 x7) onesVec (ix2 i c)
      = Cert.Spec.ctxOf Cert.Spec.headK
          (fun s' => Cert.Spec.projRow (fun c' => x0 (ix2 ⟨ro + s'.val, by have := s'.isLt; omega⟩ c'))
            (fun o' c' => x1 (ix2 o' c')) (fun o' => x5 (ix2 0 o')))
          (fun s' => Cert.Spec.projRow (fun c' => x0 (ix2 ⟨ro + s'.val, by have := s'.isLt; omega⟩ c'))
            (fun o' c' => x2 (ix2 o' c')) (fun o' => x6 (ix2 0 o')))
          (fun s' => Cert.Spec.projRow (fun c' => x0 (ix2 ⟨ro + s'.val, by have := s'.isLt; omega⟩ c'))
            (fun o' c' => x3 (ix2 o' c')) (fun o' => x7 (ix2 0 o')))
          i c := by
  rw [ctxAll_apply ro hro _ _ _ _ onesVec_apply i c]
  unfold Cert.Spec.ctxOf Cert.Spec.headK Cert.Spec.headOf
  simp only [qVec_apply, kVec_apply]

/-- The stored piece at row offset `ro`, entry (`i`, `o`). -/
theorem pieceVec_apply (ro : Nat) (hro : ro + 128 ≤ 1024) (x0 : Vec Ideal S1024x768 .f32) (x1 x2 x3 x4 : Vec Ideal S768x768 .bf16)
    (x5 x6 x7 x8 x9 x10 : Vec Ideal S1x768 .f32) (i : Fin 128) (o : Fin 768) :
    pieceVec ro hro x0 x1 x2 x3 x4 x5 x6 x7 x8 x9 x10 (ix2 i o)
      = Cert.Spec.batchOf Cert.Spec.headK (fun s c' => x0 (ix2 ⟨ro + s.val, by have := s.isLt; omega⟩ c'))
          (fun o' c' => x1 (ix2 o' c')) (fun o' c' => x2 (ix2 o' c')) (fun o' c' => x3 (ix2 o' c')) (fun o' c' => x4 (ix2 o' c'))
          (fun o' => x5 (ix2 0 o')) (fun o' => x6 (ix2 0 o')) (fun o' => x7 (ix2 0 o')) (fun o' => x8 (ix2 0 o'))
          (fun o' => x9 (ix2 0 o')) (fun o' => x10 (ix2 0 o')) i o := by
  unfold pieceVec
  rw [KTail.tailVec_apply ro hro, shapeCast_self]
  unfold Cert.Spec.batchOf
  have hctx : (fun c' => ctxAll ro hro (qVec x0 x1 x5) (kVec x0 x2 x6) (kVec x0 x3 x7) onesVec (ix2 i c'))
      = Cert.Spec.ctxOf Cert.Spec.headK
          (fun s' => Cert.Spec.projRow (fun c' => x0 (ix2 ⟨ro + s'.val, by have := s'.isLt; omega⟩ c'))
            (fun o' c' => x1 (ix2 o' c')) (fun o' => x5 (ix2 0 o')))
          (fun s' => Cert.Spec.projRow (fun c' => x0 (ix2 ⟨ro + s'.val, by have := s'.isLt; omega⟩ c'))
            (fun o' c' => x2 (ix2 o' c')) (fun o' => x6 (ix2 0 o')))
          (fun s' => Cert.Spec.projRow (fun c' => x0 (ix2 ⟨ro + s'.val, by have := s'.isLt; omega⟩ c'))
            (fun o' c' => x3 (ix2 o' c')) (fun o' => x7 (ix2 0 o')))
          i :=
    funext fun c' => ctx_spec ro hro x0 x1 x2 x3 x5 x6 x7 i c'
  rw [hctx]

end Cert.KernelIdeal.KBatch

end
-- ==== Proof.KRun.lean ====
/-
  The fused program's run, read: its result array is the block's function `GK` of the argument arrays.

  The grid has 8 points; point `t` works on rows `t·1024 … t·1024 + 1023` of the (8192, 768) input, which are 8 batch
  elements of 128 positions each, and leaves in its output block, at row `r`, the per-batch function of the 128 rows of
  `r`'s batch element (rows `r/128·128 … r/128·128 + 127` of the block) at position `r % 128`. The eight stores of the body
  are the eight batch elements of the block; the 8 blocks tile the (8192, 768) output; the host reshapes before and
  after the region only rename indices: row `b·128 + s` of the (8192, 768) arrays is entry `(b, s)` of the
  (64, 128, 768) ones.
-/
import proofs.«136720_g2000702396236789_pallasbulk_1056_14_alg».proof.Proof.Gen.KernelIdeal.Frame
import proofs.«136720_g2000702396236789_pallasbulk_1056_14_alg».proof.Proof.KPieces
import proofs.«136720_g2000702396236789_pallasbulk_1056_14_alg».proof.Proof.KBatch
import Idealize.ShloMosaic.Lib.StableHlo.Run
import Idealize.ShloMosaic.Lib.Pipeline.Value

set_option maxRecDepth 16384

noncomputable section

namespace Cert.KernelIdeal.KRun

open Idealize.ShloMosaic Idealize.ShloMosaic.ValueIdx Idealize.ShloMosaic.TcCoe Idealize.SL.Sem Cert.KernelIdeal Cert.KernelIdeal.Gen
section Read

open Idealize.ShloMosaic.Pipeline (Dat)
open Cert.KernelIdeal.KVec

/-! ## One block: 1024 rows, 8 batch elements -/

theorem hz : (![0, 0] : Fin 2 → Nat) = fun _ => 0 := funext fun a => by fin_cases a <;> rfl

/-- The first row of the batch element that row `r` of a block belongs to, plus `s`. -/
def brow (r : Fin 1024) (s : Fin 128) : Fin 1024 := ⟨r.val / 128 * 128 + s.val, by have := r.isLt; have := s.isLt; omega⟩
/-- Row `r`'s position inside its batch element. -/
def bpos (r : Fin 1024) : Fin 128 := ⟨r.val % 128, Nat.mod_lt _ (by decide)⟩

/-- The block's function: entry (`r`, `o`) is the per-batch function of the 128 rows of `r`'s batch element, at `r`'s
    position. -/
def blockFn (x0 : Vec Ideal S1024x768 .f32) (x1 x2 x3 x4 : Vec Ideal S768x768 .bf16) (x5 x6 x7 x8 x9 x10 : Vec Ideal S1x768 .f32) :
    Vec Ideal S1024x768 .f32 :=
  fun y => Cert.Spec.batchOf Cert.Spec.headK (fun s c' => x0 (ix2 (brow (y 0) s) c'))
    (fun o' c' => x1 (ix2 o' c')) (fun o' c' => x2 (ix2 o' c')) (fun o' c' => x3 (ix2 o' c')) (fun o' c' => x4 (ix2 o' c'))
    (fun o' => x5 (ix2 0 o')) (fun o' => x6 (ix2 0 o')) (fun o' => x7 (ix2 0 o')) (fun o' => x8 (ix2 0 o'))
    (fun o' => x9 (ix2 0 o')) (fun o' => x10 (ix2 0 o')) (bpos (y 0)) (y 1)

/-- The piece stored at row offset `ro` (a multiple of 128) is the block's function on the rectangle of rows
    `ro … ro + 127`. -/
theorem piece_eq (x0 : Vec Ideal S1024x768 .f32) (x1 x2 x3 x4 : Vec Ideal S768x768 .bf16) (x5 x6 x7 x8 x9 x10 : Vec Ideal S1x768 .f32)
    (ro : Nat) (hro : ro + 128 ≤ 1024) (hdiv : ro % 128 = 0)
    (inb : ∀ a, (![ro, 0] : Fin 2 → Nat) a + S128x768.size a ≤ S1024x768.size a) (x : S128x768.Idx) :
    pieceVec ro hro x0 x1 x2 x3 x4 x5 x6 x7 x8 x9 x10 x
      = blockFn x0 x1 x2 x3 x4 x5 x6 x7 x8 x9 x10 ((Rect.unit (s := S1024x768) ![ro, 0] S128x768.size inb).emb x) := by
  obtain ⟨i, o, rfl⟩ : ∃ (i : Fin 128) (o : Fin 768), x = ix2 i o := ⟨x 0, x 1, eq_ix2 x⟩
  rw [KBatch.pieceVec_apply]
  unfold blockFn
  have e0 : ((Rect.unit (s := S1024x768) ![ro, 0] S128x768.size inb).emb (ix2 i o) 0 : Nat) = ro + i.val := by
    rw [Rect.emb_apply, Rect.off_unit, Rect.stride_unit, Nat.one_mul]; rfl
  have e1 : ((Rect.unit (s := S1024x768) ![ro, 0] S128x768.size inb).emb (ix2 i o) 1 : Nat) = o.val := by
    rw [Rect.emb_apply, Rect.off_unit, Rect.stride_unit, Nat.one_mul]; exact Nat.zero_add _
  have hi := i.isLt
  have a1 : (fun (s : Fin 128) (c' : Fin 768) => x0 (ix2 (brow ((Rect.unit (s := S1024x768) ![ro, 0] S128x768.size inb).emb (ix2 i o) 0) s) c'))
      = fun (s : Fin 128) (c' : Fin 768) => x0 (ix2 (⟨ro + s.val, by have := s.isLt; omega⟩ : Fin 1024) c') := by
    funext s c'
    refine congrArg (fun z : Fin 1024 => x0 (ix2 z c')) (Fin.ext ?_)
    show ((Rect.unit (s := S1024x768) ![ro, 0] S128x768.size inb).emb (ix2 i o) 0 : Nat) / 128 * 128 + s.val = ro + s.val
    rw [e0]; omega
  have a2 : bpos ((Rect.unit (s := S1024x768) ![ro, 0] S128x768.size inb).emb (ix2 i o) 0) = i := by
    apply Fin.ext
    show ((Rect.unit (s := S1024x768) ![ro, 0] S128x768.size inb).emb (ix2 i o) 0 : Nat) % 128 = i.val
    rw [e0]; omega
  have a3 : ((Rect.unit (s := S1024x768) ![ro, 0] S128x768.size inb).emb (ix2 i o) 1 : Fin 768) = o := Fin.ext e1
  rw [a1, a2, a3]

/-- The output block after the body is the block's function of the eleven loaded blocks: the eight stored pieces are
    its eight batch elements, and their rectangles tile the block. -/
theorem block_eq (x0 : Vec Ideal S1024x768 .f32) (x1 x2 x3 x4 : Vec Ideal S768x768 .bf16) (x5 x6 x7 x8 x9 x10 : Vec Ideal S1x768 .f32) :
    out0_11 x0 x1 x2 x3 x4 x5 x6 x7 x8 x9 x10 = blockFn x0 x1 x2 x3 x4 x5 x6 x7 x8 x9 x10 := by
  rw [KPieces.out0_11_eq]
  simp only [View.ld_unit_zero (S := S1024x768) hz, View.ld_unit_zero (S := S768x768) hz, View.ld_unit_zero (S := S1x768) hz]
  funext y
  refine View.canon_apply_of_pieces (blockFn x0 x1 x2 x3 x4 x5 x6 x7 x8 x9 x10) _ ?_ y (cover0_11 _ _ _ _ _ _ _ _ y)
  intro p hp
  simp only [List.mem_cons, List.mem_nil_iff, or_false] at hp
  rcases hp with rfl | rfl | rfl | rfl | rfl | rfl | rfl | rfl
  · exact fun x => piece_eq x0 x1 x2 x3 x4 x5 x6 x7 x8 x9 x10 896 (by decide) (by decide) (by decide) x
  · exact fun x => piece_eq x0 x1 x2 x3 x4 x5 x6 x7 x8 x9 x10 768 (by decide) (by decide) (by decide) x
  · exact fun x => piece_eq x0 x1 x2 x3 x4 x5 x6 x7 x8 x9 x10 640 (by decide) (by decide) (by decide) x
  · exact fun x => piece_eq x0 x1 x2 x3 x4 x5 x6 x7 x8 x9 x10 512 (by decide) (by decide) (by decide) x
  · exact fun x => piece_eq x0 x1 x2 x3 x4 x5 x6 x7 x8 x9 x10 384 (by decide) (by decide) (by decide) x
  · exact fun x => piece_eq x0 x1 x2 x3 x4 x5 x6 x7 x8 x9 x10 256 (by decide) (by decide) (by decide) x
  · exact fun x => piece_eq x0 x1 x2 x3 x4 x5 x6 x7 x8 x9 x10 128 (by decide) (by decide) (by decide) x
  · exact fun x => piece_eq x0 x1 x2 x3 x4 x5 x6 x7 x8 x9 x10 0 (by decide) (by decide) (by decide) x

/-! ## The whole (8192, 768) array: 64 batch elements -/

/-- The first row of the batch element that row `r` of the array belongs to, plus `s`. -/
def grow (r : Fin 8192) (s : Fin 128) : Fin 8192 := ⟨r.val / 128 * 128 + s.val, by have := r.isLt; have := s.isLt; omega⟩
/-- Row `r`'s position inside its batch element. -/
def gpos (r : Fin 8192) : Fin 128 := ⟨r.val % 128, Nat.mod_lt _ (by decide)⟩

/-- The array's function: entry (`r`, `o`) is the per-batch function of the 128 rows of `r`'s batch element, at `r`'s
    position. -/
def arrFn (X : Vec Ideal S8192x768 .f32) (x1 x2 x3 x4 : Vec Ideal S768x768 .bf16) (x5 x6 x7 x8 x9 x10 : Vec Ideal S1x768 .f32) :
    Vec Ideal S8192x768 .f32 :=
  fun i => Cert.Spec.batchOf Cert.Spec.headK (fun s c' => X (ix2 (grow (i 0) s) c'))
    (fun o' c' => x1 (ix2 o' c')) (fun o' c' => x2 (ix2 o' c')) (fun o' c' => x3 (ix2 o' c')) (fun o' c' => x4 (ix2 o' c'))
    (fun o' => x5 (ix2 0 o')) (fun o' => x6 (ix2 0 o')) (fun o' => x7 (ix2 0 o')) (fun o' => x8 (ix2 0 o'))
    (fun o' => x9 (ix2 0 o')) (fun o' => x10 (ix2 0 o')) (gpos (i 0)) (i 1)

/-- A block whose rows are rows `tt·1024 …` of the array computes, at its row `r`, the array's function at row
    `tt·1024 + r`: 1024 is a multiple of 128, so a batch element never straddles two blocks. -/
theorem blockFn_eq_arrFn (X : Vec Ideal S8192x768 .f32) (x0 : Vec Ideal S1024x768 .f32) (x1 x2 x3 x4 : Vec Ideal S768x768 .bf16)
    (x5 x6 x7 x8 x9 x10 : Vec Ideal S1x768 .f32) (tt : Nat) (htt : tt < 8)
    (h0 : ∀ (r : Fin 1024) (c' : Fin 768), x0 (ix2 r c') = X (ix2 (⟨tt * 1024 + r.val, by have := r.isLt; omega⟩ : Fin 8192) c'))
    (y : S1024x768.Idx) (i : S8192x768.Idx) (hi0 : (i 0).val = tt * 1024 + (y 0).val) (hi1 : (i 1).val = (y 1).val) :
    blockFn x0 x1 x2 x3 x4 x5 x6 x7 x8 x9 x10 y = arrFn X x1 x2 x3 x4 x5 x6 x7 x8 x9 x10 i := by
  unfold blockFn arrFn
  have hy := idx2_lt0 y
  have a1 : (fun (s : Fin 128) (c' : Fin 768) => x0 (ix2 (brow (y 0) s) c')) = fun (s : Fin 128) (c' : Fin 768) => X (ix2 (grow (i 0) s) c') := by
    funext s c'
    rw [h0]
    refine congrArg (fun z : Fin 8192 => X (ix2 z c')) (Fin.ext ?_)
    show tt * 1024 + ((y 0).val / 128 * 128 + s.val) = (i 0).val / 128 * 128 + s.val
    rw [hi0]; omega
  have a2 : bpos (y 0) = gpos (i 0) := Fin.ext (by show (y 0).val % 128 = (i 0).val % 128; rw [hi0]; omega)
  have a3 : (y 1 : Fin 768) = i 1 := Fin.ext hi1.symm
  rw [a1, a2, a3]

variable (m : (ℓ : Loc nD τ sig) → Buf (Elt Ideal) ℓ)

/-! ## The blocks of the windows at a grid point -/

theorem t_lt (t : Fin cfg0.N) : t.val < 8 := lt_of_lt_of_eq t.isLt (show cfg0.N = 8 from N_0)

/-- Window 0's and the output window's block index at point `t` is (`t`, 0): blocks of 1024 rows, all 768 columns. -/
theorem idx0 : ∀ t : Fin cfg0.N, win0_0.index t (0 : Fin 2) = t.val ∧ win0_0.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-- Window 0's block at point `t` is rows `t·1024 … t·1024 + 1023` of `main_v0`. -/
theorem iblk0_apply (c : Dev nD) (t : Fin cfg0.N) (r : Fin 1024) (c' : Fin 768) :
    (iblk m c 0 t : Vec Ideal S1024x768 .f32) (ix2 r c')
      = (V m c main_v0 : Vec Ideal S8192x768 .f32) (ix2 (⟨t.val * 1024 + r.val, by have := t_lt t; have := r.isLt; omega⟩ : Fin 8192) c') := by
  obtain ⟨e0, e1⟩ := idx0 t
  unfold iblk
  show V m c main_v0 (((cfg0.win 0).blk t).view.emb (ix2 r c')) = V m c main_v0 _
  refine congrArg (V m c main_v0) (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 768 + 1 * c'.val = c'.val; rw [e1]; omega

theorem idx1 : ∀ t : Fin cfg0.N, win0_1.index t (0 : Fin 2) = 0 ∧ win0_1.index t (1 : Fin 2) = 0 :=
  (by decide +kernel : ∀ t : Fin grid0.N, _)
/-- Window 1 is the whole array `main_v1` at every point. -/
theorem iblk1_eq (c : Dev nD) (t : Fin cfg0.N) : (iblk m c 1 t : Vec Ideal S768x768 .bf16) = V m c main_v1 := by
  obtain ⟨e0, e1⟩ := idx1 t
  funext x
  unfold iblk
  show V m c main_v1 (((cfg0.win 1).blk t).view.emb x) = V m c main_v1 x
  refine congrArg (V m c main_v1) (funext fun a => Fin.ext ?_)
  match a with
  | ⟨0, _⟩ => show win0_1.index t (0 : Fin 2) * 768 + 1 * (x 0).val = (x 0).val; rw [e0]; omega
  | ⟨1, _⟩ => show win0_1.index t (1 : Fin 2) * 768 + 1 * (x 1).val = (x 1).val; rw [e1]; omega

theorem idx2 : ∀ t : Fin cfg0.N, win0_2.index t (0 : Fin 2) = 0 ∧ win0_2.index t (1 : Fin 2) = 0 :=
  (by decide +kernel : ∀ t : Fin grid0.N, _)
/-- Window 2 is the whole array `main_v2` at every point. -/
theorem iblk2_eq (c : Dev nD) (t : Fin cfg0.N) : (iblk m c 2 t : Vec Ideal S768x768 .bf16) = V m c main_v2 := by
  obtain ⟨e0, e1⟩ := idx2 t
  funext x
  unfold iblk
  show V m c main_v2 (((cfg0.win 2).blk t).view.emb x) = V m c main_v2 x
  refine congrArg (V m c main_v2) (funext fun a => Fin.ext ?_)
  match a with
  | ⟨0, _⟩ => show win0_2.index t (0 : Fin 2) * 768 + 1 * (x 0).val = (x 0).val; rw [e0]; omega
  | ⟨1, _⟩ => show win0_2.index t (1 : Fin 2) * 768 + 1 * (x 1).val = (x 1).val; rw [e1]; omega

theorem idx3 : ∀ t : Fin cfg0.N, win0_3.index t (0 : Fin 2) = 0 ∧ win0_3.index t (1 : Fin 2) = 0 :=
  (by decide +kernel : ∀ t : Fin grid0.N, _)
/-- Window 3 is the whole array `main_v3` at every point. -/
theorem iblk3_eq (c : Dev nD) (t : Fin cfg0.N) : (iblk m c 3 t : Vec Ideal S768x768 .bf16) = V m c main_v3 := by
  obtain ⟨e0, e1⟩ := idx3 t
  funext x
  unfold iblk
  show V m c main_v3 (((cfg0.win 3).blk t).view.emb x) = V m c main_v3 x
  refine congrArg (V m c main_v3) (funext fun a => Fin.ext ?_)
  match a with
  | ⟨0, _⟩ => show win0_3.index t (0 : Fin 2) * 768 + 1 * (x 0).val = (x 0).val; rw [e0]; omega
  | ⟨1, _⟩ => show win0_3.index t (1 : Fin 2) * 768 + 1 * (x 1).val = (x 1).val; rw [e1]; omega

theorem idx4 : ∀ t : Fin cfg0.N, win0_4.index t (0 : Fin 2) = 0 ∧ win0_4.index t (1 : Fin 2) = 0 :=
  (by decide +kernel : ∀ t : Fin grid0.N, _)
/-- Window 4 is the whole array `main_v4` at every point. -/
theorem iblk4_eq (c : Dev nD) (t : Fin cfg0.N) : (iblk m c 4 t : Vec Ideal S768x768 .bf16) = V m c main_v4 := by
  obtain ⟨e0, e1⟩ := idx4 t
  funext x
  unfold iblk
  show V m c main_v4 (((cfg0.win 4).blk t).view.emb x) = V m c main_v4 x
  refine congrArg (V m c main_v4) (funext fun a => Fin.ext ?_)
  match a with
  | ⟨0, _⟩ => show win0_4.index t (0 : Fin 2) * 768 + 1 * (x 0).val = (x 0).val; rw [e0]; omega
  | ⟨1, _⟩ => show win0_4.index t (1 : Fin 2) * 768 + 1 * (x 1).val = (x 1).val; rw [e1]; omega

theorem idx5 : ∀ t : Fin cfg0.N, win0_5.index t (0 : Fin 2) = 0 ∧ win0_5.index t (1 : Fin 2) = 0 :=
  (by decide +kernel : ∀ t : Fin grid0.N, _)
/-- Window 5 is the whole array `main_v5` at every point. -/
theorem iblk5_eq (c : Dev nD) (t : Fin cfg0.N) : (iblk m c 5 t : Vec Ideal S1x768 .f32) = V m c main_v5 := by
  obtain ⟨e0, e1⟩ := idx5 t
  funext x
  unfold iblk
  show V m c main_v5 (((cfg0.win 5).blk t).view.emb x) = V m c main_v5 x
  refine congrArg (V m c main_v5) (funext fun a => Fin.ext ?_)
  match a with
  | ⟨0, _⟩ => show win0_5.index t (0 : Fin 2) * 1 + 1 * (x 0).val = (x 0).val; rw [e0]; omega
  | ⟨1, _⟩ => show win0_5.index t (1 : Fin 2) * 768 + 1 * (x 1).val = (x 1).val; rw [e1]; omega

theorem idx6 : ∀ t : Fin cfg0.N, win0_6.index t (0 : Fin 2) = 0 ∧ win0_6.index t (1 : Fin 2) = 0 :=
  (by decide +kernel : ∀ t : Fin grid0.N, _)
/-- Window 6 is the whole array `main_v6` at every point. -/
theorem iblk6_eq (c : Dev nD) (t : Fin cfg0.N) : (iblk m c 6 t : Vec Ideal S1x768 .f32) = V m c main_v6 := by
  obtain ⟨e0, e1⟩ := idx6 t
  funext x
  unfold iblk
  show V m c main_v6 (((cfg0.win 6).blk t).view.emb x) = V m c main_v6 x
  refine congrArg (V m c main_v6) (funext fun a => Fin.ext ?_)
  match a with
  | ⟨0, _⟩ => show win0_6.index t (0 : Fin 2) * 1 + 1 * (x 0).val = (x 0).val; rw [e0]; omega
  | ⟨1, _⟩ => show win0_6.index t (1 : Fin 2) * 768 + 1 * (x 1).val = (x 1).val; rw [e1]; omega

theorem idx7 : ∀ t : Fin cfg0.N, win0_7.index t (0 : Fin 2) = 0 ∧ win0_7.index t (1 : Fin 2) = 0 :=
  (by decide +kernel : ∀ t : Fin grid0.N, _)
/-- Window 7 is the whole array `main_v7` at every point. -/
theorem iblk7_eq (c : Dev nD) (t : Fin cfg0.N) : (iblk m c 7 t : Vec Ideal S1x768 .f32) = V m c main_v7 := by
  obtain ⟨e0, e1⟩ := idx7 t
  funext x
  unfold iblk
  show V m c main_v7 (((cfg0.win 7).blk t).view.emb x) = V m c main_v7 x
  refine congrArg (V m c main_v7) (funext fun a => Fin.ext ?_)
  match a with
  | ⟨0, _⟩ => show win0_7.index t (0 : Fin 2) * 1 + 1 * (x 0).val = (x 0).val; rw [e0]; omega
  | ⟨1, _⟩ => show win0_7.index t (1 : Fin 2) * 768 + 1 * (x 1).val = (x 1).val; rw [e1]; omega

theorem idx8 : ∀ t : Fin cfg0.N, win0_8.index t (0 : Fin 2) = 0 ∧ win0_8.index t (1 : Fin 2) = 0 :=
  (by decide +kernel : ∀ t : Fin grid0.N, _)
/-- Window 8 is the whole array `main_v8` at every point. -/
theorem iblk8_eq (c : Dev nD) (t : Fin cfg0.N) : (iblk m c 8 t : Vec Ideal S1x768 .f32) = V m c main_v8 := by
  obtain ⟨e0, e1⟩ := idx8 t
  funext x
  unfold iblk
  show V m c main_v8 (((cfg0.win 8).blk t).view.emb x) = V m c main_v8 x
  refine congrArg (V m c main_v8) (funext fun a => Fin.ext ?_)
  match a with
  | ⟨0, _⟩ => show win0_8.index t (0 : Fin 2) * 1 + 1 * (x 0).val = (x 0).val; rw [e0]; omega
  | ⟨1, _⟩ => show win0_8.index t (1 : Fin 2) * 768 + 1 * (x 1).val = (x 1).val; rw [e1]; omega

theorem idx9 : ∀ t : Fin cfg0.N, win0_9.index t (0 : Fin 2) = 0 ∧ win0_9.index t (1 : Fin 2) = 0 :=
  (by decide +kernel : ∀ t : Fin grid0.N, _)
/-- Window 9 is the whole array `main_v9` at every point. -/
theorem iblk9_eq (c : Dev nD) (t : Fin cfg0.N) : (iblk m c 9 t : Vec Ideal S1x768 .f32) = V m c main_v9 := by
  obtain ⟨e0, e1⟩ := idx9 t
  funext x
  unfold iblk
  show V m c main_v9 (((cfg0.win 9).blk t).view.emb x) = V m c main_v9 x
  refine congrArg (V m c main_v9) (funext fun a => Fin.ext ?_)
  match a with
  | ⟨0, _⟩ => show win0_9.index t (0 : Fin 2) * 1 + 1 * (x 0).val = (x 0).val; rw [e0]; omega
  | ⟨1, _⟩ => show win0_9.index t (1 : Fin 2) * 768 + 1 * (x 1).val = (x 1).val; rw [e1]; omega

theorem idx10 : ∀ t : Fin cfg0.N, win0_10.index t (0 : Fin 2) = 0 ∧ win0_10.index t (1 : Fin 2) = 0 :=
  (by decide +kernel : ∀ t : Fin grid0.N, _)
/-- Window 10 is the whole array `main_v10` at every point. -/
theorem iblk10_eq (c : Dev nD) (t : Fin cfg0.N) : (iblk m c 10 t : Vec Ideal S1x768 .f32) = V m c main_v10 := by
  obtain ⟨e0, e1⟩ := idx10 t
  funext x
  unfold iblk
  show V m c main_v10 (((cfg0.win 10).blk t).view.emb x) = V m c main_v10 x
  refine congrArg (V m c main_v10) (funext fun a => Fin.ext ?_)
  match a with
  | ⟨0, _⟩ => show win0_10.index t (0 : Fin 2) * 1 + 1 * (x 0).val = (x 0).val; rw [e0]; omega
  | ⟨1, _⟩ => show win0_10.index t (1 : Fin 2) * 768 + 1 * (x 1).val = (x 1).val; rw [e1]; omega

/-! ## What a point writes back, and the array after the run -/

/-- The (8192, 768) result array's function of the arrays the region finds. -/
def Garr (c : Dev nD) : Vec Ideal S8192x768 .f32 :=
  arrFn (V m c main_v0) (V m c main_v1) (V m c main_v2) (V m c main_v3) (V m c main_v4) (V m c main_v5) (V m c main_v6)
    (V m c main_v7) (V m c main_v8) (V m c main_v9) (V m c main_v10)

/-- What point `t` writes back is block `t` of `Garr`. -/
theorem flushed_eq (c : Dev nD) (t : Fin cfg0.N) :
    (dats m 0 c).flushed 11 t = ((cfg0.win 11).blk t).view.read (Elt Ideal) (Garr m c) := by
  show (cfg0.win 11).cut (grid0.coords t) ((dats m 0 c).after 11 t) = _
  rw [after0_11, block_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t),
    iblk1_eq m c t, iblk2_eq m c t, iblk3_eq m c t, iblk4_eq m c t, iblk5_eq m c t, iblk6_eq m c t, iblk7_eq m c t, iblk8_eq m c t,
    iblk9_eq m c t, iblk10_eq m c t]
  obtain ⟨e0, e1⟩ := idx11 t
  refine funext fun (j : S1024x768.Idx) => ?_
  show blockFn (iblk m c 0 t) (V m c main_v1) (V m c main_v2) (V m c main_v3) (V m c main_v4) (V m c main_v5) (V m c main_v6)
      (V m c main_v7) (V m c main_v8) (V m c main_v9) (V m c main_v10) j = Garr m c (((cfg0.win 11).blk t).view.emb j)
  unfold Garr
  refine blockFn_eq_arrFn (V m c main_v0) (iblk m c 0 t) (V m c main_v1) (V m c main_v2) (V m c main_v3) (V m c main_v4) (V m c main_v5)
    (V m c main_v6) (V m c main_v7) (V m c main_v8) (V m c main_v9) (V m c main_v10) t.val (t_lt t) (fun r c' => iblk0_apply m c t r c')
    j (((cfg0.win 11).blk t).view.emb j) ?_ ?_
  · show win0_11.index t (0 : Fin 2) * 1024 + 1 * (j 0).val = t.val * 1024 + (j 0).val; rw [e0]; omega
  · show win0_11.index t (1 : Fin 2) * 768 + 1 * (j 1).val = (j 1).val; rw [e1]; omega

/-- An index of the array is in point `t`'s block iff each coordinate is in the block's range on its axis. -/
theorem mem_blk (t : Fin cfg0.N) (i : S8192x768.Idx) :
    i ∈ ((cfg0.win 11).blk t).view.set ↔ ∀ a : Fin 2, win0_11.index t a * S1024x768.size a ≤ (i a).val ∧ (i a).val < win0_11.index t a * S1024x768.size a + S1024x768.size a := by
  show i ∈ ((View.whole main_v11).slice (win0_11.rect t)).set ↔ _
  rw [View.set_slice_whole, Rect.mem_set_unit]
  exact Iff.rfl

/-- Row `r` of the array is in the block of point `r / 1024`. -/
theorem cover (i : S8192x768.Idx) : ∃ t : Fin cfg0.N, (cfg0.win 11).flush t = true ∧ i ∈ ((cfg0.win 11).blk t).view.set := by
  have hi0 := idx2_lt0 i
  have hi1 := idx2_lt1 i
  obtain ⟨t, ht⟩ : ∃ t : Fin cfg0.N, t.val = (i 0).val / 1024 :=
    ⟨⟨(i 0).val / 1024, by rw [show cfg0.N = 8 from N_0]; omega⟩, rfl⟩
  obtain ⟨e0, e1⟩ := idx11 t
  refine ⟨t, flush0_11 t, ?_⟩
  rw [mem_blk]
  intro a
  match a with
  | ⟨0, _⟩ => show win0_11.index t (0 : Fin 2) * 1024 ≤ (i 0).val ∧ (i 0).val < win0_11.index t (0 : Fin 2) * 1024 + 1024; rw [e0, ht]; omega
  | ⟨1, _⟩ => show win0_11.index t (1 : Fin 2) * 768 ≤ (i 1).val ∧ (i 1).val < win0_11.index t (1 : Fin 2) * 768 + 768; rw [e1]; omega

/-- The result array after the run, at row `b·128 + s`: the per-batch function of batch element `b`'s 128 rows. -/
theorem final (c : Dev nD) (b : Fin 64) (s : Fin 128) (o : Fin 768) :
    ((dats m 0 c).arrAt 11 cfg0.N : Vec Ideal S8192x768 .f32) (ix2 (Cert.Spec.row b s) o)
      = Cert.Spec.batchOf Cert.Spec.headK (fun s' c' => (V m c main_v0 : Vec Ideal S8192x768 .f32) (ix2 (Cert.Spec.row b s') c'))
          (fun o' c' => (V m c main_v1 : Vec Ideal S768x768 .bf16) (ix2 o' c')) (fun o' c' => (V m c main_v2 : Vec Ideal S768x768 .bf16) (ix2 o' c'))
          (fun o' c' => (V m c main_v3 : Vec Ideal S768x768 .bf16) (ix2 o' c')) (fun o' c' => (V m c main_v4 : Vec Ideal S768x768 .bf16) (ix2 o' c'))
          (fun o' => (V m c main_v5 : Vec Ideal S1x768 .f32) (ix2 0 o')) (fun o' => (V m c main_v6 : Vec Ideal S1x768 .f32) (ix2 0 o'))
          (fun o' => (V m c main_v7 : Vec Ideal S1x768 .f32) (ix2 0 o')) (fun o' => (V m c main_v8 : Vec Ideal S1x768 .f32) (ix2 0 o'))
          (fun o' => (V m c main_v9 : Vec Ideal S1x768 .f32) (ix2 0 o')) (fun o' => (V m c main_v10 : Vec Ideal S1x768 .f32) (ix2 0 o')) s o := by
  rw [(dats m 0 c).arrAt_eq_of_cover 11 (Garr m c) (fun t _ => flushed_eq m c t) (fun i => cover i)]
  unfold Garr arrFn
  have hb := b.isLt
  have hs := s.isLt
  have a1 : (fun (s' : Fin 128) (c' : Fin 768) => (V m c main_v0 : Vec Ideal S8192x768 .f32) (ix2 (grow (Cert.Spec.row b s) s') c'))
      = fun (s' : Fin 128) (c' : Fin 768) => (V m c main_v0 : Vec Ideal S8192x768 .f32) (ix2 (Cert.Spec.row b s') c') := by
    funext s' c'
    refine congrArg (fun z : Fin 8192 => (V m c main_v0 : Vec Ideal S8192x768 .f32) (ix2 z c')) (Fin.ext ?_)
    show (b.val * 128 + s.val) / 128 * 128 + s'.val = b.val * 128 + s'.val
    omega
  have a2 : gpos (Cert.Spec.row b s) = s := Fin.ext (by show (b.val * 128 + s.val) % 128 = s.val; omega)
  show Cert.Spec.batchOf Cert.Spec.headK (fun (s' : Fin 128) (c' : Fin 768) => (V m c main_v0 : Vec Ideal S8192x768 .f32) (ix2 (grow (Cert.Spec.row b s) s') c')) _ _ _ _ _ _ _ _ _ _ (gpos (Cert.Spec.row b s)) o = _
  rw [a1, a2]

/-! ## The host operations around the region -/

/-- `main_v0` is the (64, 128, 768) input with its first two axes merged: row `b·128 + s` is entry (`b`, `s`). -/
theorem V_v0 (c : Dev nD) (b : Fin 64) (s : Fin 128) (o : Fin 768) :
    (V m c main_v0 : Vec Ideal S8192x768 .f32) (ix2 (Cert.Spec.row b s) o)
      = (m ((c.tc : Thread nD τ).loc main_arg0) : Vec Ideal S64x128x768 .f32) (ix3 b s o) := by
  have e : (V m c main_v0 : Vec Ideal S8192x768 .f32) = shapeCast S8192x768 (m ((c.tc : Thread nD τ).loc main_arg0) : Vec Ideal S64x128x768 .f32) Gen.shapeCasts_S64x128x768_S8192x768 := by
    dsimp only [Gen.V, Gen.V0]
    simp only [Gen.hostOps0, List.flatten_cons, List.flatten_nil, List.append_nil]
    after_results
    rfl
  rw [e]
  refine shapeCast_apply _ _ _ (ix3 b s o) ?_
  rw [Shape.rowMajor_val_three, Shape.rowMajor_val_two]
  rfl

/-- `main_v1` is `main_arg1` (a change of float format is the identity on the extended reals). -/
theorem V_v1 (c : Dev nD) (o' c' : Fin 768) :
    (V m c main_v1 : Vec Ideal S768x768 .bf16) (ix2 o' c') = (m ((c.tc : Thread nD τ).loc main_arg1) : Vec Ideal S768x768 .f32) (ix2 o' c') := by
  have e : (V m c main_v1 : Vec Ideal S768x768 .bf16) = (m ((c.tc : Thread nD τ).loc main_arg1) : Vec Ideal S768x768 .f32) := by
    dsimp only [Gen.V, Gen.V0]
    simp only [Gen.hostOps0, List.flatten_cons, List.flatten_nil, List.append_nil]
    after_results
    rfl
  rw [e]

/-- `main_v2` is `main_arg2` (a change of float format is the identity on the extended reals). -/
theorem V_v2 (c : Dev nD) (o' c' : Fin 768) :
    (V m c main_v2 : Vec Ideal S768x768 .bf16) (ix2 o' c') = (m ((c.tc : Thread nD τ).loc main_arg2) : Vec Ideal S768x768 .f32) (ix2 o' c') := by
  have e : (V m c main_v2 : Vec Ideal S768x768 .bf16) = (m ((c.tc : Thread nD τ).loc main_arg2) : Vec Ideal S768x768 .f32) := by
    dsimp only [Gen.V, Gen.V0]
    simp only [Gen.hostOps0, List.flatten_cons, List.flatten_nil, List.append_nil]
    after_results
    rfl
  rw [e]

/-- `main_v3` is `main_arg3` (a change of float format is the identity on the extended reals). -/
theorem V_v3 (c : Dev nD) (o' c' : Fin 768) :
    (V m c main_v3 : Vec Ideal S768x768 .bf16) (ix2 o' c') = (m ((c.tc : Thread nD τ).loc main_arg3) : Vec Ideal S768x768 .f32) (ix2 o' c') := by
  have e : (V m c main_v3 : Vec Ideal S768x768 .bf16) = (m ((c.tc : Thread nD τ).loc main_arg3) : Vec Ideal S768x768 .f32) := by
    dsimp only [Gen.V, Gen.V0]
    simp only [Gen.hostOps0, List.flatten_cons, List.flatten_nil, List.append_nil]
    after_results
    rfl
  rw [e]

/-- `main_v4` is `main_arg4` (a change of float format is the identity on the extended reals). -/
theorem V_v4 (c : Dev nD) (o' c' : Fin 768) :
    (V m c main_v4 : Vec Ideal S768x768 .bf16) (ix2 o' c') = (m ((c.tc : Thread nD τ).loc main_arg4) : Vec Ideal S768x768 .f32) (ix2 o' c') := by
  have e : (V m c main_v4 : Vec Ideal S768x768 .bf16) = (m ((c.tc : Thread nD τ).loc main_arg4) : Vec Ideal S768x768 .f32) := by
    dsimp only [Gen.V, Gen.V0]
    simp only [Gen.hostOps0, List.flatten_cons, List.flatten_nil, List.append_nil]
    after_results
    rfl
  rw [e]

/-- `main_v5` is `main_arg5` as one row. -/
theorem V_v5 (c : Dev nD) (o' : Fin 768) :
    (V m c main_v5 : Vec Ideal S1x768 .f32) (ix2 0 o') = (m ((c.tc : Thread nD τ).loc main_arg5) : Vec Ideal S768 .f32) (ix1 o') := by
  have e : (V m c main_v5 : Vec Ideal S1x768 .f32) = shapeCast S1x768 (m ((c.tc : Thread nD τ).loc main_arg5) : Vec Ideal S768 .f32) Gen.shapeCasts_S768_S1x768 := by
    dsimp only [Gen.V, Gen.V0]
    simp only [Gen.hostOps0, List.flatten_cons, List.flatten_nil, List.append_nil]
    after_results
    rfl
  rw [e]
  refine shapeCast_apply _ _ _ (ix1 o') ?_
  rw [Shape.rowMajor_val_one, Shape.rowMajor_val_two]
  show o'.val = 0 * 768 + o'.val
  omega

/-- `main_v6` is `main_arg6` as one row. -/
theorem V_v6 (c : Dev nD) (o' : Fin 768) :
    (V m c main_v6 : Vec Ideal S1x768 .f32) (ix2 0 o') = (m ((c.tc : Thread nD τ).loc main_arg6) : Vec Ideal S768 .f32) (ix1 o') := by
  have e : (V m c main_v6 : Vec Ideal S1x768 .f32) = shapeCast S1x768 (m ((c.tc : Thread nD τ).loc main_arg6) : Vec Ideal S768 .f32) Gen.shapeCasts_S768_S1x768 := by
    dsimp only [Gen.V, Gen.V0]
    simp only [Gen.hostOps0, List.flatten_cons, List.flatten_nil, List.append_nil]
    after_results
    rfl
  rw [e]
  refine shapeCast_apply _ _ _ (ix1 o') ?_
  rw [Shape.rowMajor_val_one, Shape.rowMajor_val_two]
  show o'.val = 0 * 768 + o'.val
  omega

/-- `main_v7` is `main_arg7` as one row. -/
theorem V_v7 (c : Dev nD) (o' : Fin 768) :
    (V m c main_v7 : Vec Ideal S1x768 .f32) (ix2 0 o') = (m ((c.tc : Thread nD τ).loc main_arg7) : Vec Ideal S768 .f32) (ix1 o') := by
  have e : (V m c main_v7 : Vec Ideal S1x768 .f32) = shapeCast S1x768 (m ((c.tc : Thread nD τ).loc main_arg7) : Vec Ideal S768 .f32) Gen.shapeCasts_S768_S1x768 := by
    dsimp only [Gen.V, Gen.V0]
    simp only [Gen.hostOps0, List.flatten_cons, List.flatten_nil, List.append_nil]
    after_results
    rfl
  rw [e]
  refine shapeCast_apply _ _ _ (ix1 o') ?_
  rw [Shape.rowMajor_val_one, Shape.rowMajor_val_two]
  show o'.val = 0 * 768 + o'.val
  omega

/-- `main_v8` is `main_arg8` as one row. -/
theorem V_v8 (c : Dev nD) (o' : Fin 768) :
    (V m c main_v8 : Vec Ideal S1x768 .f32) (ix2 0 o') = (m ((c.tc : Thread nD τ).loc main_arg8) : Vec Ideal S768 .f32) (ix1 o') := by
  have e : (V m c main_v8 : Vec Ideal S1x768 .f32) = shapeCast S1x768 (m ((c.tc : Thread nD τ).loc main_arg8) : Vec Ideal S768 .f32) Gen.shapeCasts_S768_S1x768 := by
    dsimp only [Gen.V, Gen.V0]
    simp only [Gen.hostOps0, List.flatten_cons, List.flatten_nil, List.append_nil]
    after_results
    rfl
  rw [e]
  refine shapeCast_apply _ _ _ (ix1 o') ?_
  rw [Shape.rowMajor_val_one, Shape.rowMajor_val_two]
  show o'.val = 0 * 768 + o'.val
  omega

/-- `main_v9` is `main_arg9` as one row. -/
theorem V_v9 (c : Dev nD) (o' : Fin 768) :
    (V m c main_v9 : Vec Ideal S1x768 .f32) (ix2 0 o') = (m ((c.tc : Thread nD τ).loc main_arg9) : Vec Ideal S768 .f32) (ix1 o') := by
  have e : (V m c main_v9 : Vec Ideal S1x768 .f32) = shapeCast S1x768 (m ((c.tc : Thread nD τ).loc main_arg9) : Vec Ideal S768 .f32) Gen.shapeCasts_S768_S1x768 := by
    dsimp only [Gen.V, Gen.V0]
    simp only [Gen.hostOps0, List.flatten_cons, List.flatten_nil, List.append_nil]
    after_results
    rfl
  rw [e]
  refine shapeCast_apply _ _ _ (ix1 o') ?_
  rw [Shape.rowMajor_val_one, Shape.rowMajor_val_two]
  show o'.val = 0 * 768 + o'.val
  omega

/-- `main_v10` is `main_arg10` as one row. -/
theorem V_v10 (c : Dev nD) (o' : Fin 768) :
    (V m c main_v10 : Vec Ideal S1x768 .f32) (ix2 0 o') = (m ((c.tc : Thread nD τ).loc main_arg10) : Vec Ideal S768 .f32) (ix1 o') := by
  have e : (V m c main_v10 : Vec Ideal S1x768 .f32) = shapeCast S1x768 (m ((c.tc : Thread nD τ).loc main_arg10) : Vec Ideal S768 .f32) Gen.shapeCasts_S768_S1x768 := by
    dsimp only [Gen.V, Gen.V0]
    simp only [Gen.hostOps0, List.flatten_cons, List.flatten_nil, List.append_nil]
    after_results
    rfl
  rw [e]
  refine shapeCast_apply _ _ _ (ix1 o') ?_
  rw [Shape.rowMajor_val_one, Shape.rowMajor_val_two]
  show o'.val = 0 * 768 + o'.val
  omega

/-- The result: the (8192, 768) array the region leaves, with its first axis split, is `GK` of the arguments. -/
theorem result_eq (c : Dev nD) :
    Pipeline.afterTail₀ cfgs (dats m) 0 (V0 m) [hostOps1] c main_v12
      = Cert.Spec.GK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Pipeline.afterTail₀
  show StableHlo.after hostOps1 _ (Proc.devRef .tc main_v12) = _
  after_results
  refine funext fun (i : S64x128x768.Idx) => ?_
  obtain ⟨b, s, o, rfl⟩ : ∃ (b : Fin 64) (s : Fin 128) (o : Fin 768), i = ix3 b s o := ⟨i 0, i 1, i 2, eq_ix3 i⟩
  have hw : (Pipeline.withArrays (cfgs 0).spec c (V0 m c) (fun w => (dats m 0 c).arrAt w (cfgs 0).N) (Proc.devRef .tc main_v11) : Vec Ideal S8192x768 .f32)
      = (dats m 0 c).arrAt 11 cfg0.N :=
    Pipeline.withArrays_arr spec0 launch0.win.arr_inj c _ _ 11
  show shapeCast S64x128x768 _ _ (ix3 b s o) = _
  refine (shapeCast_apply _ _ (ix3 b s o) (ix2 (Cert.Spec.row b s) o) ?_).trans ?_
  · rw [Shape.rowMajor_val_two, Shape.rowMajor_val_three]; rfl
  refine (congrFun hw (ix2 (Cert.Spec.row b s) o)).trans ?_
  rw [final m c b s o]
  simp only [V_v0 m c, V_v1 m c, V_v2 m c, V_v3 m c, V_v4 m c, V_v5 m c, V_v6 m c, V_v7 m c, V_v8 m c, V_v9 m c, V_v10 m c]
  rfl

end Read

variable [Facts]
open Facts₀ Facts

variable (m : (ℓ : Loc nD τ sig) → Buf (Elt Ideal) ℓ) (ρ : Dev nD → PrngReg)

/-- Every weakly fair execution terminates with the result at `GK` of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v12) = Cert.Spec.GK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  exact (θ_run (defs (F := Ideal)) _ _).mono (fun r h c => ⟨((h c).2 main_v12 (Pipeline.mem_restRefs_of main_v12 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.KRun

end
-- ==== Proof.RReg0.lean ====
/-
  The first region of the three-stage program, read: each of its three output arrays, row `r` column `o`, is the dense
  projection of row `r` of its input array by its (in, out) weight array plus its bias row.
-/
import proofs.«136720_g2000702396236789_pallasbulk_1056_14_alg».proof.Proof.Gen.ReferenceIdeal.Frame
import proofs.«136720_g2000702396236789_pallasbulk_1056_14_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RReg0

open Idealize.ShloMosaic Idealize.ShloMosaic.ValueIdx Idealize.ShloMosaic.TcCoe Idealize.SL.Sem Cert.ReferenceIdeal Cert.ReferenceIdeal.Gen

variable [Facts]
open Facts₀ Facts

/-! ## The block product's operand indices, axis by axis

The product contracts axis 1 of its left operand (a block of rows) with axis 0 of its right operand (a weight stored
(in, out)): at output index `(p, q)` and contraction position `k` the left operand is read at `(p, k)` and the right one
at `(k, q)`. -/

theorem lhs_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide),
    dif_pos (show (0 : Fin S512x768.rank) ∈ dot_S512x768_S768x768_S512x768_1_0_0_1_n_n.lhsNonContracting by decide)]
  rfl

theorem lhs_1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q

theorem rhs_0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q

theorem rhs_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide),
    dif_pos (show (1 : Fin S768x768.rank) ∈ dot_S512x768_S768x768_S512x768_1_0_0_1_n_n.rhsNonContracting by decide)]
  rfl

/-! ## One stored block at an index -/

/-- A block of rows times an (in, out) weight plus a broadcast bias row, entry `(p, q)`: the sum over the 768 inputs of
    row `p`'s entry times the weight's entry `(k, q)`, plus the bias row's entry `q`. -/
theorem dense_at (w : Vec Ideal S512x768 .f32 → Vec Ideal S768x768 .f32 → Vec Ideal S1x768 .f32 → FVec Ideal S512x768 .f32)
    (hw : ∀ x0 x1 x4, w x0 x1 x4 = addf (matmul dot_S512x768_S768x768_S512x768_1_0_0_1_n_n none
        (shapeCast S512x768 x0 Gen.shapeCasts_S512x768_S512x768 : FVec Ideal S512x768 .f32)
        (shapeCast S768x768 x1 Gen.shapeCasts_S768x768_S768x768 : FVec Ideal S768x768 .f32)
        (constant (F := Ideal) S512x768 .f32 0x00000000#32))
      (broadcastTo S512x768 (shapeCast S1x768 x4 Gen.shapeCasts_S1x768_S1x768 : FVec Ideal S1x768 .f32) Gen.broadcasts_S1x768_S512x768))
    (x0 : Vec Ideal S512x768 .f32) (x1 : Vec Ideal S768x768 .f32) (x4 : Vec Ideal S1x768 .f32) (p : Fin 512) (q : Fin 768) :
    w x0 x1 x4 (ix2 p q) = (∑ k : Fin 768, x0 (ix2 p k) * x1 (ix2 k q)) + x4 (ix2 0 q) := by
  rw [hw, addf_apply]
  simp only [shapeCast_self]
  congr 1
  · simp only [matmul]
    rw [Ideal.matmul_constant_zero_apply, ← Equiv.sum_comp (contrEquiv1 dot_S512x768_S768x768_S512x768_1_0_0_1_n_n 768 rfl rfl).symm]
    refine Finset.sum_congr rfl fun k _ => ?_
    have hk := contrEquiv1_symm_val dot_S512x768_S768x768_S512x768_1_0_0_1_n_n 768 rfl rfl k
    have el : dot_S512x768_S768x768_S512x768_1_0_0_1_n_n.lhsIdx (ix2 p q) ((contrEquiv1 dot_S512x768_S768x768_S512x768_1_0_0_1_n_n 768 rfl rfl).symm k) = ix2 p k :=
      funext fun a => Fin.ext (by
        match a with
        | ⟨0, _⟩ => exact lhs_0 _ _
        | ⟨1, _⟩ => exact (lhs_1 _ _).trans hk)
    have er : dot_S512x768_S768x768_S512x768_1_0_0_1_n_n.rhsIdx (ix2 p q) ((contrEquiv1 dot_S512x768_S768x768_S512x768_1_0_0_1_n_n 768 rfl rfl).symm k) = ix2 k q :=
      funext fun a => Fin.ext (by
        match a with
        | ⟨0, _⟩ => exact (rhs_0 _ _).trans hk
        | ⟨1, _⟩ => exact rhs_1 _ _)
    rw [el, er]
  · refine broadcastTo_apply _ _ _ (ix2 0 q) fun a => ?_
    match a with
    | ⟨0, _⟩ => rfl
    | ⟨1, _⟩ => rfl

theorem pay2_at (x0 : Vec Ideal S512x768 .f32) (x1 : Vec Ideal S768x768 .f32) (x4 : Vec Ideal S1x768 .f32) (p : Fin 512) (q : Fin 768) :
    k0_pay2 (F := Ideal) x0 x1 x4 (ix2 p q) = (∑ k : Fin 768, x0 (ix2 p k) * x1 (ix2 k q)) + x4 (ix2 0 q) :=
  dense_at (k0_pay2 (F := Ideal)) (fun _ _ _ => rfl) x0 x1 x4 p q

theorem pay3_at (x0 : Vec Ideal S512x768 .f32) (x1 : Vec Ideal S768x768 .f32) (x4 : Vec Ideal S1x768 .f32) (p : Fin 512) (q : Fin 768) :
    k0_pay3 (F := Ideal) x0 x1 x4 (ix2 p q) = (∑ k : Fin 768, x0 (ix2 p k) * x1 (ix2 k q)) + x4 (ix2 0 q) :=
  dense_at (k0_pay3 (F := Ideal)) (fun _ _ _ => rfl) x0 x1 x4 p q

theorem pay4_at (x0 : Vec Ideal S512x768 .f32) (x1 : Vec Ideal S768x768 .f32) (x4 : Vec Ideal S1x768 .f32) (p : Fin 512) (q : Fin 768) :
    k0_pay4 (F := Ideal) x0 x1 x4 (ix2 p q) = (∑ k : Fin 768, x0 (ix2 p k) * x1 (ix2 k q)) + x4 (ix2 0 q) :=
  dense_at (k0_pay4 (F := Ideal)) (fun _ _ _ => rfl) x0 x1 x4 p q

/-! ## From blocks to the arrays -/

theorem hz : (![0, 0] : Fin 2 → Nat) = fun _ => 0 := funext fun a => by fin_cases a <;> rfl

/-- The row windows' index maps over the region's sixteen points: window 0 (the input rows) and the three output windows
    are at row block `t`, column block 0. -/
theorem idx_rows : ∀ t : Fin cfg0.N, win0_0.index t (0 : Fin 2) = t.val ∧ win0_0.index t (1 : Fin 2) = 0
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, win0_0.index t (0 : Fin 2) = t.val ∧ win0_0.index t (1 : Fin 2) = 0
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0))

theorem idx_out7 (t : Fin cfg0.N) : win0_7.index t (0 : Fin 2) = t.val ∧ win0_7.index t (1 : Fin 2) = 0 := (idx_rows t).2.2.1
theorem idx_out8 (t : Fin cfg0.N) : win0_8.index t (0 : Fin 2) = t.val ∧ win0_8.index t (1 : Fin 2) = 0 := (idx_rows t).2.2.2.1
theorem idx_out9 (t : Fin cfg0.N) : win0_9.index t (0 : Fin 2) = t.val ∧ win0_9.index t (1 : Fin 2) = 0 := (idx_rows t).2.2.2.2

/-- The weights' and the bias rows' windows stay at block (0, 0) at every point: each point reads their whole arrays. -/
theorem idx_whole7 : ∀ t : Fin cfg0.N, win0_1.index t (0 : Fin 2) = 0 ∧ win0_1.index t (1 : Fin 2) = 0
    ∧ win0_4.index t (0 : Fin 2) = 0 ∧ win0_4.index t (1 : Fin 2) = 0 :=
  (by decide +kernel : ∀ t : Fin grid0.N, _)
theorem idx_whole8 : ∀ t : Fin cfg0.N, win0_2.index t (0 : Fin 2) = 0 ∧ win0_2.index t (1 : Fin 2) = 0
    ∧ win0_5.index t (0 : Fin 2) = 0 ∧ win0_5.index t (1 : Fin 2) = 0 :=
  (by decide +kernel : ∀ t : Fin grid0.N, _)
theorem idx_whole9 : ∀ t : Fin cfg0.N, win0_3.index t (0 : Fin 2) = 0 ∧ win0_3.index t (1 : Fin 2) = 0
    ∧ win0_6.index t (0 : Fin 2) = 0 ∧ win0_6.index t (1 : Fin 2) = 0 :=
  (by decide +kernel : ∀ t : Fin grid0.N, _)

/-- The projected array as one function of the three arrays it is made from: entry `(r, o)` is row `r` of `A` through the
    dense layer whose weight `W` is stored (in, out) and whose bias is the one row of `B`. -/
abbrev proj (A : S8192x768.Idx → EReal) (W : S768x768.Idx → EReal) (B : S1x768.Idx → EReal) : S8192x768.Idx → EReal :=
  fun i => Cert.Spec.projRow (fun k => A (ix2 (n0 := 8192) (i 0) k)) (fun o' k => W (ix2 k o'))
    (fun o' => B (ix2 (n0 := 1) 0 o')) (i 1)

/-- The sum a point's block holds at `(p, q)` is the projection at the array index `e` that block entry sits at, once each
    operand is read where `e` says: the rows' array at `(e 0, k)`, the weight at `(k, e 1)`, the bias row at `(0, e 1)`. -/
theorem proj_of_reads (A : S8192x768.Idx → EReal) (W : S768x768.Idx → EReal) (B : S1x768.Idx → EReal)
    (e : S8192x768.Idx) (i0 : Fin 768 → S8192x768.Idx) (i1 : Fin 768 → S768x768.Idx) (i4 : S1x768.Idx)
    (h00 : ∀ k, ((i0 k) 0).val = (e 0).val) (h01 : ∀ k, ((i0 k) 1).val = k.val)
    (h10 : ∀ k, ((i1 k) 0).val = k.val) (h11 : ∀ k, ((i1 k) 1).val = (e 1).val)
    (h40 : (i4 0).val = 0) (h41 : (i4 1).val = (e 1).val) :
    (∑ k : Fin 768, A (i0 k) * W (i1 k)) + B i4 = proj A W B e := by
  have e0 : ∀ k, i0 k = ix2 (n0 := 8192) (e 0) k := fun k => funext fun a => Fin.ext (by
    match a with
    | ⟨0, _⟩ => exact h00 k
    | ⟨1, _⟩ => exact h01 k)
  have e1 : ∀ k, i1 k = ix2 (n1 := 768) k (e 1) := fun k => funext fun a => Fin.ext (by
    match a with
    | ⟨0, _⟩ => exact h10 k
    | ⟨1, _⟩ => exact h11 k)
  have e4 : i4 = ix2 (n0 := 1) (n1 := 768) 0 (e 1) := funext fun a => Fin.ext (by
    match a with
    | ⟨0, _⟩ => exact h40
    | ⟨1, _⟩ => exact h41)
  show _ = (∑ k : Fin 768, A (ix2 (n0 := 8192) (e 0) k) * W (ix2 (n1 := 768) k (e 1))) + B (ix2 (n0 := 1) (n1 := 768) 0 (e 1))
  rw [e4]
  exact congrArg (· + B (ix2 (n0 := 1) (n1 := 768) 0 (e 1))) (Finset.sum_congr rfl fun k _ => by rw [e0 k, e1 k])

-- the buffer contents when the region is entered: a parameter, as in the generated frame
variable (V : (c : Dev nD) → (b : Ref sig .tc) → Buf (Elt Ideal) ((c : Thread nD τ).loc b))

/-- What point `t` writes back to output window 7: block `t` of the projection of the arrays the region finds in
    windows 0, 1 and 4. The rows' block sits `t` blocks down its array, as the output's does; the weight's and the
    bias row's blocks are their whole arrays. -/
theorem flushed7_eq (c : Dev nD) (t : Fin cfg0.N) :
    (dat0 V c).flushed 7 t
      = ((cfg0.win 7).blk t).view.read (Elt Ideal) (proj (V c main_v0) (V c main_v1) (V c main_v5)) := by
  show (cfg0.win 7).cut (grid0.coords t) ((dat0 V c).after 7 t) = _
  rw [after0_7]
  unfold out0_7
  rw [View.canon_unit_zero hz]
  simp only [View.ld_unit_zero (S := S512x768) hz, View.ld_unit_zero (S := S768x768) hz, View.ld_unit_zero (S := S1x768) hz]
  obtain ⟨r0, r1, -⟩ := idx_rows t
  obtain ⟨o0, o1⟩ := idx_out7 t
  obtain ⟨w0, w1, b0, b1⟩ := idx_whole7 t
  funext j
  obtain ⟨p, q, rfl⟩ : ∃ (p : Fin 512) (q : Fin 768), j = ix2 p q :=
    ⟨_, _, eq_ix2 (n0 := 512) (n1 := 768) j⟩
  refine (pay2_at _ _ _ p q).trans ?_
  refine proj_of_reads (V c main_v0) (V c main_v1) (V c main_v5) (((cfg0.win 7).blk t).view.emb (ix2 p q))
    (fun k => ((cfg0.win 0).blk t).view.emb (ix2 p k)) (fun k => ((cfg0.win 1).blk t).view.emb (ix2 k q))
    (((cfg0.win 4).blk t).view.emb (ix2 0 q)) (fun k => ?_) (fun k => ?_) (fun k => ?_) (fun k => ?_) ?_ ?_
  · show win0_0.index t (0 : Fin 2) * 512 + 1 * p.val = win0_7.index t (0 : Fin 2) * 512 + 1 * p.val
    omega
  · show win0_0.index t (1 : Fin 2) * 768 + 1 * k.val = k.val
    omega
  · show win0_1.index t (0 : Fin 2) * 768 + 1 * k.val = k.val
    omega
  · show win0_1.index t (1 : Fin 2) * 768 + 1 * q.val = win0_7.index t (1 : Fin 2) * 768 + 1 * q.val
    omega
  · show win0_4.index t (0 : Fin 2) * 1 + 1 * 0 = 0
    omega
  · show win0_4.index t (1 : Fin 2) * 768 + 1 * q.val = win0_7.index t (1 : Fin 2) * 768 + 1 * q.val
    omega

/-- An index of output window 7's array is in point `t`'s block iff each coordinate is in the block's range on its axis. -/
theorem mem_blk7 (t : Fin cfg0.N) (i : S8192x768.Idx) :
    i ∈ ((cfg0.win 7).blk t).view.set
      ↔ ∀ a : Fin 2, win0_7.index t a * S512x768.size a ≤ (i a).val ∧ (i a).val < win0_7.index t a * S512x768.size a + S512x768.size a := by
  show i ∈ ((View.whole main_v11_0).slice (win0_7.rect t)).set ↔ _
  rw [View.set_slice_whole, Rect.mem_set_unit]
  exact Iff.rfl

/-- Row `r` of output window 7's array lies in the block of point `r / 512`: the sixteen blocks of 512 rows tile the 8192. -/
theorem cover7 (i : S8192x768.Idx) :
    ∃ t : Fin cfg0.N, (cfg0.win 7).flush t = true ∧ i ∈ ((cfg0.win 7).blk t).view.set := by
  have hi0 : (i 0).val < 8192 := (i 0).isLt
  have hi1 : (i 1).val < 768 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨o0, o1⟩ := idx_out7 t
  refine ⟨t, flush0_7 t, ?_⟩
  rw [mem_blk7]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 768 ≤ (i 1).val ∧ (i 1).val < win0_7.index t (1 : Fin 2) * 768 + 768
    omega

/-- Output window 7's array after the region: the projection, index by index. -/
theorem final7 (c : Dev nD) :
    (dat0 V c).arrAt 7 cfg0.N = proj (V c main_v0) (V c main_v1) (V c main_v5) :=
  (dat0 V c).arrAt_eq_of_cover 7 _ (fun t _ => flushed7_eq V c t) cover7

/-- What point `t` writes back to output window 8: block `t` of the projection of the arrays the region finds in
    windows 0, 2 and 5. The rows' block sits `t` blocks down its array, as the output's does; the weight's and the
    bias row's blocks are their whole arrays. -/
theorem flushed8_eq (c : Dev nD) (t : Fin cfg0.N) :
    (dat0 V c).flushed 8 t
      = ((cfg0.win 8).blk t).view.read (Elt Ideal) (proj (V c main_v0) (V c main_v2) (V c main_v6)) := by
  show (cfg0.win 8).cut (grid0.coords t) ((dat0 V c).after 8 t) = _
  rw [after0_8]
  unfold out0_8
  rw [View.canon_unit_zero hz]
  simp only [View.ld_unit_zero (S := S512x768) hz, View.ld_unit_zero (S := S768x768) hz, View.ld_unit_zero (S := S1x768) hz]
  obtain ⟨r0, r1, -⟩ := idx_rows t
  obtain ⟨o0, o1⟩ := idx_out8 t
  obtain ⟨w0, w1, b0, b1⟩ := idx_whole8 t
  funext j
  obtain ⟨p, q, rfl⟩ : ∃ (p : Fin 512) (q : Fin 768), j = ix2 p q :=
    ⟨_, _, eq_ix2 (n0 := 512) (n1 := 768) j⟩
  refine (pay3_at _ _ _ p q).trans ?_
  refine proj_of_reads (V c main_v0) (V c main_v2) (V c main_v6) (((cfg0.win 8).blk t).view.emb (ix2 p q))
    (fun k => ((cfg0.win 0).blk t).view.emb (ix2 p k)) (fun k => ((cfg0.win 2).blk t).view.emb (ix2 k q))
    (((cfg0.win 5).blk t).view.emb (ix2 0 q)) (fun k => ?_) (fun k => ?_) (fun k => ?_) (fun k => ?_) ?_ ?_
  · show win0_0.index t (0 : Fin 2) * 512 + 1 * p.val = win0_8.index t (0 : Fin 2) * 512 + 1 * p.val
    omega
  · show win0_0.index t (1 : Fin 2) * 768 + 1 * k.val = k.val
    omega
  · show win0_2.index t (0 : Fin 2) * 768 + 1 * k.val = k.val
    omega
  · show win0_2.index t (1 : Fin 2) * 768 + 1 * q.val = win0_8.index t (1 : Fin 2) * 768 + 1 * q.val
    omega
  · show win0_5.index t (0 : Fin 2) * 1 + 1 * 0 = 0
    omega
  · show win0_5.index t (1 : Fin 2) * 768 + 1 * q.val = win0_8.index t (1 : Fin 2) * 768 + 1 * q.val
    omega

/-- An index of output window 8's array is in point `t`'s block iff each coordinate is in the block's range on its axis. -/
theorem mem_blk8 (t : Fin cfg0.N) (i : S8192x768.Idx) :
    i ∈ ((cfg0.win 8).blk t).view.set
      ↔ ∀ a : Fin 2, win0_8.index t a * S512x768.size a ≤ (i a).val ∧ (i a).val < win0_8.index t a * S512x768.size a + S512x768.size a := by
  show i ∈ ((View.whole main_v11_1).slice (win0_8.rect t)).set ↔ _
  rw [View.set_slice_whole, Rect.mem_set_unit]
  exact Iff.rfl

/-- Row `r` of output window 8's array lies in the block of point `r / 512`: the sixteen blocks of 512 rows tile the 8192. -/
theorem cover8 (i : S8192x768.Idx) :
    ∃ t : Fin cfg0.N, (cfg0.win 8).flush t = true ∧ i ∈ ((cfg0.win 8).blk t).view.set := by
  have hi0 : (i 0).val < 8192 := (i 0).isLt
  have hi1 : (i 1).val < 768 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨o0, o1⟩ := idx_out8 t
  refine ⟨t, flush0_8 t, ?_⟩
  rw [mem_blk8]
  intro a
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 768 ≤ (i 1).val ∧ (i 1).val < win0_8.index t (1 : Fin 2) * 768 + 768
    omega

/-- Output window 8's array after the region: the projection, index by index. -/
theorem final8 (c : Dev nD) :
    (dat0 V c).arrAt 8 cfg0.N = proj (V c main_v0) (V c main_v2) (V c main_v6) :=
  (dat0 V c).arrAt_eq_of_cover 8 _ (fun t _ => flushed8_eq V c t) cover8

/-- What point `t` writes back to output window 9: block `t` of the projection of the arrays the region finds in
    windows 0, 3 and 6. The rows' block sits `t` blocks down its array, as the output's does; the weight's and the
    bias row's blocks are their whole arrays. -/
theorem flushed9_eq (c : Dev nD) (t : Fin cfg0.N) :
    (dat0 V c).flushed 9 t
      = ((cfg0.win 9).blk t).view.read (Elt Ideal) (proj (V c main_v0) (V c main_v3) (V c main_v7)) := by
  show (cfg0.win 9).cut (grid0.coords t) ((dat0 V c).after 9 t) = _
  rw [after0_9]
  unfold out0_9
  rw [View.canon_unit_zero hz]
  simp only [View.ld_unit_zero (S := S512x768) hz, View.ld_unit_zero (S := S768x768) hz, View.ld_unit_zero (S := S1x768) hz]
  obtain ⟨r0, r1, -⟩ := idx_rows t
  obtain ⟨o0, o1⟩ := idx_out9 t
  obtain ⟨w0, w1, b0, b1⟩ := idx_whole9 t
  funext j
  obtain ⟨p, q, rfl⟩ : ∃ (p : Fin 512) (q : Fin 768), j = ix2 p q :=
    ⟨_, _, eq_ix2 (n0 := 512) (n1 := 768) j⟩
  refine (pay4_at _ _ _ p q).trans ?_
  refine proj_of_reads (V c main_v0) (V c main_v3) (V c main_v7) (((cfg0.win 9).blk t).view.emb (ix2 p q))
    (fun k => ((cfg0.win 0).blk t).view.emb (ix2 p k)) (fun k => ((cfg0.win 3).blk t).view.emb (ix2 k q))
    (((cfg0.win 6).blk t).view.emb (ix2 0 q)) (fun k => ?_) (fun k => ?_) (fun k => ?_) (fun k => ?_) ?_ ?_
  · show win0_0.index t (0 : Fin 2) * 512 + 1 * p.val = win0_9.index t (0 : Fin 2) * 512 + 1 * p.val
    omega
  · show win0_0.index t (1 : Fin 2) * 768 + 1 * k.val = k.val
    omega
  · show win0_3.index t (0 : Fin 2) * 768 + 1 * k.val = k.val
    omega
  · show win0_3.index t (1 : Fin 2) * 768 + 1 * q.val = win0_9.index t (1 : Fin 2) * 768 + 1 * q.val
    omega
  · show win0_6.index t (0 : Fin 2) * 1 + 1 * 0 = 0
    omega
  · show win0_6.index t (1 : Fin 2) * 768 + 1 * q.val = win0_9.index t (1 : Fin 2) * 768 + 1 * q.val
    omega

/-- An index of output window 9's array is in point `t`'s block iff each coordinate is in the block's range on its axis. -/
theorem mem_blk9 (t : Fin cfg0.N) (i : S8192x768.Idx) :
    i ∈ ((cfg0.win 9).blk t).view.set
      ↔ ∀ a : Fin 2, win0_9.index t a * S512x768.size a ≤ (i a).val ∧ (i a).val < win0_9.index t a * S512x768.size a + S512x768.size a := by
  show i ∈ ((View.whole main_v11_2).slice (win0_9.rect t)).set ↔ _
  rw [View.set_slice_whole, Rect.mem_set_unit]
  exact Iff.rfl

/-- Row `r` of output window 9's array lies in the block of point `r / 512`: the sixteen blocks of 512 rows tile the 8192. -/
theorem cover9 (i : S8192x768.Idx) :
    ∃ t : Fin cfg0.N, (cfg0.win 9).flush t = true ∧ i ∈ ((cfg0.win 9).blk t).view.set := by
  have hi0 : (i 0).val < 8192 := (i 0).isLt
  have hi1 : (i 1).val < 768 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨o0, o1⟩ := idx_out9 t
  refine ⟨t, flush0_9 t, ?_⟩
  rw [mem_blk9]
  intro a
  match a with
  | ⟨0, _⟩ =>
    show win0_9.index t (0 : Fin 2) * 512 ≤ (i 0).val ∧ (i 0).val < win0_9.index t (0 : Fin 2) * 512 + 512
    omega
  | ⟨1, _⟩ =>
    show win0_9.index t (1 : Fin 2) * 768 ≤ (i 1).val ∧ (i 1).val < win0_9.index t (1 : Fin 2) * 768 + 768
    omega

/-- Output window 9's array after the region: the projection, index by index. -/
theorem final9 (c : Dev nD) :
    (dat0 V c).arrAt 9 cfg0.N = proj (V c main_v0) (V c main_v3) (V c main_v7) :=
  (dat0 V c).arrAt_eq_of_cover 9 _ (fun t _ => flushed9_eq V c t) cover9

/-- The query projection (output window 7): inputs are windows 0 (rows), 1 (weight, stored (in, out)), 4 (bias row). -/
theorem arr7 (c : Dev nD) (r : Fin 8192) (o : Fin 768) :
    (dat0 V c).arrAt 7 cfg0.N (ix2 r o)
      = Cert.Spec.projRow (fun i => V c main_v0 (ix2 r i)) (fun o' i => V c main_v1 (ix2 i o')) (fun o' => V c main_v5 (ix2 0 o')) o := by
  exact congrFun (final7 V c) (ix2 r o)

/-- The key projection (output window 8): windows 0, 2, 5. -/
theorem arr8 (c : Dev nD) (r : Fin 8192) (o : Fin 768) :
    (dat0 V c).arrAt 8 cfg0.N (ix2 r o)
      = Cert.Spec.projRow (fun i => V c main_v0 (ix2 r i)) (fun o' i => V c main_v2 (ix2 i o')) (fun o' => V c main_v6 (ix2 0 o')) o := by
  exact congrFun (final8 V c) (ix2 r o)

/-- The value projection (output window 9): windows 0, 3, 6. -/
theorem arr9 (c : Dev nD) (r : Fin 8192) (o : Fin 768) :
    (dat0 V c).arrAt 9 cfg0.N (ix2 r o)
      = Cert.Spec.projRow (fun i => V c main_v0 (ix2 r i)) (fun o' i => V c main_v3 (ix2 i o')) (fun o' => V c main_v7 (ix2 0 o')) o := by
  exact congrFun (final9 V c) (ix2 r o)

end Cert.ReferenceIdeal.RReg0

end
-- ==== Proof.RReg1.lean ====
/-
  The second region of the three-stage program, read: block `bh` of its output array is the normalise-first head of
  blocks `bh` of its three input arrays.
-/
import proofs.«136720_g2000702396236789_pallasbulk_1056_14_alg».proof.Proof.Gen.ReferenceIdeal.Frame
import proofs.«136720_g2000702396236789_pallasbulk_1056_14_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RReg1

open Idealize.ShloMosaic Idealize.ShloMosaic.ValueIdx Idealize.ShloMosaic.TcCoe Idealize.SL.Sem Cert.ReferenceIdeal Cert.ReferenceIdeal.Gen

variable [Facts]
open Facts₀ Facts

/-! ## The two contractions' operand indices, axis by axis -/

theorem lhsS_0 (j : S128x128.Idx) (k : dot_S128x64_S128x64_S128x128_1_1_0_0_n_n.contr.Idx) :
    (dot_S128x64_S128x64_S128x128_1_1_0_0_n_n.lhsIdx j k (0 : Fin S128x64.rank)).val = (j (0 : Fin S128x128.rank)).val := by
  unfold DotDims.lhsIdx
  rw [dif_neg (show ¬ (0 : Fin S128x64.rank) ∈ dot_S128x64_S128x64_S128x128_1_1_0_0_n_n.lhsBatch by decide),
    dif_pos (show (0 : Fin S128x64.rank) ∈ dot_S128x64_S128x64_S128x128_1_1_0_0_n_n.lhsNonContracting by decide)]
  rfl

theorem lhsS_1 (j : S128x128.Idx) (k : dot_S128x64_S128x64_S128x128_1_1_0_0_n_n.contr.Idx) :
    (dot_S128x64_S128x64_S128x128_1_1_0_0_n_n.lhsIdx j k (1 : Fin S128x64.rank)).val = (k ⟨0, by decide⟩).val :=
  dot_S128x64_S128x64_S128x128_1_1_0_0_n_n.lhsIdx_val_of_single rfl j k

theorem rhsS_0 (j : S128x128.Idx) (k : dot_S128x64_S128x64_S128x128_1_1_0_0_n_n.contr.Idx) :
    (dot_S128x64_S128x64_S128x128_1_1_0_0_n_n.rhsIdx j k (0 : Fin S128x64.rank)).val = (j (1 : Fin S128x128.rank)).val := by
  unfold DotDims.rhsIdx
  rw [dif_neg (show ¬ (0 : Fin S128x64.rank) ∈ dot_S128x64_S128x64_S128x128_1_1_0_0_n_n.rhsBatch by decide),
    dif_pos (show (0 : Fin S128x64.rank) ∈ dot_S128x64_S128x64_S128x128_1_1_0_0_n_n.rhsNonContracting by decide)]
  rfl

theorem rhsS_1 (j : S128x128.Idx) (k : dot_S128x64_S128x64_S128x128_1_1_0_0_n_n.contr.Idx) :
    (dot_S128x64_S128x64_S128x128_1_1_0_0_n_n.rhsIdx j k (1 : Fin S128x64.rank)).val = (k ⟨0, by decide⟩).val :=
  dot_S128x64_S128x64_S128x128_1_1_0_0_n_n.rhsIdx_val_of_single rfl j k

/-- The score product at `(i, j)`: the sum over the 64 coordinates of row `i` of the left block times row `j` of the right. -/
theorem mmS_apply (a b : FVec Ideal S128x64 .f32) (i j : Fin 128) :
    matmul dot_S128x64_S128x64_S128x128_1_1_0_0_n_n none a b (constant (F := Ideal) S128x128 .f32 0x00000000#32) (ix2 i j)
      = ∑ d : Fin 64, a (ix2 i d) * b (ix2 j d) := by
  show FloatOps.matmul _ none a b (constant (F := Ideal) S128x128 .f32 0x00000000#32) (ix2 i j) = _
  rw [Ideal.matmul_constant_zero_apply,
    ← Equiv.sum_comp (contrEquiv1 dot_S128x64_S128x64_S128x128_1_1_0_0_n_n 64 rfl rfl).symm]
  refine Finset.sum_congr rfl fun d _ => ?_
  have c := contrEquiv1_symm_val dot_S128x64_S128x64_S128x128_1_1_0_0_n_n 64 rfl rfl d
  have hl : dot_S128x64_S128x64_S128x128_1_1_0_0_n_n.lhsIdx (ix2 i j)
      ((contrEquiv1 dot_S128x64_S128x64_S128x128_1_1_0_0_n_n 64 rfl rfl).symm d) = ix2 i d := by
    funext ax; apply Fin.ext
    match ax with
    | ⟨0, _⟩ => exact lhsS_0 _ _
    | ⟨1, _⟩ => exact (lhsS_1 _ _).trans c
  have hr : dot_S128x64_S128x64_S128x128_1_1_0_0_n_n.rhsIdx (ix2 i j)
      ((contrEquiv1 dot_S128x64_S128x64_S128x128_1_1_0_0_n_n 64 rfl rfl).symm d) = ix2 j d := by
    funext ax; apply Fin.ext
    match ax with
    | ⟨0, _⟩ => exact rhsS_0 _ _
    | ⟨1, _⟩ => exact (rhsS_1 _ _).trans c
  rw [hl, hr]

theorem lhsC_0 (j : S128x64.Idx) (k : dot_S128x128_S128x64_S128x64_1_0_0_1_n_n.contr.Idx) :
    (dot_S128x128_S128x64_S128x64_1_0_0_1_n_n.lhsIdx j k (0 : Fin S128x128.rank)).val = (j (0 : Fin S128x64.rank)).val := by
  unfold DotDims.lhsIdx
  rw [dif_neg (show ¬ (0 : Fin S128x128.rank) ∈ dot_S128x128_S128x64_S128x64_1_0_0_1_n_n.lhsBatch by decide),
    dif_pos (show (0 : Fin S128x128.rank) ∈ dot_S128x128_S128x64_S128x64_1_0_0_1_n_n.lhsNonContracting by decide)]
  rfl

theorem lhsC_1 (j : S128x64.Idx) (k : dot_S128x128_S128x64_S128x64_1_0_0_1_n_n.contr.Idx) :
    (dot_S128x128_S128x64_S128x64_1_0_0_1_n_n.lhsIdx j k (1 : Fin S128x128.rank)).val = (k ⟨0, by decide⟩).val :=
  dot_S128x128_S128x64_S128x64_1_0_0_1_n_n.lhsIdx_val_of_single rfl j k

theorem rhsC_0 (j : S128x64.Idx) (k : dot_S128x128_S128x64_S128x64_1_0_0_1_n_n.contr.Idx) :
    (dot_S128x128_S128x64_S128x64_1_0_0_1_n_n.rhsIdx j k (0 : Fin S128x64.rank)).val = (k ⟨0, by decide⟩).val :=
  dot_S128x128_S128x64_S128x64_1_0_0_1_n_n.rhsIdx_val_of_single rfl j k

theorem rhsC_1 (j : S128x64.Idx) (k : dot_S128x128_S128x64_S128x64_1_0_0_1_n_n.contr.Idx) :
    (dot_S128x128_S128x64_S128x64_1_0_0_1_n_n.rhsIdx j k (1 : Fin S128x64.rank)).val = (j (1 : Fin S128x64.rank)).val := by
  unfold DotDims.rhsIdx
  rw [dif_neg (show ¬ (1 : Fin S128x64.rank) ∈ dot_S128x128_S128x64_S128x64_1_0_0_1_n_n.rhsBatch by decide),
    dif_pos (show (1 : Fin S128x64.rank) ∈ dot_S128x128_S128x64_S128x64_1_0_0_1_n_n.rhsNonContracting by decide)]
  rfl

/-- The context product at `(i, d)`: the sum over the 128 positions `j` of weight `(i, j)` times value `(j, d)`. -/
theorem mmC_apply (p : FVec Ideal S128x128 .f32) (v : FVec Ideal S128x64 .f32) (i : Fin 128) (d : Fin 64) :
    matmul dot_S128x128_S128x64_S128x64_1_0_0_1_n_n none p v (constant (F := Ideal) S128x64 .f32 0x00000000#32) (ix2 i d)
      = ∑ j : Fin 128, p (ix2 i j) * v (ix2 j d) := by
  show FloatOps.matmul _ none p v (constant (F := Ideal) S128x64 .f32 0x00000000#32) (ix2 i d) = _
  rw [Ideal.matmul_constant_zero_apply,
    ← Equiv.sum_comp (contrEquiv1 dot_S128x128_S128x64_S128x64_1_0_0_1_n_n 128 rfl rfl).symm]
  refine Finset.sum_congr rfl fun j _ => ?_
  have c := contrEquiv1_symm_val dot_S128x128_S128x64_S128x64_1_0_0_1_n_n 128 rfl rfl j
  have hl : dot_S128x128_S128x64_S128x64_1_0_0_1_n_n.lhsIdx (ix2 i d)
      ((contrEquiv1 dot_S128x128_S128x64_S128x64_1_0_0_1_n_n 128 rfl rfl).symm j) = ix2 i j := by
    funext ax; apply Fin.ext
    match ax with
    | ⟨0, _⟩ => exact lhsC_0 _ _
    | ⟨1, _⟩ => exact (lhsC_1 _ _).trans c
  have hr : dot_S128x128_S128x64_S128x64_1_0_0_1_n_n.rhsIdx (ix2 i d)
      ((contrEquiv1 dot_S128x128_S128x64_S128x64_1_0_0_1_n_n 128 rfl rfl).symm j) = ix2 j d := by
    funext ax; apply Fin.ext
    match ax with
    | ⟨0, _⟩ => exact (rhsC_0 _ _).trans c
    | ⟨1, _⟩ => exact rhsC_1 _ _
  rw [hl, hr]

/-! ## The row reductions and the column they are spread along (the shape facts are hypotheses: any proof of them) -/

/-- The index a row reduction reads at position `j` of row `i`. -/
theorem lift_row (h : S128x128.Reduces [1] S128) (i j : Fin 128) : h.lift (ix1 i) j = ix2 i j :=
  funext fun a => Fin.ext (by match a with | ⟨0, _⟩ => rfl | ⟨1, _⟩ => rfl)

/-- The row maximum from `-∞`. -/
theorem rowmax_apply (h : S128x128.Reduces [1] S128) (hφ : FKind.Formats .f32)
    (hacc : (0xFF800000#32 : BitVec 32) = 0xFF800000#32) (s : FVec Ideal S128x128 .f32) (i : Fin 128) :
    multiReduction .maximumf [1] S128 s 0xFF800000#32 h hφ hacc (ix1 i) = Cert.Spec.rowMax (fun j => s (ix2 i j)) := by
  refine (Ideal.multiReduction_maximumf_single s 0xFF800000#32 h hφ hacc (ix1 i)).trans ?_
  exact congrArg (fun f : Fin 128 → EReal => (Finset.univ : Finset (Fin 128)).fold max (Ideal.ofBits .f32 0xFF800000#32) f)
    (funext fun j => congrArg s (lift_row h i j))

/-- The row sum. -/
theorem rowsum_apply (h : S128x128.Reduces [1] S128) (hφ : FKind.Formats .f32)
    (hacc : (0x00000000#32 : BitVec 32) = 0x00000000#32) (e : FVec Ideal S128x128 .f32) (i : Fin 128) :
    multiReduction .add [1] S128 e 0x00000000#32 h hφ hacc (ix1 i) = ∑ j : Fin 128, e (ix2 i j) := by
  refine (Ideal.multiReduction_add_single e 0x00000000#32 h hφ hacc (ix1 i)).trans ?_
  exact Finset.sum_congr rfl fun j _ => congrArg e (lift_row h i j)

/-- A vector of 128 row values made a column and spread along the rows reads, at `(i, j)`, row `i`'s value. -/
theorem col_apply {α : Type} (hc : S128.ShapeCasts S128x1) (hb : S128x1.Broadcasts S128x128) (v : S128.Idx → α) (i j : Fin 128) :
    broadcastTo S128x128 (shapeCast S128x1 v hc) hb (ix2 i j) = v (ix1 i) := by
  refine (broadcastTo_apply _ hb (ix2 i j) (ix2 i (0 : Fin 1)) fun ax => ?_).trans ?_
  · match ax with
    | ⟨0, _⟩ => rfl
    | ⟨1, _⟩ => rfl
  · refine shapeCast_apply v hc (ix2 i (0 : Fin 1)) (ix1 i) ?_
    rw [Shape.rowMajor_val_two, Shape.rowMajor_val_one]
    show i.val = i.val * 1 + 0
    omega

/-! ## The block's computation at an index -/

/-- A `[1, 128, 64]` block with its unit axis dropped, at `(i, d)`. -/
theorem castIn_apply (h : S1x128x64.ShapeCasts S128x64) (x : Vec Ideal S1x128x64 .f32) (i : Fin 128) (d : Fin 64) :
    shapeCast S128x64 x h (ix2 i d) = x (ix3 (0 : Fin 1) i d) :=
  shapeCast_1ab_ab_apply x h i d

/-- A `[128, 64]` value given its unit axis back, at `(u, i, d)`. -/
theorem castOut_apply (h : S128x64.ShapeCasts S1x128x64) (y : FVec Ideal S128x64 .f32) (u : Fin 1) (i : Fin 128) (d : Fin 64) :
    shapeCast S1x128x64 y h (ix3 u i d) = y (ix2 i d) :=
  shapeCast_ab_1ab_apply y h u i d

/-- The scaled scores of two `[128, 64]` values. -/
theorem score_apply (a b : FVec Ideal S128x64 .f32) (i j : Fin 128) :
    mulf (matmul dot_S128x64_S128x64_S128x128_1_1_0_0_n_n none a b (constant (F := Ideal) S128x128 .f32 0x00000000#32))
        (broadcast S128x128 (Scalar.ofBits (F := Ideal) .f32 0x3E000000#32)) (ix2 i j)
      = Cert.Spec.scoreR (fun i' d' => a (ix2 i' d')) (fun i' d' => b (ix2 i' d')) i j := by
  rw [mulf_apply, mmS_apply]
  rfl

/-- The exponentials of a score matrix centred at each row's maximum. -/
theorem expo_apply (h : S128x128.Reduces [1] S128) (hφ : FKind.Formats .f32)
    (hacc : (0xFF800000#32 : BitVec 32) = 0xFF800000#32)
    (hc : S128.ShapeCasts S128x1) (hb : S128x1.Broadcasts S128x128) (s : FVec Ideal S128x128 .f32) (i j : Fin 128) :
    exp (subf s (broadcastTo S128x128 (shapeCast S128x1
        (multiReduction .maximumf [1] S128 s 0xFF800000#32 h hφ hacc) hc) hb)) (ix2 i j)
      = Cert.Spec.expo (fun i' j' => s (ix2 i' j')) i j := by
  show Ideal.exp (s (ix2 i j) - broadcastTo S128x128 (shapeCast S128x1
        (multiReduction .maximumf [1] S128 s 0xFF800000#32 h hφ hacc) hc) hb (ix2 i j)) = _
  rw [col_apply, rowmax_apply]
  rfl

/-- Each weight divided by its row's sum. -/
theorem norm_apply (h : S128x128.Reduces [1] S128) (hφ : FKind.Formats .f32)
    (hacc : (0x00000000#32 : BitVec 32) = 0x00000000#32)
    (hc : S128.ShapeCasts S128x1) (hb : S128x1.Broadcasts S128x128) (e : FVec Ideal S128x128 .f32) (i j : Fin 128) :
    divf e (broadcastTo S128x128 (shapeCast S128x1
        (multiReduction .add [1] S128 e 0x00000000#32 h hφ hacc) hc) hb) (ix2 i j)
      = Ideal.div (e (ix2 i j)) (∑ j' : Fin 128, e (ix2 i j')) := by
  rw [divf_apply, col_apply, rowsum_apply]

/-- THE BLOCK'S RESULT at `(u, i, d)`: the normalise-first head of the three loaded blocks. -/
theorem pay_apply (x0 x1 x2 : Vec Ideal S1x128x64 .f32) (u : Fin 1) (i : Fin 128) (d : Fin 64) :
    k1_pay1 x0 x1 x2 (ix3 u i d)
      = Cert.Spec.headR (fun i' d' => x0 (ix3 (0 : Fin 1) i' d')) (fun i' d' => x1 (ix3 (0 : Fin 1) i' d'))
          (fun i' d' => x2 (ix3 (0 : Fin 1) i' d')) i d := by
  unfold k1_pay1
  dsimp only
  rw [castOut_apply, mmC_apply]
  refine Finset.sum_congr rfl fun j _ => ?_
  rw [norm_apply, castIn_apply]
  refine congrArg₂ (fun a b => Ideal.div a b * x2 (ix3 (0 : Fin 1) j d)) ?_ (Finset.sum_congr rfl fun j' _ => ?_)
  · rw [expo_apply]
    refine congrArg (fun s => Cert.Spec.expo s i j) (funext fun i' => funext fun j'' => ?_)
    rw [score_apply]
    exact congrArg₂ (fun q k => Cert.Spec.scoreR q k i' j'')
      (funext fun a => funext fun b => castIn_apply _ x0 a b) (funext fun a => funext fun b => castIn_apply _ x1 a b)
  · rw [expo_apply]
    refine congrArg (fun s => Cert.Spec.expo s i j') (funext fun i' => funext fun j'' => ?_)
    rw [score_apply]
    exact congrArg₂ (fun q k => Cert.Spec.scoreR q k i' j'')
      (funext fun a => funext fun b => castIn_apply _ x0 a b) (funext fun a => funext fun b => castIn_apply _ x1 a b)

/-! ## From the blocks to the array -/

-- the buffer contents when the region is entered: a parameter, as in the generated frame
variable (V : (c : Dev nD) → (b : Ref sig .tc) → Buf (Elt Ideal) ((c : Thread nD τ).loc b))

theorem hz : (![0, 0, 0] : Fin 3 → Nat) = fun _ => 0 := funext fun a => by fin_cases a <;> rfl

/-- Head `bh` of a `[768, 128, 64]` array: its 128 rows of 64 coordinates. -/
def headAt (A : S768x128x64.Idx → EReal) (bh : Fin 768) : Fin 128 → Fin 64 → EReal := fun i d => A (ix3 bh i d)

/-- What the output array ends holding: at `(bh, i, d)` the normalise-first head of heads `bh` of the three input arrays. -/
def outArr (c : Dev nD) : S768x128x64.Idx → EReal := fun y =>
  Cert.Spec.headR (headAt (V c main_v14) (y 0)) (headAt (V c main_v17) (y 0)) (headAt (V c main_v20) (y 0)) (y 1) (y 2)

omit [Facts] in
/-- The printed index maps, decided over the grid at the program's own proved facts: every window's block at point
    `t` is block `(t, 0, 0)`. -/
theorem idx_facts₀ : ∀ t : Fin grid1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) := by
  decide +kernel

/-- The same at whatever proof of the facts the windows are read with (the facts are propositions). -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  idx_facts₀

/-- The grid point as a head number. -/
def hd (t : Fin cfg1.N) : Fin 768 := ⟨t.val, t.isLt⟩

/-- Where the query window's block at point `t` sits in its array: head `t`, the same row and coordinate. -/
theorem emb0 (t : Fin cfg1.N) (z : S1x128x64.Idx) : ((cfg1.win 0).blk t).view.emb z = ix3 (hd t) (z 1) (z 2) := by
  obtain ⟨⟨e0, e1, e2⟩, -, -, -⟩ := idx_facts t
  have h0 : (z 0).val < 1 := (z 0).isLt
  funext a; apply Fin.ext
  match a with
  | ⟨0, _⟩ => show win1_0.index t (0 : Fin 3) * 1 + 1 * (z 0).val = t.val; omega
  | ⟨1, _⟩ => show win1_0.index t (1 : Fin 3) * 128 + 1 * (z 1).val = (z 1).val; omega
  | ⟨2, _⟩ => show win1_0.index t (2 : Fin 3) * 64 + 1 * (z 2).val = (z 2).val; omega

/-- The same for the key window. -/
theorem emb1 (t : Fin cfg1.N) (z : S1x128x64.Idx) : ((cfg1.win 1).blk t).view.emb z = ix3 (hd t) (z 1) (z 2) := by
  obtain ⟨-, ⟨e0, e1, e2⟩, -, -⟩ := idx_facts t
  have h0 : (z 0).val < 1 := (z 0).isLt
  funext a; apply Fin.ext
  match a with
  | ⟨0, _⟩ => show win1_1.index t (0 : Fin 3) * 1 + 1 * (z 0).val = t.val; omega
  | ⟨1, _⟩ => show win1_1.index t (1 : Fin 3) * 128 + 1 * (z 1).val = (z 1).val; omega
  | ⟨2, _⟩ => show win1_1.index t (2 : Fin 3) * 64 + 1 * (z 2).val = (z 2).val; omega

/-- The same for the value window. -/
theorem emb2 (t : Fin cfg1.N) (z : S1x128x64.Idx) : ((cfg1.win 2).blk t).view.emb z = ix3 (hd t) (z 1) (z 2) := by
  obtain ⟨-, -, ⟨e0, e1, e2⟩, -⟩ := idx_facts t
  have h0 : (z 0).val < 1 := (z 0).isLt
  funext a; apply Fin.ext
  match a with
  | ⟨0, _⟩ => show win1_2.index t (0 : Fin 3) * 1 + 1 * (z 0).val = t.val; omega
  | ⟨1, _⟩ => show win1_2.index t (1 : Fin 3) * 128 + 1 * (z 1).val = (z 1).val; omega
  | ⟨2, _⟩ => show win1_2.index t (2 : Fin 3) * 64 + 1 * (z 2).val = (z 2).val; omega

/-- The same for the output window. -/
theorem emb3 (t : Fin cfg1.N) (z : S1x128x64.Idx) : ((cfg1.win 3).blk t).view.emb z = ix3 (hd t) (z 1) (z 2) := by
  obtain ⟨-, -, -, e0, e1, e2⟩ := idx_facts t
  have h0 : (z 0).val < 1 := (z 0).isLt
  funext a; apply Fin.ext
  match a with
  | ⟨0, _⟩ => show win1_3.index t (0 : Fin 3) * 1 + 1 * (z 0).val = t.val; omega
  | ⟨1, _⟩ => show win1_3.index t (1 : Fin 3) * 128 + 1 * (z 1).val = (z 1).val; omega
  | ⟨2, _⟩ => show win1_3.index t (2 : Fin 3) * 64 + 1 * (z 2).val = (z 2).val; omega

/-- The query block at point `t` is head `t` of the query array. -/
theorem iblk0_eq (c : Dev nD) (t : Fin cfg1.N) :
    (fun (i' : Fin 128) (d' : Fin 64) => (iblk1 V c 0 t : Vec Ideal S1x128x64 .f32) (ix3 (0 : Fin 1) i' d'))
      = headAt (V c main_v14) (hd t) := by
  funext i' d'
  show V c main_v14 (((cfg1.win 0).blk t).view.emb (ix3 (0 : Fin 1) i' d')) = V c main_v14 (ix3 (hd t) i' d')
  rw [emb0]
  rfl

/-- The key block at point `t` is head `t` of the key array. -/
theorem iblk1_eq (c : Dev nD) (t : Fin cfg1.N) :
    (fun (i' : Fin 128) (d' : Fin 64) => (iblk1 V c 1 t : Vec Ideal S1x128x64 .f32) (ix3 (0 : Fin 1) i' d'))
      = headAt (V c main_v17) (hd t) := by
  funext i' d'
  show V c main_v17 (((cfg1.win 1).blk t).view.emb (ix3 (0 : Fin 1) i' d')) = V c main_v17 (ix3 (hd t) i' d')
  rw [emb1]
  rfl

/-- The value block at point `t` is head `t` of the value array. -/
theorem iblk2_eq (c : Dev nD) (t : Fin cfg1.N) :
    (fun (i' : Fin 128) (d' : Fin 64) => (iblk1 V c 2 t : Vec Ideal S1x128x64 .f32) (ix3 (0 : Fin 1) i' d'))
      = headAt (V c main_v20) (hd t) := by
  funext i' d'
  show V c main_v20 (((cfg1.win 2).blk t).view.emb (ix3 (0 : Fin 1) i' d')) = V c main_v20 (ix3 (hd t) i' d')
  rw [emb2]
  rfl

/-- WHAT POINT `t` WRITES BACK is block `t` of `outArr`. -/
theorem flushed_eq (c : Dev nD) (t : Fin cfg1.N) :
    (dat1 V c).flushed 3 t = ((cfg1.win 3).blk t).view.read (Elt Ideal) (outArr V c) := by
  show (cfg1.win 3).cut (grid1.coords t) ((dat1 V c).after 3 t) = _
  rw [after1_3]
  unfold out1_3
  rw [View.canon_unit_zero hz]
  simp only [View.ld_unit_zero (S := S1x128x64) hz]
  show (k1_pay1 (iblk1 V c 0 t) (iblk1 V c 1 t) (iblk1 V c 2 t) : S1x128x64.Idx → EReal)
      = fun y : S1x128x64.Idx => outArr V c (((cfg1.win 3).blk t).view.emb y)
  funext y
  obtain ⟨u, i, d, rfl⟩ : ∃ (u : Fin 1) (i : Fin 128) (d : Fin 64), y = ix3 u i d := ⟨y 0, y 1, y 2, eq_ix3 y⟩
  rw [emb3 t (ix3 u i d)]
  refine (pay_apply (iblk1 V c 0 t) (iblk1 V c 1 t) (iblk1 V c 2 t) u i d).trans ?_
  rw [iblk0_eq, iblk1_eq, iblk2_eq]
  rfl

/-- Every index `(bh, i, d)` of the output array is in block `bh`. -/
theorem cover (i : S768x128x64.Idx) :
    ∃ t : Fin cfg1.N, (cfg1.win 3).flush t = true ∧ i ∈ ((cfg1.win 3).blk t).view.set := by
  have h0 : (i 0).val < 768 := (i 0).isLt
  have h1 : (i 1).val < 128 := (i 1).isLt
  have h2 : (i 2).val < 64 := (i 2).isLt
  have ht : (i 0).val < cfg1.N := by rw [show cfg1.N = 768 from N_1]; exact h0
  obtain ⟨-, -, -, e0, e1, e2⟩ := idx_facts ⟨(i 0).val, ht⟩
  have e0' : win1_3.index ⟨(i 0).val, ht⟩ (0 : Fin 3) = (i 0).val := e0
  refine ⟨⟨(i 0).val, ht⟩, flush1_3 _, ?_⟩
  show i ∈ ((View.whole main_v21).slice (win1_3.rect ⟨(i 0).val, ht⟩)).set
  rw [View.set_slice_whole, Rect.mem_set_unit]
  intro a
  match a with
  | ⟨0, _⟩ =>
    show win1_3.index ⟨(i 0).val, ht⟩ (0 : Fin 3) * 1 ≤ (i 0).val ∧ (i 0).val < win1_3.index ⟨(i 0).val, ht⟩ (0 : Fin 3) * 1 + 1
    omega
  | ⟨1, _⟩ =>
    show win1_3.index ⟨(i 0).val, ht⟩ (1 : Fin 3) * 128 ≤ (i 1).val ∧ (i 1).val < win1_3.index ⟨(i 0).val, ht⟩ (1 : Fin 3) * 128 + 128
    omega
  | ⟨2, _⟩ =>
    show win1_3.index ⟨(i 0).val, ht⟩ (2 : Fin 3) * 64 ≤ (i 2).val ∧ (i 2).val < win1_3.index ⟨(i 0).val, ht⟩ (2 : Fin 3) * 64 + 64
    omega

/-- THE ARRAY after the region: `outArr`. -/
theorem final (c : Dev nD) : (dat1 V c).arrAt 3 cfg1.N = outArr V c :=
  (dat1 V c).arrAt_eq_of_cover 3 (outArr V c) (fun t _ => flushed_eq V c t) cover

/-- The attention output (window 3) at block `bh`, row `i`, coordinate `d`: inputs are windows 0, 1, 2 (query, key, value blocks). -/
theorem arr3 (c : Dev nD) (bh : Fin 768) (i : Fin 128) (d : Fin 64) :
    (dat1 V c).arrAt 3 cfg1.N (ix3 bh i d)
      = Cert.Spec.headR (fun i' d' => V c main_v14 (ix3 bh i' d')) (fun i' d' => V c main_v17 (ix3 bh i' d'))
          (fun i' d' => V c main_v20 (ix3 bh i' d')) i d := by
  rw [final]
  rfl

end Cert.ReferenceIdeal.RReg1

end
-- ==== Proof.RReg2.lean ====
/-
  The third region of the three-stage program, read: row `r` of its output array is the output row of context row `r`
  and residual row `r`.
-/
import proofs.«136720_g2000702396236789_pallasbulk_1056_14_alg».proof.Proof.Gen.ReferenceIdeal.Frame
import proofs.«136720_g2000702396236789_pallasbulk_1056_14_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RReg2

open Idealize.ShloMosaic Idealize.ShloMosaic.ValueIdx Idealize.ShloMosaic.TcCoe Idealize.SL.Sem Cert.ReferenceIdeal Cert.ReferenceIdeal.Gen

/-! ## The keepdims column forms read at an index -/

/-- A vector `[a]` cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The dense layer's product read at an index: the weight is stored (in, out) -/

theorem lhs_dense_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch from List.not_mem_nil),
    dif_pos (show (0 : Fin S512x768.rank) ∈ dot_S512x768_S768x768_S512x768_1_0_0_1_n_n.lhsNonContracting from List.mem_singleton.mpr rfl)]
  rfl

theorem lhs_dense_1 (i : S512x768.Idx) (q : dot_S512x768_S768x768_S512x768_1_0_0_1_n_n.contr.Idx) :
    (dot_S512x768_S768x768_S512x768_1_0_0_1_n_n.lhsIdx i q 1).val = (q ⟨0, (show (0 : ℕ) < 1 from Nat.one_pos)⟩).val :=
  dot_S512x768_S768x768_S512x768_1_0_0_1_n_n.lhsIdx_val_of_single rfl i q

theorem rhs_dense_0 (i : S512x768.Idx) (q : dot_S512x768_S768x768_S512x768_1_0_0_1_n_n.contr.Idx) :
    (dot_S512x768_S768x768_S512x768_1_0_0_1_n_n.rhsIdx i q 0).val = (q ⟨0, (show (0 : ℕ) < 1 from Nat.one_pos)⟩).val :=
  dot_S512x768_S768x768_S512x768_1_0_0_1_n_n.rhsIdx_val_of_single rfl i q

theorem rhs_dense_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch from List.not_mem_nil),
    dif_pos (show (1 : Fin S768x768.rank) ∈ dot_S512x768_S768x768_S512x768_1_0_0_1_n_n.rhsNonContracting from List.mem_singleton.mpr rfl)]
  rfl

/-- The product of the context rows with the (in, out) weight, into zero: entry (`p`, `o`) is `Σ_c x[p, c] · w[c, o]`. -/
theorem dense_matmul_apply (x : FVec Ideal S512x768 .f32) (w : FVec Ideal S768x768 .f32) (p : Fin 512) (o : Fin 768) :
    matmul dot_S512x768_S768x768_S512x768_1_0_0_1_n_n none x w (constant S512x768 .f32 0x00000000#32) (ix2 p o)
      = ∑ c : Fin 768, x (ix2 p c) * w (ix2 c o) := by
  simp only [matmul]
  rw [Ideal.matmul_constant_zero_apply, ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 p o)
      ((contrEquiv1 dot_S512x768_S768x768_S512x768_1_0_0_1_n_n 768 rfl rfl).symm k) = ix2 p k := funext fun a => Fin.ext (by
    match a with
    | ⟨0, _⟩ => exact lhs_dense_0 _ _
    | ⟨1, _⟩ => exact (lhs_dense_1 _ _).trans hk)
  have er : dot_S512x768_S768x768_S512x768_1_0_0_1_n_n.rhsIdx (ix2 p o)
      ((contrEquiv1 dot_S512x768_S768x768_S512x768_1_0_0_1_n_n 768 rfl rfl).symm k) = ix2 k o := funext fun a => Fin.ext (by
    match a with
    | ⟨0, _⟩ => exact (rhs_dense_0 _ _).trans hk
    | ⟨1, _⟩ => exact rhs_dense_1 _ _)
  rw [el, er]

/-! ## A row sum read at an index -/

/-- The sum over the 768 lanes, kept as a column: entry (`p`, `u`) is `Σ_o h[p, o]`. -/
theorem rowSum_apply (h : FVec Ideal S512x768 .f32) (p : Fin 512) (u : Fin 1) :
    shapeCast S512x1 (multiReduction .add [1] S512 h 0x00000000#32 Gen.reduces_S512x768_S512 (.inl rfl) rfl) Gen.shapeCasts_S512_S512x1 (ix2 p u)
      = ∑ o : Fin 768, h (ix2 p o) := by
  rw [shapeCast_a_a1_apply]
  refine (Ideal.multiReduction_add_single h _ Gen.reduces_S512x768_S512 (.inl rfl) rfl (ix1 p)).trans ?_
  refine Finset.sum_congr rfl fun k _ => congrArg h (funext fun a => Fin.ext ?_)
  match a with
  | ⟨0, _⟩ => rfl
  | ⟨1, _⟩ => rfl

/-! ## The block's payload in four stages, each read at an index -/

/-- The dense layer on a 512-row block, plus the bias row, plus the residual rows. -/
def denseB (v0 : FVec Ideal S512x768 .f32) (v2 : FVec Ideal S768x768 .f32) (v5 : FVec Ideal S1x768 .f32) (v9 : FVec Ideal S512x768 .f32) :
    FVec Ideal S512x768 .f32 :=
  addf (addf
      (matmul dot_S512x768_S768x768_S512x768_1_0_0_1_n_n none (shapeCast S512x768 v0 Gen.shapeCasts_S512x768_S512x768)
        (shapeCast S768x768 v2 Gen.shapeCasts_S768x768_S768x768) (constant S512x768 .f32 0x00000000#32))
      (broadcastTo S512x768 (shapeCast S1x768 v5 Gen.shapeCasts_S1x768_S1x768) Gen.broadcasts_S1x768_S512x768))
    (shapeCast S512x768 v9 Gen.shapeCasts_S512x768_S512x768)

/-- Rows centred at their means. -/
def cenB (h : FVec Ideal S512x768 .f32) : FVec Ideal S512x768 .f32 :=
  subf h (broadcastTo S512x768
    (divf (shapeCast S512x1 (multiReduction .add [1] S512 h 0x00000000#32 Gen.reduces_S512x768_S512 (.inl rfl) rfl) Gen.shapeCasts_S512_S512x1)
      (broadcast S512x1 (Scalar.ofBits .f32 0x44400000#32)))
    Gen.broadcasts_S512x1_S512x768)

/-- `1/√(var + ε)` of centred rows. -/
def rstdB (c : FVec Ideal S512x768 .f32) : FVec Ideal S512x1 .f32 :=
  rsqrt (addf
    (divf (shapeCast S512x1 (multiReduction .add [1] S512 (mulf c c) 0x00000000#32 Gen.reduces_S512x768_S512 (.inl rfl) rfl) Gen.shapeCasts_S512_S512x1)
      (broadcast S512x1 (Scalar.ofBits .f32 0x44400000#32)))
    (broadcast S512x1 (Scalar.ofBits .f32 0x2B8CBCCC#32)))

/-- The normalised rows through the affine map. -/
def affB (c : FVec Ideal S512x768 .f32) (r : FVec Ideal S512x1 .f32) (g be : FVec Ideal S1x768 .f32) : FVec Ideal S512x768 .f32 :=
  addf (mulf (mulf c (broadcastTo S512x768 r Gen.broadcasts_S512x1_S512x768))
      (broadcastTo S512x768 (shapeCast S1x768 g Gen.shapeCasts_S1x768_S1x768) Gen.broadcasts_S1x768_S512x768))
    (broadcastTo S512x768 (shapeCast S1x768 be Gen.shapeCasts_S1x768_S1x768) Gen.broadcasts_S1x768_S512x768)

/-- The payload is the four stages composed. -/
theorem pay_eq (v0 : FVec Ideal S512x768 .f32) (v2 : FVec Ideal S768x768 .f32) (v5 : FVec Ideal S1x768 .f32) (v9 : FVec Ideal S512x768 .f32)
    (v28 v32 : FVec Ideal S1x768 .f32) :
    k2_pay1 (F := Ideal) v0 v2 v5 v9 v28 v32
      = affB (cenB (denseB v0 v2 v5 v9)) (rstdB (cenB (denseB v0 v2 v5 v9))) v28 v32 := rfl

theorem denseB_apply (v0 : FVec Ideal S512x768 .f32) (v2 : FVec Ideal S768x768 .f32) (v5 : FVec Ideal S1x768 .f32) (v9 : FVec Ideal S512x768 .f32)
    (p : Fin 512) (o : Fin 768) :
    denseB v0 v2 v5 v9 (ix2 p o) = ((∑ c : Fin 768, v0 (ix2 p c) * v2 (ix2 c o)) + v5 (ix2 0 o)) + v9 (ix2 p o) := by
  unfold denseB
  rw [addf_apply, addf_apply, shapeCast_self, shapeCast_self, shapeCast_self, shapeCast_self, dense_matmul_apply, broadcastTo_1b_ab_apply]

theorem cenB_apply (h : FVec Ideal S512x768 .f32) (p : Fin 512) (o : Fin 768) :
    cenB h (ix2 p o) = h (ix2 p o) - Ideal.div (∑ o' : Fin 768, h (ix2 p o')) Cert.Spec.n768 := by
  unfold cenB
  rw [subf_apply, broadcastTo_a1_ab_apply, divf_apply, rowSum_apply, broadcast_apply]
  rfl

theorem rstdB_apply (c : FVec Ideal S512x768 .f32) (p : Fin 512) (u : Fin 1) :
    rstdB c (ix2 p u)
      = Ideal.rsqrt (Ideal.div (∑ o' : Fin 768, c (ix2 p o') * c (ix2 p o')) Cert.Spec.n768 + Cert.Spec.eps) := by
  unfold rstdB
  show Ideal.rsqrt _ = _
  rw [addf_apply, divf_apply, rowSum_apply, broadcast_apply, broadcast_apply]
  rfl

theorem affB_apply (c : FVec Ideal S512x768 .f32) (r : FVec Ideal S512x1 .f32) (g be : FVec Ideal S1x768 .f32) (p : Fin 512) (o : Fin 768) :
    affB c r g be (ix2 p o) = c (ix2 p o) * r (ix2 p (0 : Fin 1)) * g (ix2 0 o) + be (ix2 0 o) := by
  unfold affB
  rw [addf_apply, mulf_apply, mulf_apply, shapeCast_self, shapeCast_self, broadcastTo_a1_ab_apply, broadcastTo_1b_ab_apply,
    broadcastTo_1b_ab_apply]

/-- The payload at (`p`, `o`): the output row of the block's context row `p` and residual row `p`. -/
theorem pay_apply (v0 : FVec Ideal S512x768 .f32) (v2 : FVec Ideal S768x768 .f32) (v5 : FVec Ideal S1x768 .f32) (v9 : FVec Ideal S512x768 .f32)
    (v28 v32 : FVec Ideal S1x768 .f32) (p : Fin 512) (o : Fin 768) :
    k2_pay1 (F := Ideal) v0 v2 v5 v9 v28 v32 (ix2 p o)
      = Cert.Spec.outRow (fun c' => v0 (ix2 p c')) (fun c' => v9 (ix2 p c')) (fun o' c' => v2 (ix2 c' o'))
          (fun o' => v5 (ix2 0 o')) (fun o' => v28 (ix2 0 o')) (fun o' => v32 (ix2 0 o')) o := by
  rw [pay_eq, affB_apply, rstdB_apply]
  simp only [cenB_apply, denseB_apply]
  rfl

/-! ## From the blocks to the array -/

section Region

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The payload at any index of the block. -/
theorem pay_idx (v0 : FVec Ideal S512x768 .f32) (v2 : FVec Ideal S768x768 .f32) (v5 : FVec Ideal S1x768 .f32) (v9 : FVec Ideal S512x768 .f32)
    (v28 v32 : FVec Ideal S1x768 .f32) (j : S512x768.Idx) :
    k2_pay1 (F := Ideal) v0 v2 v5 v9 v28 v32 j
      = Cert.Spec.outRow (fun c' => v0 (ix2 (j 0) c')) (fun c' => v9 (ix2 (j 0) c')) (fun o' c' => v2 (ix2 c' o'))
          (fun o' => v5 (ix2 0 o')) (fun o' => v28 (ix2 0 o')) (fun o' => v32 (ix2 0 o')) (j 1) := by
  obtain ⟨p, q, rfl⟩ : ∃ (p : Fin 512) (q : Fin 768), j = ix2 p q := ⟨j 0, j 1, eq_ix2 j⟩
  exact pay_apply v0 v2 v5 v9 v28 v32 p q

/-- The whole output array as one function of the arrays the region finds: row `r` is the output row of context row `r`
    and residual row `r`. -/
def G6 (c : Dev nD) : S8192x768.Idx → Elt Ideal .f32 := fun j =>
  Cert.Spec.outRow (fun c' => V c main_v24 (ix2 (j 0) c')) (fun c' => V c main_v0 (ix2 (j 0) c')) (fun o' c' => V c main_v4 (ix2 c' o'))
    (fun o' => V c main_v8 (ix2 0 o')) (fun o' => V c main_v9 (ix2 0 o')) (fun o' => V c main_v10 (ix2 0 o')) (j 1)

/-- The windows' index maps over the sixteen points: the row windows sit at block `t`, every other window at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A context-rows block at (`p`, `c'`) is the array at row `512 t + p`. -/
theorem iblk_0_apply (c : Dev nD) (t : Fin cfg2.N) (p : Fin 512) (c' : Fin 768) (k : Fin 8192) (hk : k.val = t.val * 512 + p.val) :
    (iblk2 V c 0 t : FVec Ideal S512x768 .f32) (ix2 p c') = V c main_v24 (ix2 k c') := by
  obtain ⟨e0, e1, -⟩ := idx_facts t
  unfold iblk2
  rw [View.read_apply]
  show V c main_v24 _ = V c main_v24 _
  congr 1
  funext a
  apply Fin.ext
  match a with
  | ⟨0, _⟩ => show win2_0.index t (0 : Fin 2) * 512 + 1 * p.val = k.val; rw [e0, hk]; omega
  | ⟨1, _⟩ => show win2_0.index t (1 : Fin 2) * 768 + 1 * c'.val = c'.val; rw [e1]; omega

/-- A residual-rows block at (`p`, `c'`) is the array at row `512 t + p`. -/
theorem iblk_1_apply (c : Dev nD) (t : Fin cfg2.N) (p : Fin 512) (c' : Fin 768) (k : Fin 8192) (hk : k.val = t.val * 512 + p.val) :
    (iblk2 V c 1 t : FVec Ideal S512x768 .f32) (ix2 p c') = V c main_v0 (ix2 k c') := by
  obtain ⟨-, -, e0, e1, -⟩ := idx_facts t
  unfold iblk2
  rw [View.read_apply]
  show V c main_v0 _ = V c main_v0 _
  congr 1
  funext a
  apply Fin.ext
  match a with
  | ⟨0, _⟩ => show win2_1.index t (0 : Fin 2) * 512 + 1 * p.val = k.val; rw [e0, hk]; omega
  | ⟨1, _⟩ => show win2_1.index t (1 : Fin 2) * 768 + 1 * c'.val = c'.val; rw [e1]; omega

/-- The weight's block is the whole weight. -/
theorem iblk_2_apply (c : Dev nD) (t : Fin cfg2.N) (a b : Fin 768) :
    (iblk2 V c 2 t : FVec Ideal S768x768 .f32) (ix2 a b) = V c main_v4 (ix2 a b) := by
  obtain ⟨-, -, -, -, e0, e1, -⟩ := idx_facts t
  unfold iblk2
  rw [View.read_apply]
  show V c main_v4 _ = V c main_v4 _
  congr 1
  funext x
  apply Fin.ext
  match x with
  | ⟨0, _⟩ => show win2_2.index t (0 : Fin 2) * 768 + 1 * a.val = a.val; rw [e0]; omega
  | ⟨1, _⟩ => show win2_2.index t (1 : Fin 2) * 768 + 1 * b.val = b.val; rw [e1]; omega

/-- The bias row's block is the whole row. -/
theorem iblk_3_apply (c : Dev nD) (t : Fin cfg2.N) (u : Fin 1) (b : Fin 768) :
    (iblk2 V c 3 t : FVec Ideal S1x768 .f32) (ix2 u b) = V c main_v8 (ix2 u b) := by
  obtain ⟨-, -, -, -, -, -, e0, e1, -⟩ := idx_facts t
  unfold iblk2
  rw [View.read_apply]
  show V c main_v8 _ = V c main_v8 _
  congr 1
  funext x
  apply Fin.ext
  match x with
  | ⟨0, _⟩ => show win2_3.index t (0 : Fin 2) * 1 + 1 * u.val = u.val; rw [e0]; omega
  | ⟨1, _⟩ => show win2_3.index t (1 : Fin 2) * 768 + 1 * b.val = b.val; rw [e1]; omega

/-- The scale row's block is the whole row. -/
theorem iblk_4_apply (c : Dev nD) (t : Fin cfg2.N) (u : Fin 1) (b : Fin 768) :
    (iblk2 V c 4 t : FVec Ideal S1x768 .f32) (ix2 u b) = V c main_v9 (ix2 u b) := by
  obtain ⟨-, -, -, -, -, -, -, -, e0, e1, -⟩ := idx_facts t
  unfold iblk2
  rw [View.read_apply]
  show V c main_v9 _ = V c main_v9 _
  congr 1
  funext x
  apply Fin.ext
  match x with
  | ⟨0, _⟩ => show win2_4.index t (0 : Fin 2) * 1 + 1 * u.val = u.val; rw [e0]; omega
  | ⟨1, _⟩ => show win2_4.index t (1 : Fin 2) * 768 + 1 * b.val = b.val; rw [e1]; omega

/-- The shift row's block is the whole row. -/
theorem iblk_5_apply (c : Dev nD) (t : Fin cfg2.N) (u : Fin 1) (b : Fin 768) :
    (iblk2 V c 5 t : FVec Ideal S1x768 .f32) (ix2 u b) = V c main_v10 (ix2 u b) := by
  obtain ⟨-, -, -, -, -, -, -, -, -, -, e0, e1, -⟩ := idx_facts t
  unfold iblk2
  rw [View.read_apply]
  show V c main_v10 _ = V c main_v10 _
  congr 1
  funext x
  apply Fin.ext
  match x with
  | ⟨0, _⟩ => show win2_5.index t (0 : Fin 2) * 1 + 1 * u.val = u.val; rw [e0]; omega
  | ⟨1, _⟩ => show win2_5.index t (1 : Fin 2) * 768 + 1 * b.val = b.val; rw [e1]; omega

/-- What point `t` writes back is block `t` of `G6`. -/
theorem flushed6_eq (c : Dev nD) (t : Fin cfg2.N) :
    (dat2 V c).flushed 6 t = ((cfg2.win 6).blk t).view.read (Elt Ideal) (G6 V c) := by
  show (cfg2.win 6).cut (grid2.coords t) ((dat2 V c).after 6 t) = _
  rw [after2_6]
  unfold out2_6
  rw [View.canon_unit_zero hz]
  simp only [View.ld_unit_zero (S := S512x768) hz, View.ld_unit_zero (S := S768x768) hz, View.ld_unit_zero (S := S1x768) hz]
  obtain ⟨-, -, -, -, -, -, -, -, -, -, -, -, e0, e1⟩ := idx_facts t
  funext j
  show k2_pay1 (F := Ideal) (iblk2 V c 0 t) (iblk2 V c 2 t) (iblk2 V c 3 t) (iblk2 V c 1 t) (iblk2 V c 4 t) (iblk2 V c 5 t) j
    = G6 V c (((cfg2.win 6).blk t).view.emb j)
  have hN : cfg2.N = 16 := N_2
  have ht : t.val < 16 := hN ▸ t.isLt
  have hj0 : (j 0).val < 512 := (j 0).isLt
  have hr : (((cfg2.win 6).blk t).view.emb j (0 : Fin 2)).val = t.val * 512 + (j 0).val := by
    show win2_6.index t (0 : Fin 2) * 512 + 1 * (j 0).val = _
    rw [e0]; omega
  have hc : ((cfg2.win 6).blk t).view.emb j (1 : Fin 2) = j 1 := Fin.ext (by
    show win2_6.index t (1 : Fin 2) * 768 + 1 * (j 1).val = (j 1).val
    rw [e1]; omega)
  refine (pay_idx _ _ _ _ _ _ j).trans ?_
  unfold G6
  rw [hc]
  congr 1
  · funext c'; exact iblk_0_apply V c t (j 0) c' _ hr
  · funext c'; exact iblk_1_apply V c t (j 0) c' _ hr
  · funext o' c'; exact iblk_2_apply V c t c' o'
  · funext o'; exact iblk_3_apply V c t 0 o'
  · funext o'; exact iblk_4_apply V c t 0 o'
  · funext o'; exact iblk_5_apply V c t 0 o'

/-- The array after the region: `G6` everywhere, the sixteen blocks of 512 rows covering the 8192. -/
theorem final6 (c : Dev nD) : (dat2 V c).arrAt 6 cfg2.N = G6 V c :=
  (dat2 V c).arrAt_eq_of_cover 6 (G6 V c) (fun t _ => flushed6_eq V c t) fun i => by
    have hN : cfg2.N = 16 := N_2
    have hi0 : (i 0).val < 8192 := (i 0).isLt
    have hi1 : (i 1).val < 768 := (i 1).isLt
    let t : Fin cfg2.N := ⟨(i 0).val / 512, by rw [hN]; omega⟩
    obtain ⟨-, -, -, -, -, -, -, -, -, -, -, -, e0, e1⟩ := idx_facts t
    have htv : t.val = (i 0).val / 512 := rfl
    refine ⟨t, flush2_6 t, ?_⟩
    show i ∈ ((View.whole main_v25).slice (win2_6.rect t)).set
    rw [View.set_slice_whole, Rect.mem_set_unit]
    intro a
    match a with
    | ⟨0, _⟩ =>
      show win2_6.index t (0 : Fin 2) * 512 ≤ (i 0).val ∧ (i 0).val < win2_6.index t (0 : Fin 2) * 512 + 512
      rw [e0, htv]; omega
    | ⟨1, _⟩ =>
      show win2_6.index t (1 : Fin 2) * 768 ≤ (i 1).val ∧ (i 1).val < win2_6.index t (1 : Fin 2) * 768 + 768
      rw [e1]; omega

end Region

variable [Facts]
open Facts₀ Facts

-- the buffer contents when the region is entered: a parameter, as in the generated frame
variable (V : (c : Dev nD) → (b : Ref sig .tc) → Buf (Elt Ideal) ((c : Thread nD τ).loc b))

/-- The block's output (window 6) at row `r`, column `o`: inputs are windows 0 (context rows), 1 (residual rows),
    2 (output weight, stored (in, out)), 3, 4, 5 (bias, scale and shift rows). -/
theorem arr6 (c : Dev nD) (r : Fin 8192) (o : Fin 768) :
    (dat2 V c).arrAt 6 cfg2.N (ix2 r o)
      = Cert.Spec.outRow (fun c' => V c main_v24 (ix2 r c')) (fun c' => V c main_v0 (ix2 r c')) (fun o' c' => V c main_v4 (ix2 c' o'))
          (fun o' => V c main_v8 (ix2 0 o')) (fun o' => V c main_v9 (ix2 0 o')) (fun o' => V c main_v10 (ix2 0 o')) o := by
  exact congrFun (final6 V c) (ix2 r o)

end Cert.ReferenceIdeal.RReg2

end
-- ==== Proof.RHostA.lean ====
/-
  The host operations of the three-stage program before its first region and between its first and second, read at an
  index; and the arrays the third region reads that nothing in between writes.
-/
import proofs.«136720_g2000702396236789_pallasbulk_1056_14_alg».proof.Proof.Gen.ReferenceIdeal.Frame
import proofs.«136720_g2000702396236789_pallasbulk_1056_14_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.ReferenceIdeal.RHostA

open Idealize.ShloMosaic Idealize.ShloMosaic.ValueIdx Idealize.ShloMosaic.TcCoe Idealize.SL.Sem Cert.ReferenceIdeal Cert.ReferenceIdeal.Gen

variable [Facts]
open Facts₀ Facts

variable (m : (ℓ : Loc nD τ sig) → Buf (Elt Ideal) ℓ) (ρ : Dev nD → PrngReg)

/-! ## Before the first region: the reshaped input, the transposed weights, the bias rows -/

theorem V1_v0 (c : Dev nD) (b : Fin 64) (s : Fin 128) (i : Fin 768) :
    V1 m ρ c main_v0 (ix2 (Cert.Spec.row b s) i) = m ((c.tc : Thread nD τ).loc main_arg0) (ix3 b s i) := by
  -- the reshaped input is the launch input recast, row-major
  have e : (V1 m ρ c main_v0 : S8192x768.Idx → EReal)
      = shapeCast S8192x768 (m ((c.tc : Thread nD τ).loc main_arg0) : S64x128x768.Idx → EReal) Gen.shapeCasts_S64x128x768_S8192x768 := by
    show StableHlo.after hostOps0 _ (Proc.devRef .tc main_v0) = _
    after_results
    rfl
  rw [e]
  -- row b·128 + s, column i of the 8192 × 768 array sits at the row-major position of (b, s, i)
  exact shapeCast_apply _ _ _ _ (by
    show (S64x128x768.rowMajor (ix3 b s i)).val = (S8192x768.rowMajor (ix2 (Cert.Spec.row b s) i)).val
    rw [Shape.rowMajor_val_three, Shape.rowMajor_val_two]
    rfl)
theorem V1_v1 (c : Dev nD) (i o : Fin 768) : V1 m ρ c main_v1 (ix2 i o) = m ((c.tc : Thread nD τ).loc main_arg1) (ix2 o i) := by
  have e : (V1 m ρ c main_v1 : S768x768.Idx → EReal)
      = transpose S768x768 [1, 0] (m ((c.tc : Thread nD τ).loc main_arg1) : S768x768.Idx → EReal) Gen.transposes_S768x768_S768x768_1_0 := by
    show StableHlo.after hostOps0 _ (Proc.devRef .tc main_v1) = _
    after_results
  rw [e]
  exact transpose_ix2_apply _ _ i o
theorem V1_v2 (c : Dev nD) (i o : Fin 768) : V1 m ρ c main_v2 (ix2 i o) = m ((c.tc : Thread nD τ).loc main_arg2) (ix2 o i) := by
  have e : (V1 m ρ c main_v2 : S768x768.Idx → EReal)
      = transpose S768x768 [1, 0] (m ((c.tc : Thread nD τ).loc main_arg2) : S768x768.Idx → EReal) Gen.transposes_S768x768_S768x768_1_0 := by
    show StableHlo.after hostOps0 _ (Proc.devRef .tc main_v2) = _
    after_results
  rw [e]
  exact transpose_ix2_apply _ _ i o
theorem V1_v3 (c : Dev nD) (i o : Fin 768) : V1 m ρ c main_v3 (ix2 i o) = m ((c.tc : Thread nD τ).loc main_arg3) (ix2 o i) := by
  have e : (V1 m ρ c main_v3 : S768x768.Idx → EReal)
      = transpose S768x768 [1, 0] (m ((c.tc : Thread nD τ).loc main_arg3) : S768x768.Idx → EReal) Gen.transposes_S768x768_S768x768_1_0 := by
    show StableHlo.after hostOps0 _ (Proc.devRef .tc main_v3) = _
    after_results
  rw [e]
  exact transpose_ix2_apply _ _ i o
theorem V1_v4 (c : Dev nD) (i o : Fin 768) : V1 m ρ c main_v4 (ix2 i o) = m ((c.tc : Thread nD τ).loc main_arg4) (ix2 o i) := by
  have e : (V1 m ρ c main_v4 : S768x768.Idx → EReal)
      = transpose S768x768 [1, 0] (m ((c.tc : Thread nD τ).loc main_arg4) : S768x768.Idx → EReal) Gen.transposes_S768x768_S768x768_1_0 := by
    show StableHlo.after hostOps0 _ (Proc.devRef .tc main_v4) = _
    after_results
  rw [e]
  exact transpose_ix2_apply _ _ i o
theorem V1_v5 (c : Dev nD) (o : Fin 768) : V1 m ρ c main_v5 (ix2 0 o) = m ((c.tc : Thread nD τ).loc main_arg5) (ix1 o) := by
  have e : (V1 m ρ c main_v5 : S1x768.Idx → EReal)
      = shapeCast S1x768 (m ((c.tc : Thread nD τ).loc main_arg5) : S768.Idx → EReal) Gen.shapeCasts_S768_S1x768 := by
    show StableHlo.after hostOps0 _ (Proc.devRef .tc main_v5) = _
    after_results
    rfl
  rw [e]
  exact shapeCast_a_1a_apply _ _ 0 o
theorem V1_v6 (c : Dev nD) (o : Fin 768) : V1 m ρ c main_v6 (ix2 0 o) = m ((c.tc : Thread nD τ).loc main_arg6) (ix1 o) := by
  have e : (V1 m ρ c main_v6 : S1x768.Idx → EReal)
      = shapeCast S1x768 (m ((c.tc : Thread nD τ).loc main_arg6) : S768.Idx → EReal) Gen.shapeCasts_S768_S1x768 := by
    show StableHlo.after hostOps0 _ (Proc.devRef .tc main_v6) = _
    after_results
    rfl
  rw [e]
  exact shapeCast_a_1a_apply _ _ 0 o
theorem V1_v7 (c : Dev nD) (o : Fin 768) : V1 m ρ c main_v7 (ix2 0 o) = m ((c.tc : Thread nD τ).loc main_arg7) (ix1 o) := by
  have e : (V1 m ρ c main_v7 : S1x768.Idx → EReal)
      = shapeCast S1x768 (m ((c.tc : Thread nD τ).loc main_arg7) : S768.Idx → EReal) Gen.shapeCasts_S768_S1x768 := by
    show StableHlo.after hostOps0 _ (Proc.devRef .tc main_v7) = _
    after_results
    rfl
  rw [e]
  exact shapeCast_a_1a_apply _ _ 0 o
theorem V1_v8 (c : Dev nD) (o : Fin 768) : V1 m ρ c main_v8 (ix2 0 o) = m ((c.tc : Thread nD τ).loc main_arg8) (ix1 o) := by
  have e : (V1 m ρ c main_v8 : S1x768.Idx → EReal)
      = shapeCast S1x768 (m ((c.tc : Thread nD τ).loc main_arg8) : S768.Idx → EReal) Gen.shapeCasts_S768_S1x768 := by
    show StableHlo.after hostOps0 _ (Proc.devRef .tc main_v8) = _
    after_results
    rfl
  rw [e]
  exact shapeCast_a_1a_apply _ _ 0 o
theorem V1_v9 (c : Dev nD) (o : Fin 768) : V1 m ρ c main_v9 (ix2 0 o) = m ((c.tc : Thread nD τ).loc main_arg9) (ix1 o) := by
  have e : (V1 m ρ c main_v9 : S1x768.Idx → EReal)
      = shapeCast S1x768 (m ((c.tc : Thread nD τ).loc main_arg9) : S768.Idx → EReal) Gen.shapeCasts_S768_S1x768 := by
    show StableHlo.after hostOps0 _ (Proc.devRef .tc main_v9) = _
    after_results
    rfl
  rw [e]
  exact shapeCast_a_1a_apply _ _ 0 o
theorem V1_v10 (c : Dev nD) (o : Fin 768) : V1 m ρ c main_v10 (ix2 0 o) = m ((c.tc : Thread nD τ).loc main_arg10) (ix1 o) := by
  have e : (V1 m ρ c main_v10 : S1x768.Idx → EReal)
      = shapeCast S1x768 (m ((c.tc : Thread nD τ).loc main_arg10) : S768.Idx → EReal) Gen.shapeCasts_S768_S1x768 := by
    show StableHlo.after hostOps0 _ (Proc.devRef .tc main_v10) = _
    after_results
    rfl
  rw [e]
  exact shapeCast_a_1a_apply _ _ 0 o

/-! ## Between the first and second regions: the heads split out (reshape, transpose, reshape) -/

theorem V3_v14 (c : Dev nD) (b : Fin 64) (h : Fin 12) (i : Fin 128) (d : Fin 64) :
    V3 m ρ c main_v14 (ix3 ⟨b.val * 12 + h.val, by have := b.isLt; have := h.isLt; omega⟩ i d)
      = W2 m ρ c (Proc.devRef .tc main_v11_0) (ix2 (Cert.Spec.row b i) (Cert.Spec.col h d)) := by
  -- the array is the first region's result recast to (batch, position, head, coordinate), the two middle axes
  -- exchanged, and recast with batch and head merged
  have e : (V3 m ρ c main_v14 : S768x128x64.Idx → EReal)
      = shapeCast S768x128x64
          (transpose S64x12x128x64 [0, 2, 1, 3]
            (shapeCast S64x128x12x64 (W2 m ρ c (Proc.devRef .tc main_v11_0) : S8192x768.Idx → EReal)
              Gen.shapeCasts_S8192x768_S64x128x12x64)
            Gen.transposes_S64x128x12x64_S64x12x128x64_0_2_1_3)
          Gen.shapeCasts_S64x12x128x64_S768x128x64 := by
    show StableHlo.after hostOps1 _ (Proc.devRef .tc main_v14) = _
    after_results
    rfl
  rw [e]
  -- (b·12 + h, i, d) of 768 × 128 × 64 is (b, h, i, d) of 64 × 12 × 128 × 64
  refine (shapeCast_apply _ _ _ (ix4 b h i d) ?_).trans ?_
  · show (S64x12x128x64.rowMajor (ix4 b h i d)).val
      = (S768x128x64.rowMajor (ix3 ⟨b.val * 12 + h.val, by have := b.isLt; have := h.isLt; omega⟩ i d)).val
    rw [Shape.rowMajor_val_four, Shape.rowMajor_val_three]
    rfl
  -- which the exchange of the middle axes reads at (b, i, h, d)
  refine (transpose_apply _ _ _ _ (ix4 b i h d) fun a => match a with
    | ⟨0, _⟩ => rfl | ⟨1, _⟩ => rfl | ⟨2, _⟩ => rfl | ⟨3, _⟩ => rfl).trans ?_
  -- which is row b·128 + i, column h·64 + d of 8192 × 768
  exact shapeCast_apply _ _ _ (ix2 (Cert.Spec.row b i) (Cert.Spec.col h d)) (by
    show (S8192x768.rowMajor (ix2 (Cert.Spec.row b i) (Cert.Spec.col h d))).val = (S64x128x12x64.rowMajor (ix4 b i h d)).val
    rw [Shape.rowMajor_val_two, Shape.rowMajor_val_four]
    show (b.val * 128 + i.val) * 768 + (h.val * 64 + d.val) = ((b.val * 128 + i.val) * 12 + h.val) * 64 + d.val
    omega)
theorem V3_v17 (c : Dev nD) (b : Fin 64) (h : Fin 12) (i : Fin 128) (d : Fin 64) :
    V3 m ρ c main_v17 (ix3 ⟨b.val * 12 + h.val, by have := b.isLt; have := h.isLt; omega⟩ i d)
      = W2 m ρ c (Proc.devRef .tc main_v11_1) (ix2 (Cert.Spec.row b i) (Cert.Spec.col h d)) := by
  -- the array is the first region's result recast to (batch, position, head, coordinate), the two middle axes
  -- exchanged, and recast with batch and head merged
  have e : (V3 m ρ c main_v17 : S768x128x64.Idx → EReal)
      = shapeCast S768x128x64
          (transpose S64x12x128x64 [0, 2, 1, 3]
            (shapeCast S64x128x12x64 (W2 m ρ c (Proc.devRef .tc main_v11_1) : S8192x768.Idx → EReal)
              Gen.shapeCasts_S8192x768_S64x128x12x64)
            Gen.transposes_S64x128x12x64_S64x12x128x64_0_2_1_3)
          Gen.shapeCasts_S64x12x128x64_S768x128x64 := by
    show StableHlo.after hostOps1 _ (Proc.devRef .tc main_v17) = _
    after_results
    rfl
  rw [e]
  -- (b·12 + h, i, d) of 768 × 128 × 64 is (b, h, i, d) of 64 × 12 × 128 × 64
  refine (shapeCast_apply _ _ _ (ix4 b h i d) ?_).trans ?_
  · show (S64x12x128x64.rowMajor (ix4 b h i d)).val
      = (S768x128x64.rowMajor (ix3 ⟨b.val * 12 + h.val, by have := b.isLt; have := h.isLt; omega⟩ i d)).val
    rw [Shape.rowMajor_val_four, Shape.rowMajor_val_three]
    rfl
  -- which the exchange of the middle axes reads at (b, i, h, d)
  refine (transpose_apply _ _ _ _ (ix4 b i h d) fun a => match a with
    | ⟨0, _⟩ => rfl | ⟨1, _⟩ => rfl | ⟨2, _⟩ => rfl | ⟨3, _⟩ => rfl).trans ?_
  -- which is row b·128 + i, column h·64 + d of 8192 × 768
  exact shapeCast_apply _ _ _ (ix2 (Cert.Spec.row b i) (Cert.Spec.col h d)) (by
    show (S8192x768.rowMajor (ix2 (Cert.Spec.row b i) (Cert.Spec.col h d))).val = (S64x128x12x64.rowMajor (ix4 b i h d)).val
    rw [Shape.rowMajor_val_two, Shape.rowMajor_val_four]
    show (b.val * 128 + i.val) * 768 + (h.val * 64 + d.val) = ((b.val * 128 + i.val) * 12 + h.val) * 64 + d.val
    omega)
theorem V3_v20 (c : Dev nD) (b : Fin 64) (h : Fin 12) (i : Fin 128) (d : Fin 64) :
    V3 m ρ c main_v20 (ix3 ⟨b.val * 12 + h.val, by have := b.isLt; have := h.isLt; omega⟩ i d)
      = W2 m ρ c (Proc.devRef .tc main_v11_2) (ix2 (Cert.Spec.row b i) (Cert.Spec.col h d)) := by
  -- the array is the first region's result recast to (batch, position, head, coordinate), the two middle axes
  -- exchanged, and recast with batch and head merged
  have e : (V3 m ρ c main_v20 : S768x128x64.Idx → EReal)
      = shapeCast S768x128x64
          (transpose S64x12x128x64 [0, 2, 1, 3]
            (shapeCast S64x128x12x64 (W2 m ρ c (Proc.devRef .tc main_v11_2) : S8192x768.Idx → EReal)
              Gen.shapeCasts_S8192x768_S64x128x12x64)
            Gen.transposes_S64x128x12x64_S64x12x128x64_0_2_1_3)
          Gen.shapeCasts_S64x12x128x64_S768x128x64 := by
    show StableHlo.after hostOps1 _ (Proc.devRef .tc main_v20) = _
    after_results
    rfl
  rw [e]
  -- (b·12 + h, i, d) of 768 × 128 × 64 is (b, h, i, d) of 64 × 12 × 128 × 64
  refine (shapeCast_apply _ _ _ (ix4 b h i d) ?_).trans ?_
  · show (S64x12x128x64.rowMajor (ix4 b h i d)).val
      = (S768x128x64.rowMajor (ix3 ⟨b.val * 12 + h.val, by have := b.isLt; have := h.isLt; omega⟩ i d)).val
    rw [Shape.rowMajor_val_four, Shape.rowMajor_val_three]
    rfl
  -- which the exchange of the middle axes reads at (b, i, h, d)
  refine (transpose_apply _ _ _ _ (ix4 b i h d) fun a => match a with
    | ⟨0, _⟩ => rfl | ⟨1, _⟩ => rfl | ⟨2, _⟩ => rfl | ⟨3, _⟩ => rfl).trans ?_
  -- which is row b·128 + i, column h·64 + d of 8192 × 768
  exact shapeCast_apply _ _ _ (ix2 (Cert.Spec.row b i) (Cert.Spec.col h d)) (by
    show (S8192x768.rowMajor (ix2 (Cert.Spec.row b i) (Cert.Spec.col h d))).val = (S64x128x12x64.rowMajor (ix4 b i h d)).val
    rw [Shape.rowMajor_val_two, Shape.rowMajor_val_four]
    show (b.val * 128 + i.val) * 768 + (h.val * 64 + d.val) = ((b.val * 128 + i.val) * 12 + h.val) * 64 + d.val
    omega)

/-! ## What the third region reads besides the context: written before the first region, by nothing after -/

theorem V5_v0 (c : Dev nD) : V5 m ρ c main_v0 = V1 m ρ c main_v0 :=
  calc W5 m ρ c (Proc.devRef .tc main_v0)
    _ = W4 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := W4_of_ne m ρ c main_v0 (by decide)
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    -- the first region only reads this array: an input window's array is never written back
    _ = (dat0 (V1 m ρ) c).arrAt 0 cfg0.N := W2_arr m ρ c 0
    _ = (dat0 (V1 m ρ) c).A 0 := Pipeline.Dat.arrAt_in (dat0 (V1 m ρ) c) 0 rfl cfg0.N
    _ = W1 m ρ c (Proc.devRef .tc main_v0) := A_eq0 (V1 m ρ) c 0
theorem V5_v4 (c : Dev nD) : V5 m ρ c main_v4 = V1 m ρ c main_v4 :=
  calc W5 m ρ c (Proc.devRef .tc main_v4)
    _ = W4 m ρ c (Proc.devRef .tc main_v4) := StableHlo.after_of_forall_not_mem (b := Proc.devRef .tc main_v4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v4) := W4_of_ne m ρ c main_v4 (by decide)
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v4) := W2_of_ne m ρ c main_v4 (by decide)
theorem V5_v8 (c : Dev nD) : V5 m ρ c main_v8 = V1 m ρ c main_v8 :=
  calc W5 m ρ c (Proc.devRef .tc main_v8)
    _ = W4 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v8) := W4_of_ne m ρ c main_v8 (by decide)
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W2_of_ne m ρ c main_v8 (by decide)
theorem V5_v9 (c : Dev nD) : V5 m ρ c main_v9 = V1 m ρ c main_v9 :=
  calc W5 m ρ c (Proc.devRef .tc main_v9)
    _ = W4 m ρ c (Proc.devRef .tc main_v9) := StableHlo.after_of_forall_not_mem (b := Proc.devRef .tc main_v9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v9) := W4_of_ne m ρ c main_v9 (by decide)
    _ = W2 m ρ c (Proc.devRef .tc main_v9) := StableHlo.after_of_forall_not_mem (b := Proc.devRef .tc main_v9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v9) := W2_of_ne m ρ c main_v9 (by decide)
theorem V5_v10 (c : Dev nD) : V5 m ρ c main_v10 = V1 m ρ c main_v10 :=
  calc W5 m ρ c (Proc.devRef .tc main_v10)
    _ = W4 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v10) := W4_of_ne m ρ c main_v10 (by decide)
    _ = W2 m ρ c (Proc.devRef .tc main_v10) := StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v10) := W2_of_ne m ρ c main_v10 (by decide)

end Cert.ReferenceIdeal.RHostA

end
-- ==== Proof.RHostB.lean ====
/-
  The host operations of the three-stage program between its second and third regions (the heads merged back) and
  after the third (the final reshape), read at an index.
-/
import proofs.«136720_g2000702396236789_pallasbulk_1056_14_alg».proof.Proof.Gen.ReferenceIdeal.Frame
import proofs.«136720_g2000702396236789_pallasbulk_1056_14_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.ReferenceIdeal.RHostB

open Idealize.ShloMosaic Idealize.ShloMosaic.ValueIdx Idealize.ShloMosaic.TcCoe Idealize.SL.Sem Cert.ReferenceIdeal Cert.ReferenceIdeal.Gen

variable [Facts]
open Facts₀ Facts

variable (m : (ℓ : Loc nD τ sig) → Buf (Elt Ideal) ℓ) (ρ : Dev nD → PrngReg)

/-- The merged context, row `b·128 + s`, column `h·64 + d`, is block `b·12 + h` of the attention output at (`s`, `d`). -/
theorem V5_v24 (c : Dev nD) (b : Fin 64) (s : Fin 128) (h : Fin 12) (d : Fin 64) :
    V5 m ρ c main_v24 (ix2 (Cert.Spec.row b s) (Cert.Spec.col h d))
      = W4 m ρ c (Proc.devRef .tc main_v21) (ix3 ⟨b.val * 12 + h.val, by have := b.isLt; have := h.isLt; omega⟩ s d) := by
  -- the merged array is the three layout operations applied to the attention output's array
  have e : (V5 m ρ c main_v24 : S8192x768.Idx → EReal)
      = shapeCast S8192x768
          (transpose S64x128x12x64 [0, 2, 1, 3]
            (shapeCast S64x12x128x64 (W4 m ρ c (Proc.devRef .tc main_v21) : S768x128x64.Idx → EReal)
              Gen.shapeCasts_S768x128x64_S64x12x128x64 : S64x12x128x64.Idx → EReal)
            Gen.transposes_S64x12x128x64_S64x128x12x64_0_2_1_3)
          Gen.shapeCasts_S64x128x12x64_S8192x768 := by
    show StableHlo.after hostOps2 _ (Proc.devRef .tc main_v24) = _
    after_results; rfl
  rw [e]
  have hb := b.isLt; have hs := s.isLt; have hh := h.isLt; have hd := d.isLt
  -- the last reshape: (b·128 + s, h·64 + d) of [8192, 768] and (b, s, h, d) of [64, 128, 12, 64] share a row-major position
  refine (shapeCast_apply _ _ _ (ix4 b s h d) (by
    rw [Shape.rowMajor_val_two, Shape.rowMajor_val_four]
    show ((b.val * 128 + s.val) * 12 + h.val) * 64 + d.val = (b.val * 128 + s.val) * 768 + (h.val * 64 + d.val)
    omega)).trans ?_
  -- the transpose exchanges the position axis and the head axis
  refine (transpose_apply _ _ _ _ (ix4 b h s d) (fun a => match a with
    | ⟨0, _⟩ => rfl | ⟨1, _⟩ => rfl | ⟨2, _⟩ => rfl | ⟨3, _⟩ => rfl)).trans ?_
  -- the first reshape: (b, h, s, d) of [64, 12, 128, 64] is (b·12 + h, s, d) of [768, 128, 64]
  exact shapeCast_apply _ _ _ _ (by
    show (S768x128x64.rowMajor _).val = (S64x12x128x64.rowMajor _).val
    rw [Shape.rowMajor_val_three, Shape.rowMajor_val_four]
    show ((b.val * 12 + h.val) * 128 + s.val) * 64 + d.val = ((b.val * 12 + h.val) * 128 + s.val) * 64 + d.val
    rfl)

/-- The result, entry (`b`, `s`, `o`), is row `b·128 + s` of the third region's output. -/
theorem W7_v26 (c : Dev nD) (b : Fin 64) (s : Fin 128) (o : Fin 768) :
    W7 m ρ c (Proc.devRef .tc main_v26) (ix3 b s o) = W6 m ρ c (Proc.devRef .tc main_v25) (ix2 (Cert.Spec.row b s) o) := by
  -- the result array is the reshape of the third region's output
  have e : (W7 m ρ c (Proc.devRef .tc main_v26) : S64x128x768.Idx → EReal)
      = shapeCast S64x128x768 (W6 m ρ c (Proc.devRef .tc main_v25) : S8192x768.Idx → EReal) Gen.shapeCasts_S8192x768_S64x128x768 := by
    show StableHlo.after hostOps3 _ (Proc.devRef .tc main_v26) = _
    after_results; rfl
  rw [e]
  -- (b, s, o) of [64, 128, 768] and (b·128 + s, o) of [8192, 768] share a row-major position
  exact shapeCast_apply _ _ _ _ (by
    show (S8192x768.rowMajor _).val = (S64x128x768.rowMajor _).val
    rw [Shape.rowMajor_val_two, Shape.rowMajor_val_three]
    show (b.val * 128 + s.val) * 768 + o.val = (b.val * 128 + s.val) * 768 + o.val
    rfl)

end Cert.ReferenceIdeal.RHostB

end
-- ==== Proof.RValue.lean ====
/-
  The three-stage program's result, read: at the last boundary the result array is `GR` of the argument arrays — the three
  regions' readings chained through the host operations between them.
-/
import proofs.«136720_g2000702396236789_pallasbulk_1056_14_alg».proof.Proof.RReg0
import proofs.«136720_g2000702396236789_pallasbulk_1056_14_alg».proof.Proof.RReg1
import proofs.«136720_g2000702396236789_pallasbulk_1056_14_alg».proof.Proof.RReg2
import proofs.«136720_g2000702396236789_pallasbulk_1056_14_alg».proof.Proof.RHostA
import proofs.«136720_g2000702396236789_pallasbulk_1056_14_alg».proof.Proof.RHostB

set_option maxRecDepth 16384

noncomputable section

namespace Cert.ReferenceIdeal.RValue

open Idealize.ShloMosaic Idealize.ShloMosaic.ValueIdx Idealize.ShloMosaic.TcCoe Idealize.SL.Sem Cert.ReferenceIdeal Cert.ReferenceIdeal.Gen

variable [Facts]
open Facts₀ Facts

variable (m : (ℓ : Loc nD τ sig) → Buf (Elt Ideal) ℓ) (ρ : Dev nD → PrngReg)

/-- The first region's query output, row `b·128 + i'`: the dense projection of position `i'` of batch element `b`'s slab
    by the query weight (stored (out, in) in the argument, transposed on the way in) plus the query bias. -/
theorem projQ (c : Dev nD) (b : Fin 64) (i' : Fin 128) (cc : Fin 768) :
    W2 m ρ c (Proc.devRef .tc main_v11_0) (ix2 (Cert.Spec.row b i') cc)
      = Cert.Spec.projRow (Cert.Spec.slab (m ((c.tc : Thread nD τ).loc main_arg0)) b i') (Cert.Spec.w2 (m ((c.tc : Thread nD τ).loc main_arg1))) (Cert.Spec.v1 (m ((c.tc : Thread nD τ).loc main_arg5))) cc := by
  have h : W2 m ρ c (Proc.devRef .tc main_v11_0) = (dat0 (V1 m ρ) c).arrAt 7 cfg0.N := W2_arr m ρ c 7
  rw [h, RReg0.arr7]
  have hx : (fun i => V1 m ρ c main_v0 (ix2 (Cert.Spec.row b i') i)) = Cert.Spec.slab (m ((c.tc : Thread nD τ).loc main_arg0)) b i' :=
    funext fun i => RHostA.V1_v0 m ρ c b i' i
  have hw : (fun o' i => V1 m ρ c main_v1 (ix2 i o')) = Cert.Spec.w2 (m ((c.tc : Thread nD τ).loc main_arg1)) :=
    funext fun o' => funext fun i => RHostA.V1_v1 m ρ c i o'
  have hb : (fun o' => V1 m ρ c main_v5 (ix2 0 o')) = Cert.Spec.v1 (m ((c.tc : Thread nD τ).loc main_arg5)) :=
    funext fun o' => RHostA.V1_v5 m ρ c o'
  rw [hx, hw, hb]

/-- The first region's key output, row `b·128 + i'`: the dense projection of position `i'` of batch element `b`'s slab
    by the key weight (stored (out, in) in the argument, transposed on the way in) plus the key bias. -/
theorem projK (c : Dev nD) (b : Fin 64) (i' : Fin 128) (cc : Fin 768) :
    W2 m ρ c (Proc.devRef .tc main_v11_1) (ix2 (Cert.Spec.row b i') cc)
      = Cert.Spec.projRow (Cert.Spec.slab (m ((c.tc : Thread nD τ).loc main_arg0)) b i') (Cert.Spec.w2 (m ((c.tc : Thread nD τ).loc main_arg2))) (Cert.Spec.v1 (m ((c.tc : Thread nD τ).loc main_arg6))) cc := by
  have h : W2 m ρ c (Proc.devRef .tc main_v11_1) = (dat0 (V1 m ρ) c).arrAt 8 cfg0.N := W2_arr m ρ c 8
  rw [h, RReg0.arr8]
  have hx : (fun i => V1 m ρ c main_v0 (ix2 (Cert.Spec.row b i') i)) = Cert.Spec.slab (m ((c.tc : Thread nD τ).loc main_arg0)) b i' :=
    funext fun i => RHostA.V1_v0 m ρ c b i' i
  have hw : (fun o' i => V1 m ρ c main_v2 (ix2 i o')) = Cert.Spec.w2 (m ((c.tc : Thread nD τ).loc main_arg2)) :=
    funext fun o' => funext fun i => RHostA.V1_v2 m ρ c i o'
  have hb : (fun o' => V1 m ρ c main_v6 (ix2 0 o')) = Cert.Spec.v1 (m ((c.tc : Thread nD τ).loc main_arg6)) :=
    funext fun o' => RHostA.V1_v6 m ρ c o'
  rw [hx, hw, hb]

/-- The first region's value output, row `b·128 + i'`: the dense projection of position `i'` of batch element `b`'s slab
    by the value weight (stored (out, in) in the argument, transposed on the way in) plus the value bias. -/
theorem projV (c : Dev nD) (b : Fin 64) (i' : Fin 128) (cc : Fin 768) :
    W2 m ρ c (Proc.devRef .tc main_v11_2) (ix2 (Cert.Spec.row b i') cc)
      = Cert.Spec.projRow (Cert.Spec.slab (m ((c.tc : Thread nD τ).loc main_arg0)) b i') (Cert.Spec.w2 (m ((c.tc : Thread nD τ).loc main_arg3))) (Cert.Spec.v1 (m ((c.tc : Thread nD τ).loc main_arg7))) cc := by
  have h : W2 m ρ c (Proc.devRef .tc main_v11_2) = (dat0 (V1 m ρ) c).arrAt 9 cfg0.N := W2_arr m ρ c 9
  rw [h, RReg0.arr9]
  have hx : (fun i => V1 m ρ c main_v0 (ix2 (Cert.Spec.row b i') i)) = Cert.Spec.slab (m ((c.tc : Thread nD τ).loc main_arg0)) b i' :=
    funext fun i => RHostA.V1_v0 m ρ c b i' i
  have hw : (fun o' i => V1 m ρ c main_v3 (ix2 i o')) = Cert.Spec.w2 (m ((c.tc : Thread nD τ).loc main_arg3)) :=
    funext fun o' => funext fun i => RHostA.V1_v3 m ρ c i o'
  have hb : (fun o' => V1 m ρ c main_v7 (ix2 0 o')) = Cert.Spec.v1 (m ((c.tc : Thread nD τ).loc main_arg7)) :=
    funext fun o' => RHostA.V1_v7 m ρ c o'
  rw [hx, hw, hb]

/-- The merged context at row `b·128 + s`: the context slab of batch element `b`'s three projected slabs, each column
    read in its head. -/
theorem ctx (c : Dev nD) (b : Fin 64) (s : Fin 128) (cc : Fin 768) :
    V5 m ρ c main_v24 (ix2 (Cert.Spec.row b s) cc)
      = Cert.Spec.ctxOf Cert.Spec.headR
          (fun s' => Cert.Spec.projRow (Cert.Spec.slab (m ((c.tc : Thread nD τ).loc main_arg0)) b s') (Cert.Spec.w2 (m ((c.tc : Thread nD τ).loc main_arg1))) (Cert.Spec.v1 (m ((c.tc : Thread nD τ).loc main_arg5))))
          (fun s' => Cert.Spec.projRow (Cert.Spec.slab (m ((c.tc : Thread nD τ).loc main_arg0)) b s') (Cert.Spec.w2 (m ((c.tc : Thread nD τ).loc main_arg2))) (Cert.Spec.v1 (m ((c.tc : Thread nD τ).loc main_arg6))))
          (fun s' => Cert.Spec.projRow (Cert.Spec.slab (m ((c.tc : Thread nD τ).loc main_arg0)) b s') (Cert.Spec.w2 (m ((c.tc : Thread nD τ).loc main_arg3))) (Cert.Spec.v1 (m ((c.tc : Thread nD τ).loc main_arg7)))) s cc := by
  conv_lhs => rw [← Cert.Spec.col_hd_dd cc]
  rw [RHostB.V5_v24]
  have h : W4 m ρ c (Proc.devRef .tc main_v21) = (dat1 (V3 m ρ) c).arrAt 3 cfg1.N := W4_arr m ρ c 3
  rw [h, RReg1.arr3]
  have hq : (fun i' d' => V3 m ρ c main_v14 (ix3 (⟨b.val * 12 + (Cert.Spec.hd cc).val, by have := b.isLt; have := (Cert.Spec.hd cc).isLt; omega⟩ : Fin 768) i' d'))
      = Cert.Spec.headOf (fun s' => Cert.Spec.projRow (Cert.Spec.slab (m ((c.tc : Thread nD τ).loc main_arg0)) b s') (Cert.Spec.w2 (m ((c.tc : Thread nD τ).loc main_arg1))) (Cert.Spec.v1 (m ((c.tc : Thread nD τ).loc main_arg5)))) (Cert.Spec.hd cc) :=
    funext fun i' => funext fun d' => (RHostA.V3_v14 m ρ c b (Cert.Spec.hd cc) i' d').trans (projQ m ρ c b i' (Cert.Spec.col (Cert.Spec.hd cc) d'))
  have hk : (fun i' d' => V3 m ρ c main_v17 (ix3 (⟨b.val * 12 + (Cert.Spec.hd cc).val, by have := b.isLt; have := (Cert.Spec.hd cc).isLt; omega⟩ : Fin 768) i' d'))
      = Cert.Spec.headOf (fun s' => Cert.Spec.projRow (Cert.Spec.slab (m ((c.tc : Thread nD τ).loc main_arg0)) b s') (Cert.Spec.w2 (m ((c.tc : Thread nD τ).loc main_arg2))) (Cert.Spec.v1 (m ((c.tc : Thread nD τ).loc main_arg6)))) (Cert.Spec.hd cc) :=
    funext fun i' => funext fun d' => (RHostA.V3_v17 m ρ c b (Cert.Spec.hd cc) i' d').trans (projK m ρ c b i' (Cert.Spec.col (Cert.Spec.hd cc) d'))
  have hv : (fun i' d' => V3 m ρ c main_v20 (ix3 (⟨b.val * 12 + (Cert.Spec.hd cc).val, by have := b.isLt; have := (Cert.Spec.hd cc).isLt; omega⟩ : Fin 768) i' d'))
      = Cert.Spec.headOf (fun s' => Cert.Spec.projRow (Cert.Spec.slab (m ((c.tc : Thread nD τ).loc main_arg0)) b s') (Cert.Spec.w2 (m ((c.tc : Thread nD τ).loc main_arg3))) (Cert.Spec.v1 (m ((c.tc : Thread nD τ).loc main_arg7)))) (Cert.Spec.hd cc) :=
    funext fun i' => funext fun d' => (RHostA.V3_v20 m ρ c b (Cert.Spec.hd cc) i' d').trans (projV m ρ c b i' (Cert.Spec.col (Cert.Spec.hd cc) d'))
  rw [hq, hk, hv]
  rfl

theorem W7_result (c : Dev nD) :
    W7 m ρ c (Proc.devRef .tc main_v26) = Cert.Spec.GR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨b, s, o, rfl⟩ : ∃ (b : Fin 64) (s : Fin 128) (o : Fin 768), i = ix3 b s o := ⟨_, _, _, eq_ix3 i⟩
  rw [RHostB.W7_v26]
  have h : W6 m ρ c (Proc.devRef .tc main_v25) = (dat2 (V5 m ρ) c).arrAt 6 cfg2.N := W6_arr m ρ c 6
  rw [h, RReg2.arr6]
  have h24 : (fun c' => V5 m ρ c main_v24 (ix2 (Cert.Spec.row b s) c'))
      = Cert.Spec.ctxOf Cert.Spec.headR
          (fun s' => Cert.Spec.projRow (Cert.Spec.slab (m ((c.tc : Thread nD τ).loc main_arg0)) b s') (Cert.Spec.w2 (m ((c.tc : Thread nD τ).loc main_arg1))) (Cert.Spec.v1 (m ((c.tc : Thread nD τ).loc main_arg5))))
          (fun s' => Cert.Spec.projRow (Cert.Spec.slab (m ((c.tc : Thread nD τ).loc main_arg0)) b s') (Cert.Spec.w2 (m ((c.tc : Thread nD τ).loc main_arg2))) (Cert.Spec.v1 (m ((c.tc : Thread nD τ).loc main_arg6))))
          (fun s' => Cert.Spec.projRow (Cert.Spec.slab (m ((c.tc : Thread nD τ).loc main_arg0)) b s') (Cert.Spec.w2 (m ((c.tc : Thread nD τ).loc main_arg3))) (Cert.Spec.v1 (m ((c.tc : Thread nD τ).loc main_arg7)))) s :=
    funext fun c' => ctx m ρ c b s c'
  have h0 : (fun c' => V5 m ρ c main_v0 (ix2 (Cert.Spec.row b s) c')) = Cert.Spec.slab (m ((c.tc : Thread nD τ).loc main_arg0)) b s :=
    funext fun c' => by rw [RHostA.V5_v0]; exact RHostA.V1_v0 m ρ c b s c'
  have h4 : (fun o' c' => V5 m ρ c main_v4 (ix2 c' o')) = Cert.Spec.w2 (m ((c.tc : Thread nD τ).loc main_arg4)) :=
    funext fun o' => funext fun c' => by rw [RHostA.V5_v4]; exact RHostA.V1_v4 m ρ c c' o'
  have h8 : (fun o' => V5 m ρ c main_v8 (ix2 0 o')) = Cert.Spec.v1 (m ((c.tc : Thread nD τ).loc main_arg8)) :=
    funext fun o' => by rw [RHostA.V5_v8]; exact RHostA.V1_v8 m ρ c o'
  have h9 : (fun o' => V5 m ρ c main_v9 (ix2 0 o')) = Cert.Spec.v1 (m ((c.tc : Thread nD τ).loc main_arg9)) :=
    funext fun o' => by rw [RHostA.V5_v9]; exact RHostA.V1_v9 m ρ c o'
  have h10 : (fun o' => V5 m ρ c main_v10 (ix2 0 o')) = Cert.Spec.v1 (m ((c.tc : Thread nD τ).loc main_arg10)) :=
    funext fun o' => by rw [RHostA.V5_v10]; exact RHostA.V1_v10 m ρ c o'
  rw [h24, h0, h4, h8, h9, h10]
  rfl

end Cert.ReferenceIdeal.RValue

end
-- ==== Proof.RRun.lean ====
/-
  The three-stage program's run, read: its result array is the block's function `GR` of the argument arrays.
-/
import proofs.«136720_g2000702396236789_pallasbulk_1056_14_alg».proof.Proof.RRunNamed
import proofs.«136720_g2000702396236789_pallasbulk_1056_14_alg».proof.Proof.RValue

noncomputable section

namespace Cert.ReferenceIdeal.RRun

open Idealize.ShloMosaic Idealize.ShloMosaic.ValueIdx Idealize.ShloMosaic.TcCoe Idealize.SL.Sem Cert.ReferenceIdeal Cert.ReferenceIdeal.Gen

variable [Facts]
open Facts₀ Facts

variable (m : (ℓ : Loc nD τ sig) → Buf (Elt Ideal) ℓ) (ρ : Dev nD → PrngReg)

/-- Every weakly fair execution terminates with the result at `GR` of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v26) = Cert.Spec.GR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (Cert.ReferenceIdeal.RValue.W7_result m ρ c), (h c).2⟩)
    (Cert.ReferenceIdeal.RRunNamed.run_named m ρ)

end Cert.ReferenceIdeal.RRun

end
-- ==== Proof.LibGcnAlgebra.lean ====
/-
  General lemmas for certificates of graph convolutions at the extended reals.

  Three groups.
  * Coercions: a finite sum of reals read as an extended real is the sum of the terms read so; an extended real that
    is a real (IsReal) stays one under sums, products and maxima; the reciprocal square root of a count plus one.
  * Counting: a sum over a product of two finite ranges read through the flat index p + n · w, and a filtered sum cut
    down to the part of a longer range where the filter can hold at all.
  * The algebra of one normalised graph-convolution layer over the reals, in the two orders a hand-scheduled kernel
    and a textbook reference write it, and of a two-layer network with sum pooling and a linear head in both orders.
-/
import Idealize.ShloMosaic.PureOps.Ideal
import Mathlib.Algebra.BigOperators.Fin
import Mathlib.Logic.Equiv.Fin.Basic

noncomputable section

open scoped BigOperators

namespace GcnAlgebra

open Idealize.ShloMosaic

/-! ## Coercions -/

/-- A finite sum of reals, read as an extended real, is the sum of the terms read as extended reals. -/
@[norm_cast] theorem coe_sum {α : Type*} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, read as an extended real, is the maximum of the two read so. -/
@[norm_cast] theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A natural number read as an extended real is the real read so. -/
theorem coe_natCast (n : ℕ) : ((n : ℝ) : EReal) = (n : EReal) := rfl

/-- An extended real that is a real number. -/
def IsReal (v : EReal) : Prop := ∃ r : ℝ, v = (r : EReal)

theorem isReal_coe (r : ℝ) : IsReal (r : EReal) := ⟨r, rfl⟩

/-- Whatever is neither infinity is a real. -/
theorem isReal_of_ne {v : EReal} (ht : v ≠ ⊤) (hb : v ≠ ⊥) : IsReal v := ⟨v.toReal, (EReal.coe_toReal ht hb).symm⟩

/-- Whatever lies strictly between the two infinities in absolute value is a real. -/
theorem isReal_of_abs_lt_top {v : EReal} (h : max v (-v) < ⊤) : IsReal v := by
  refine isReal_of_ne (fun ht => ?_) (fun hb => ?_)
  · rw [ht] at h; exact absurd h (by simp)
  · rw [hb] at h; exact absurd h (by simp)

/-- A family of reals has a real-valued form. -/
theorem exists_real_form {α : Type*} {f : α → EReal} (h : ∀ i, IsReal (f i)) : ∃ g : α → ℝ, ∀ i, f i = (g i : EReal) :=
  ⟨fun i => (h i).choose, fun i => (h i).choose_spec⟩

/-- The reciprocal square root of a count plus one, at the extended reals, is the real one. -/
theorem div_one_sqrt_coe {c : ℝ} (hc : 0 ≤ c) :
    Ideal.div 1 (Ideal.sqrt ((c : EReal) + 1)) = ((1 / Real.sqrt (c + 1) : ℝ) : EReal) := by
  have hpos : 0 < c + 1 := by linarith
  have h1 : ((c : EReal) + 1) = ((c + 1 : ℝ) : EReal) := by rw [EReal.coe_add, EReal.coe_one]
  rw [h1, Ideal.sqrt_coe, if_neg (not_lt.2 hpos.le), Ideal.div_coe (Real.sqrt_pos.2 hpos).ne', one_mul]

/-! ## Counting -/

/-- A sum over two ranges of a function of the flat index p + n · w is the sum over the flat range. -/
theorem sum_fin_prod_flat {M : Type*} [AddCommMonoid M] (m n : ℕ) (f : Fin (m * n) → M) :
    ∑ w : Fin m, ∑ p : Fin n, f (finProdFinEquiv (w, p)) = ∑ e : Fin (m * n), f e := by
  rw [← Fintype.sum_prod_type' (fun w p => f (finProdFinEquiv (w, p)))]
  exact Equiv.sum_comp finProdFinEquiv f

/-- The flat index of (w, p) is p + n · w. -/
theorem finProdFinEquiv_val {m n : ℕ} (w : Fin m) (p : Fin n) : (finProdFinEquiv (w, p) : Fin (m * n)).val = p.val + n * w.val := rfl

/-- A sum over a longer range of terms that vanish past the first n is the sum over the first n. -/
theorem sum_fin_castLE {M : Type*} [AddCommMonoid M] {n N : ℕ} (h : n ≤ N) (f : Fin N → M)
    (hz : ∀ p : Fin N, n ≤ p.val → f p = 0) : ∑ p : Fin N, f p = ∑ p : Fin n, f (Fin.castLE h p) := by
  classical
  have hinj : Function.Injective (Fin.castLE h) := Fin.castLE_injective h
  have hm : ∑ p : Fin n, f (Fin.castLE h p) = ∑ q ∈ Finset.univ.map ⟨Fin.castLE h, hinj⟩, f q :=
    (Finset.sum_map Finset.univ ⟨Fin.castLE h, hinj⟩ f).symm
  rw [hm]
  symm
  refine Finset.sum_subset (Finset.subset_univ _) (fun p _ hp => hz p ?_)
  by_contra hlt
  exact hp (Finset.mem_map.2 ⟨⟨p.val, not_le.1 hlt⟩, Finset.mem_univ _, Fin.ext rfl⟩)

/-! ## One layer over the reals, in the two orders -/

section Layer

variable {ι ε κ φ : Type*} [Fintype ι] [Fintype ε] [Fintype κ] [Fintype φ] [DecidableEq ι]
variable (src dst : ε → ι) (d : ι → ℝ)

/-- The kernel's table of a layer: the features times the weights, each node's column scaled by its factor. -/
def tabK (W : κ → φ → ℝ) (h : κ → ι → ℝ) (f : φ) (n : ι) : ℝ := (∑ k, W k f * h k n) * d n

/-- The kernel's activations: the table summed over the edges into a node, plus the node's own column, scaled
    again, plus the bias, cut at zero. -/
def actK (g : φ → ι → ℝ) (b : φ → ℝ) (f : φ) (n : ι) : ℝ :=
  max (((∑ e ∈ Finset.univ.filter (fun e => dst e = n), g f (src e)) + g f n) * d n + b f) 0

/-- The reference's activations: each edge's message carries both ends' factors, the self loop the node's twice. -/
def actR (h : ι → κ → ℝ) (W : κ → φ → ℝ) (b : φ → ℝ) (i : ι) (f : φ) : ℝ :=
  max ((∑ e ∈ Finset.univ.filter (fun e => dst e = i), (∑ k, h (src e) k * W k f) * (d (src e) * d i))
    + (∑ k, h i k * W k f) * (d i * d i) + b f) 0

/-- The two orders agree: the outer factor distributes over the edge sum. -/
theorem actK_tabK (W : κ → φ → ℝ) (h : κ → ι → ℝ) (b : φ → ℝ) (f : φ) (n : ι) :
    actK src dst d (tabK d W h) b f n = actR src dst d (fun i k => h k i) W b n f := by
  have hk : ∀ m, (∑ k, W k f * h k m) = ∑ k, h k m * W k f :=
    fun m => Finset.sum_congr rfl (fun k _ => mul_comm _ _)
  simp only [actK, actR, tabK, hk]
  rw [add_mul, Finset.sum_mul]
  simp only [mul_assoc]

end Layer

/-! ## Two layers, sum pooling and a linear head, in the two orders -/

section Net

variable {ι ε κ φ γ : Type*} [Fintype ι] [Fintype ε] [Fintype κ] [Fintype φ] [DecidableEq ι] [DecidableEq γ]
variable (src dst : ε → ι) (d : ι → ℝ) (bat : ι → γ)

/-- The kernel's network: two layers over transposed tables, the pooling as a product with a one-hot matrix. -/
def netK (x : ι → κ → ℝ) (W1 : κ → φ → ℝ) (b1 : φ → ℝ) (W2 : φ → φ → ℝ) (b2 : φ → ℝ) (W3 : φ → ℝ) (b3 : ℝ) (g : γ) : ℝ :=
  (∑ f, (∑ n, actK src dst d (tabK d W2 (actK src dst d (tabK d W1 (fun k n => x n k)) b1)) b2 f n
      * (if bat n = g then 1 else 0)) * W3 f) + b3

/-- The reference's network: two layers, a segment sum, a matrix product and a bias. -/
def netR (x : ι → κ → ℝ) (W1 : κ → φ → ℝ) (b1 : φ → ℝ) (W2 : φ → φ → ℝ) (b2 : φ → ℝ) (W3 : φ → ℝ) (b3 : ℝ) (g : γ) : ℝ :=
  (∑ f, (∑ n ∈ Finset.univ.filter (fun n => bat n = g), actR src dst d (actR src dst d x W1 b1) W2 b2 n f) * W3 f) + b3

theorem netK_eq_netR (x : ι → κ → ℝ) (W1 : κ → φ → ℝ) (b1 : φ → ℝ) (W2 : φ → φ → ℝ) (b2 : φ → ℝ) (W3 : φ → ℝ) (b3 : ℝ) (g : γ) :
    netK src dst d bat x W1 b1 W2 b2 W3 b3 g = netR src dst d bat x W1 b1 W2 b2 W3 b3 g := by
  unfold netK netR
  congr 1
  refine Finset.sum_congr rfl (fun f _ => ?_)
  congr 1
  rw [Finset.sum_filter]
  refine Finset.sum_congr rfl (fun n _ => ?_)
  rw [actK_tabK]
  have h1 : (fun (i : ι) (k : φ) => actK src dst d (tabK d W1 (fun k n => x n k)) b1 k i) = actR src dst d x W1 b1 := by
    funext i k
    exact actK_tabK src dst d W1 (fun k n => x n k) b1 k i
  rw [h1]
  split_ifs <;> simp

end Net

end GcnAlgebra

end
-- ==== Proof.Algebra.lean ====
/-
  The two spellings of a head agree on real inputs, and with them the two spellings of the whole block.

  On the extended reals distributivity and cancellation fail at the infinities, so the hypotheses say every entry of the
  input, of the three projection weights and of their biases is a real; the projections are then real, the scores real, the
  row maximum real (a maximum over 128 reals, from `-∞`), the exponentials real and in (0, 1] with one of them equal to 1, so
  their row sum is a real ≥ 1, and both laws — a real factor through a finite sum of reals, a positive real denominator
  through a finite sum — hold.
-/
import proofs.«136720_g2000702396236789_pallasbulk_1056_14_alg».proof.Proof.Spec
import proofs.«136720_g2000702396236789_pallasbulk_1056_14_alg».proof.Proof.LibGcnAlgebra

noncomputable section

namespace Cert.Spec

open Idealize.ShloMosaic Idealize.ShloMosaic.ValueIdx

/-! ## The three literals as extended reals -/

/-- The scale's pattern denotes the real one eighth. -/
private theorem c8_eq : c8 = ((1 / 8 : ℝ) : EReal) := by
  show Ideal.ofBits .f32 0x3E000000#32 = _
  simp [Ideal.ofBits, Ideal.ieee, -EReal.coe_mul]; norm_num

/-- The bf16 pattern of the all-ones matrix denotes one. -/
private theorem oneB_eq : oneB = 1 := by
  show Ideal.ofBits .bf16 0x3F80#16 = _
  simp [Ideal.ofBits, Ideal.ieee, -EReal.coe_mul]; norm_num

/-- The pattern a row maximum starts from denotes the bottom element. -/
private theorem ninf_eq : ninf = ⊥ := by
  show Ideal.ofBits .f32 0xFF800000#32 = _
  simp [Ideal.ofBits, Ideal.ieee]

/-! ## Real rows stay real -/

/-- A dense projection of a real row by real weights and a real bias is real. -/
theorem projRow_real (xr : Fin 768 → EReal) (w : Fin 768 → Fin 768 → EReal) (b : Fin 768 → EReal)
    (hx : ∀ i, ∃ r : ℝ, xr i = (r : EReal)) (hw : ∀ o i, ∃ r : ℝ, w o i = (r : EReal)) (hb : ∀ o, ∃ r : ℝ, b o = (r : EReal)) (o : Fin 768) :
    ∃ r : ℝ, projRow xr w b o = (r : EReal) := by
  choose xr' hxr using hx
  choose w' hw' using hw
  choose b' hb' using hb
  refine ⟨(∑ i, xr' i * w' o i) + b' o, ?_⟩
  show (∑ i : Fin 768, xr i * w o i) + b o = _
  rw [EReal.coe_add, GcnAlgebra.coe_sum, hb']
  congr 1
  exact Finset.sum_congr rfl (fun i _ => by rw [hxr, hw', EReal.coe_mul])

/-- The maximum of a row of reals, taken from the bottom element, is a real: it is the largest entry. -/
private theorem rowMax_coe (t : Fin 128 → ℝ) : ∃ m : ℝ, rowMax (fun j => (t j : EReal)) = (m : EReal) := by
  obtain ⟨j0, -, hj0⟩ := Finset.exists_max_image Finset.univ t ⟨0, Finset.mem_univ _⟩
  refine ⟨t j0, le_antisymm ?_ ?_⟩
  · exact (Finset.fold_max_le _).2 ⟨by rw [ninf_eq]; exact bot_le, fun j _ => EReal.coe_le_coe_iff.2 (hj0 j (Finset.mem_univ _))⟩
  · exact (Finset.le_fold_max _).2 (Or.inr ⟨j0, Finset.mem_univ _, le_rfl⟩)

/-- The centred exponentials of a real score matrix are positive reals. -/
private theorem expo_coe (s : Fin 128 → Fin 128 → ℝ) :
    ∃ e : Fin 128 → Fin 128 → ℝ, (∀ i j, 0 < e i j) ∧ ∀ i j, expo (fun i j => (s i j : EReal)) i j = (e i j : EReal) := by
  choose m hm using fun i => rowMax_coe (s i)
  refine ⟨fun i j => Real.exp (s i j - m i), fun i j => Real.exp_pos _, fun i j => ?_⟩
  show Ideal.exp ((s i j : EReal) - rowMax (fun j => (s i j : EReal))) = _
  rw [hm i, ← EReal.coe_sub]
  rfl

/-! ## The two heads -/

/-- When both spellings' scores are one real matrix and the values are real, the quotient of two sums is the sum of the
    normalised weights' products: the row sum of the exponentials is a positive real, so dividing by it is multiplying
    by its real reciprocal, which moves through the finite sum. -/
private theorem head_eq_of_scores (qs q k v : Fin 128 → Fin 64 → EReal) (s : Fin 128 → Fin 128 → ℝ) (v' : Fin 128 → Fin 64 → ℝ)
    (hS : scoreS qs k = fun i j => (s i j : EReal)) (hR : scoreR q k = fun i j => (s i j : EReal))
    (hv : ∀ j d, v j d = (v' j d : EReal)) : headKs qs k v = headR q k v := by
  obtain ⟨e, hpos, he⟩ := expo_coe s
  funext i d
  have hZ : (0 : ℝ) < ∑ j, e i j := Finset.sum_pos (fun j _ => hpos i j) Finset.univ_nonempty
  have hden : (∑ j : Fin 128, expo (fun i j => (s i j : EReal)) i j * oneB) = ((∑ j, e i j : ℝ) : EReal) := by
    rw [GcnAlgebra.coe_sum]
    exact Finset.sum_congr rfl (fun j _ => by rw [he, oneB_eq, mul_one])
  have hnum : (∑ j : Fin 128, expo (fun i j => (s i j : EReal)) i j * v j d) = ((∑ j, e i j * v' j d : ℝ) : EReal) := by
    rw [GcnAlgebra.coe_sum]
    exact Finset.sum_congr rfl (fun j _ => by rw [he, hv, EReal.coe_mul])
  have hsum : (∑ j' : Fin 128, expo (fun i j => (s i j : EReal)) i j') = ((∑ j, e i j : ℝ) : EReal) := by
    rw [GcnAlgebra.coe_sum]
    exact Finset.sum_congr rfl (fun j _ => he i j)
  have hterm : ∀ j, Ideal.div (expo (fun i j => (s i j : EReal)) i j) ((∑ j, e i j : ℝ) : EReal) * v j d
      = ((e i j * (1 / ∑ j, e i j) * v' j d : ℝ) : EReal) := by
    intro j
    rw [Ideal.div_coe hZ.ne', he, hv, EReal.coe_mul, EReal.coe_mul]
  show Ideal.div (∑ j : Fin 128, expo (scoreS qs k) i j * v j d) (∑ j : Fin 128, expo (scoreS qs k) i j * oneB)
    = ∑ j : Fin 128, Ideal.div (expo (scoreR q k) i j) (∑ j' : Fin 128, expo (scoreR q k) i j') * v j d
  rw [hS, hR, hnum, hden, hsum, Ideal.div_coe hZ.ne', Finset.sum_congr rfl (fun j _ => hterm j), ← GcnAlgebra.coe_sum,
    ← EReal.coe_mul]
  congr 1
  rw [Finset.sum_mul]
  exact Finset.sum_congr rfl (fun j _ => by ring)

/-- On real query, key and value slices the two heads are one function. -/
theorem headK_eq_headR (q k v : Fin 128 → Fin 64 → EReal) (hq : ∀ i d, ∃ r : ℝ, q i d = (r : EReal)) (hk : ∀ i d, ∃ r : ℝ, k i d = (r : EReal))
    (hv : ∀ i d, ∃ r : ℝ, v i d = (r : EReal)) : headK q k v = headR q k v := by
  choose q' hq' using hq
  choose k' hk' using hk
  choose v' hv' using hv
  refine head_eq_of_scores (fun i d => q i d * c8) q k v (fun i j => (∑ d, q' i d * k' j d) * (1 / 8)) v' ?_ ?_ hv'
  · funext i j
    show (∑ d : Fin 64, q i d * c8 * k j d) = _
    have hreal : ((∑ d, q' i d * k' j d) * (1 / 8) : ℝ) = ∑ d, q' i d * (1 / 8) * k' j d := by
      rw [Finset.sum_mul]
      exact Finset.sum_congr rfl (fun d _ => by ring)
    rw [hreal, GcnAlgebra.coe_sum]
    exact Finset.sum_congr rfl (fun d _ => by rw [hq', hk', c8_eq, EReal.coe_mul, EReal.coe_mul])
  · funext i j
    show (∑ d : Fin 64, q i d * k j d) * c8 = _
    rw [EReal.coe_mul, GcnAlgebra.coe_sum, c8_eq]
    congr 1
    exact Finset.sum_congr rfl (fun d _ => by rw [hq', hk', EReal.coe_mul])

/-! ## The whole block -/

/-- On real projected slabs the two context slabs agree, head by head. -/
private theorem ctxOf_eq (q k v : Fin 128 → Fin 768 → EReal) (hq : ∀ i c, ∃ r : ℝ, q i c = (r : EReal))
    (hk : ∀ i c, ∃ r : ℝ, k i c = (r : EReal)) (hv : ∀ i c, ∃ r : ℝ, v i c = (r : EReal)) :
    ctxOf headK q k v = ctxOf headR q k v := by
  funext i c
  show headK (headOf q (hd c)) (headOf k (hd c)) (headOf v (hd c)) i (dd c)
    = headR (headOf q (hd c)) (headOf k (hd c)) (headOf v (hd c)) i (dd c)
  exact congrFun (congrFun (headK_eq_headR (headOf q (hd c)) (headOf k (hd c)) (headOf v (hd c))
    (fun i d => hq i _) (fun i d => hk i _) (fun i d => hv i _)) i) (dd c)

/-- On a real input, real projection weights and real projection biases the two programs' functions are one. -/
theorem GK_eq_GR (x : SX.Idx → EReal) (wq wk wv wo : SW.Idx → EReal) (bq bk bv bo g be : SV.Idx → EReal)
    (hx : ∀ i, ∃ r : ℝ, x i = (r : EReal)) (hwq : ∀ i, ∃ r : ℝ, wq i = (r : EReal)) (hwk : ∀ i, ∃ r : ℝ, wk i = (r : EReal)) (hwv : ∀ i, ∃ r : ℝ, wv i = (r : EReal))
    (hbq : ∀ i, ∃ r : ℝ, bq i = (r : EReal)) (hbk : ∀ i, ∃ r : ℝ, bk i = (r : EReal)) (hbv : ∀ i, ∃ r : ℝ, bv i = (r : EReal)) :
    GK x wq wk wv wo bq bk bv bo g be = GR x wq wk wv wo bq bk bv bo g be := by
  funext i
  show batchOf headK (slab x (i 0)) (w2 wq) (w2 wk) (w2 wv) (w2 wo) (v1 bq) (v1 bk) (v1 bv) (v1 bo) (v1 g) (v1 be) (i 1) (i 2)
    = batchOf headR (slab x (i 0)) (w2 wq) (w2 wk) (w2 wv) (w2 wo) (v1 bq) (v1 bk) (v1 bv) (v1 bo) (v1 g) (v1 be) (i 1) (i 2)
  unfold batchOf
  rw [ctxOf_eq]
  · exact fun s c => projRow_real _ _ _ (fun _ => hx _) (fun _ _ => hwq _) (fun _ => hbq _) c
  · exact fun s c => projRow_real _ _ _ (fun _ => hx _) (fun _ _ => hwk _) (fun _ => hbk _) c
  · exact fun s c => projRow_real _ _ _ (fun _ => hx _) (fun _ _ => hwv _) (fun _ => hbv _) c

end Cert.Spec

end
-- ==== Proof.Finite.lean ====
/-
  The precondition, read: where the printed predicate `finite_inputs` is all ones, every entry of every argument array is a
  real (its absolute value is below `+∞`).
-/
import proofs.«136720_g2000702396236789_pallasbulk_1056_14_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

variable [Cert.Pre_finite_inputs.Facts]

/-- The rank-zero shape has exactly one index. -/
private instance : Subsingleton S_.Idx := ⟨fun a b => funext fun d => d.elim0⟩

/-- The pattern `0x7F800000` (exponent all ones, significand zero, sign clear) denotes `+∞`. -/
private theorem inf_eq : Ideal.ofBits .f32 0x7F800000#32 = (⊤ : EReal) := by
  simp [Ideal.ofBits, Ideal.ieee]

/-- A one-bit word made from a Boolean is one exactly when the Boolean holds. -/
private theorem ofBool_eq_one {b : Bool} : BitVec.ofBool b = 1#1 ↔ b = true := by cases b <;> decide

/-- An extended real whose absolute value `max x (-x)` is below `+∞` is a real: `⊤` fails at once, and `-⊥ = ⊤`. -/
private theorem real_of_abs_lt_top (x : EReal) (hx : max x (-x) < ⊤) : ∃ r : ℝ, x = (r : EReal) := by
  induction x using EReal.rec with
  | bot => simp at hx
  | coe r => exact ⟨r, rfl⟩
  | top => simp at hx

/-- One array's conjunct: if the test `|x| < +∞`, taken elementwise and reduced by `and` over every axis, is one, then
    every entry of the array is a real. -/
private theorem real_of_all {s : Shape} {axes : List (Fin s.rank)}
    (hb : S_.BroadcastsInDim s (![] : Fin 0 → Fin s.rank)) (hr : s.ReducesTo axes S_) (h0 : 0 < S_.numel)
    (a : FVec Ideal s .f32)
    (e : Host.reduce IntOp.andi
        (cmpf .olt (Host.absf a) (broadcastInDim s ![] hb (constant (F := Ideal) S_ .f32 0x7F800000#32)))
        (constantI S_ 1 1#1) hr h0 ix0 = 1#1) :
    ∀ i, ∃ r : ℝ, a i = (r : EReal) := by
  intro i
  have h1 := Host.reduce_andi_all _ _ hr h0 ix0 e i
  have h2 : Ideal.cmp .olt (max (a i) (-(a i))) (Ideal.ofBits .f32 0x7F800000#32) = 1#1 := h1
  rw [inf_eq] at h2
  refine real_of_abs_lt_top (a i) ?_
  simpa only [Ideal.cmp, ofBool_eq_one, decide_eq_true_eq] using h2

/-- All ones means every entry of each of the eleven arrays is a real. -/
theorem real_of_fn (a0 : FVec Ideal S64x128x768 .f32) (a1 a2 a3 a4 : FVec Ideal S768x768 .f32)
    (a5 a6 a7 a8 a9 a10 : FVec Ideal S768 .f32)
    (h : fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) := by
  have h0 := congrFun h ValueIdx.ix0
  dsimp only [fn, fn_part1, fn_part2, fn_part3] at h0
  simp only [andi, IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7,
    real_of_all _ _ _ a8 e8, real_of_all _ _ _ a9 e9, real_of_all _ _ _ a10 e10⟩

end Cert.Finite

end
-- ==== Proof.lean ====
/-
  The certificate of one BERT self-attention block computed two ways.

  The fused program computes, per batch element, the three projections, twelve heads of attention with the score scale
  put on the query and the softmax normalisation applied to the context after its product, the output dense layer with
  bias and residual, and the layer normalisation; the three-stage program computes the projections, then per (batch
  element, head) the attention with the scale on the scores and the weights normalised before the product, then the
  output layer and normalisation. At the ideal values each program's result array is one function of the argument arrays
  (`Cert.Spec.GK`, `Cert.Spec.GR`), and on finite inputs the two functions are equal (`Cert.Spec.GK_eq_GR`): a real factor
  moves through a finite sum of reals, and a positive real denominator moves through a finite sum.
  The three frames are the generated frame certificates; no rewrite was made when the fused program was idealised, so
  there is nothing to preserve.
-/
import proofs.«136720_g2000702396236789_pallasbulk_1056_14_alg».proof.Defs
import proofs.«136720_g2000702396236789_pallasbulk_1056_14_alg».proof.Proof.Gen.Kernel
import proofs.«136720_g2000702396236789_pallasbulk_1056_14_alg».proof.Proof.Gen.Kernel.Frame
import proofs.«136720_g2000702396236789_pallasbulk_1056_14_alg».proof.Proof.Gen.KernelIdeal
import proofs.«136720_g2000702396236789_pallasbulk_1056_14_alg».proof.Proof.Gen.KernelIdeal.Frame
import proofs.«136720_g2000702396236789_pallasbulk_1056_14_alg».proof.Proof.Gen.ReferenceIdeal
import proofs.«136720_g2000702396236789_pallasbulk_1056_14_alg».proof.Proof.Gen.ReferenceIdeal.Frame
import proofs.«136720_g2000702396236789_pallasbulk_1056_14_alg».proof.Proof.Gen.Pre_finite_inputs
import proofs.«136720_g2000702396236789_pallasbulk_1056_14_alg».proof.Proof.KRun
import proofs.«136720_g2000702396236789_pallasbulk_1056_14_alg».proof.Proof.RRun
import proofs.«136720_g2000702396236789_pallasbulk_1056_14_alg».proof.Proof.Algebra
import proofs.«136720_g2000702396236789_pallasbulk_1056_14_alg».proof.Proof.Finite
import Idealize.ShloMosaic.Adequacy
import Idealize.ShloMosaic.Init

noncomputable section

namespace Cert.Proof

open Idealize.ShloMosaic Idealize.SL.Sem

/-- Both programs run, and from agreeing finite arguments end with equal results: the fused program's at `GK`, the
    three-stage program's at `GR`, one function there. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  refine ⟨_, Cert.KernelIdeal.KRun.run m ρ, ?_⟩
  refine (θ_run Cert.ReferenceIdeal.defs _ _).mono (fun r h c => ⟨(h c).1.trans ?_, (h c).2⟩)
    (Cert.ReferenceIdeal.RRun.run m' ρ')
  obtain ⟨e0, e1, e2, e3, e4, e5, e6, e7, e8, e9, e10⟩ := hagree c
  rw [e0, e1, e2, e3, e4, e5, e6, e7, e8, e9, e10]
  obtain ⟨r0, r1, r2, r3, -, r5, r6, r7, -, -, -⟩ := Cert.Finite.real_of_fn _ _ _ _ _ _ _ _ _ _ _ (hpre c)
  exact (Cert.Spec.GK_eq_GR _ _ _ _ _ _ _ _ _ _ _ r0 r1 r2 r3 r5 r6 r7).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
